-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S128x256x16 : Shape := ⟨3, ![128, 256, 16]⟩
abbrev S128x256 : Shape := ⟨2, ![128, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S128x256x16 : S_.BroadcastsInDim S128x256x16 (![] : Fin 0 → Fin S128x256x16.rank)
  reducesTo_S128x256x16_S_d0_1_2 : S128x256x16.ReducesTo [0, 1, 2] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S4096x256 .f32) (main_arg1 : FVec F S128x256x16 .f32) (main_arg2 : FVec F S128x256 .f32) (main_arg3 : FVec F S128x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S128x256x16 .f32 := Host.absf main_arg1
  let main_cst_0 : FVec F S_ .f32 := constant S_ .f32 0x7F800000#32
  let main_v5 : FVec F S128x256x16 .f32 := broadcastInDim S128x256x16 ![] bcast_S_S128x256x16 main_cst_0
  let main_v6 : IVec S128x256x16 1 := cmpf .olt main_v4 main_v5
  let main_c_1 : IVec S_ 1 := constantI S_ 1 1#1
  let main_v7 : IVec S_ 1 := (fun x v => Host.reduce IntOp.andi x v reducesTo_S128x256x16_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Kernel.lean ====
abbrev S4096x256 : Shape := ⟨2, ![4096, 256]⟩
abbrev S128x256x16 : Shape := ⟨3, ![128, 256, 16]⟩
abbrev S128x256 : Shape := ⟨2, ![128, 256]⟩
abbrev S16x128x256 : Shape := ⟨3, ![16, 128, 256]⟩
abbrev S4096x128 : Shape := ⟨2, ![4096, 128]⟩
abbrev S512x256 : Shape := ⟨2, ![512, 256]⟩
abbrev S512x128 : Shape := ⟨2, ![512, 128]⟩
abbrev S256x128 : Shape := ⟨2, ![256, 128]⟩
abbrev S1x128x256 : Shape := ⟨3, ![1, 128, 256]⟩

abbrev nBuf : Space → Nat
  | .hbm => 6
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S128x256x16, .f32⟩
  | .hbm, ⟨2, _⟩ => ⟨S128x256, .f32⟩
  | .hbm, ⟨3, _⟩ => ⟨S128x256, .f32⟩
  | .hbm, ⟨4, _⟩ => ⟨S16x128x256, .f32⟩
  | .hbm, ⟨5, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S16x128x256, .f32⟩
  | .local _ .vmem, ⟨3, _⟩ => ⟨S128x256, .f32⟩
  | .local _ .vmem, ⟨4, _⟩ => ⟨S128x256, .f32⟩
  | .local _ .vmem, ⟨5, _⟩ => ⟨S512x128, .f32⟩
  | .local _ .vmem, ⟨6, _⟩ => ⟨S512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x256x16_S16x128x256_2_0_1 : S128x256x16.Transposes [2, 0, 1] S16x128x256
  inb_S512x256_S512x256_0_0 : ∀ a, (![0, 0] : Fin 2 → Nat) a + S512x256.size a ≤ S512x256.size a
  h_S512x256 : 0 < S512x256.numel
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  transposes_S128x256_p1_0_S256x128 : S128x256.Transposes [1, 0] S256x128
  inb_S16x128x256_S1x128x256_0_0_0 : ∀ a, (![0, 0, 0] : Fin 3 → Nat) a + S1x128x256.size a ≤ S16x128x256.size a
  h_S1x128x256 : 0 < S1x128x256.numel
  shapeCasts_S1x128x256_S128x256 : S1x128x256.ShapeCasts S128x256
  inb_S16x128x256_S1x128x256_1_0_0 : ∀ a, (![1, 0, 0] : Fin 3 → Nat) a + S1x128x256.size a ≤ S16x128x256.size a
  inb_S16x128x256_S1x128x256_2_0_0 : ∀ a, (![2, 0, 0] : Fin 3 → Nat) a + S1x128x256.size a ≤ S16x128x256.size a
  inb_S16x128x256_S1x128x256_3_0_0 : ∀ a, (![3, 0, 0] : Fin 3 → Nat) a + S1x128x256.size a ≤ S16x128x256.size a
  inb_S16x128x256_S1x128x256_4_0_0 : ∀ a, (![4, 0, 0] : Fin 3 → Nat) a + S1x128x256.size a ≤ S16x128x256.size a
  inb_S16x128x256_S1x128x256_5_0_0 : ∀ a, (![5, 0, 0] : Fin 3 → Nat) a + S1x128x256.size a ≤ S16x128x256.size a
  inb_S16x128x256_S1x128x256_6_0_0 : ∀ a, (![6, 0, 0] : Fin 3 → Nat) a + S1x128x256.size a ≤ S16x128x256.size a
  inb_S16x128x256_S1x128x256_7_0_0 : ∀ a, (![7, 0, 0] : Fin 3 → Nat) a + S1x128x256.size a ≤ S16x128x256.size a
  inb_S16x128x256_S1x128x256_8_0_0 : ∀ a, (![8, 0, 0] : Fin 3 → Nat) a + S1x128x256.size a ≤ S16x128x256.size a
  inb_S16x128x256_S1x128x256_9_0_0 : ∀ a, (![9, 0, 0] : Fin 3 → Nat) a + S1x128x256.size a ≤ S16x128x256.size a
  inb_S16x128x256_S1x128x256_10_0_0 : ∀ a, (![10, 0, 0] : Fin 3 → Nat) a + S1x128x256.size a ≤ S16x128x256.size a
  inb_S16x128x256_S1x128x256_11_0_0 : ∀ a, (![11, 0, 0] : Fin 3 → Nat) a + S1x128x256.size a ≤ S16x128x256.size a
  inb_S16x128x256_S1x128x256_12_0_0 : ∀ a, (![12, 0, 0] : Fin 3 → Nat) a + S1x128x256.size a ≤ S16x128x256.size a
  inb_S16x128x256_S1x128x256_13_0_0 : ∀ a, (![13, 0, 0] : Fin 3 → Nat) a + S1x128x256.size a ≤ S16x128x256.size a
  inb_S16x128x256_S1x128x256_14_0_0 : ∀ a, (![14, 0, 0] : Fin 3 → Nat) a + S1x128x256.size a ≤ S16x128x256.size a
  inb_S16x128x256_S1x128x256_15_0_0 : ∀ a, (![15, 0, 0] : Fin 3 → Nat) a + S1x128x256.size a ≤ S16x128x256.size a
  inb_S512x128_S512x128_0_0 : ∀ a, (![0, 0] : Fin 2 → Nat) a + S512x128.size a ≤ S512x128.size a
  h_S512x128 : 0 < S512x128.numel
  dot_S512x256_S256x128_S512x128_1_0_0_1_n_n_wf : DotDims.WF S512x256 S256x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128x256.size a ≤ S16x128x256.size a
  hwx0_1 : ∀ i : grid0.Coords, EltTy.bits .f32 = 32 ∨ (Rect.block (s := S16x128x256) S16x128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S4096x128.size a
  hwx0_4 : ∀ i : grid0.Coords, EltTy.bits .f32 = 32 ∨ (Rect.block (s := S4096x128) S512x128.size (cc0_transform_4 i) (hinb0_4 i)).WholeWords (EltTy.packing .f32)

variable [Facts₀]

def dot_S512x256_S256x128_S512x128_1_0_0_1_n_n : DotDims S512x256 S256x128 S512x128 where
  lhsContracting := [1]
  rhsContracting := [0]
  lhsNonContracting := [0]
  rhsNonContracting := [1]
  lhsBatch := []
  rhsBatch := []
  wf := dot_S512x256_S256x128_S512x128_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x256 : Shape := ⟨2, ![4096, 256]⟩
abbrev S128x256x16 : Shape := ⟨3, ![128, 256, 16]⟩
abbrev S128x256 : Shape := ⟨2, ![128, 256]⟩
abbrev S_ : Shape := ⟨0, ![]⟩
abbrev S4096x1x256 : Shape := ⟨3, ![4096, 1, 256]⟩
abbrev S4096x1x256x1 : Shape := ⟨4, ![4096, 1, 256, 1]⟩
abbrev S1x128x256x16 : Shape := ⟨4, ![1, 128, 256, 16]⟩
abbrev S4096x256x1x1 : Shape := ⟨4, ![4096, 256, 1, 1]⟩
abbrev S1 : Shape := ⟨1, ![1]⟩
abbrev S1x1x1x1 : Shape := ⟨4, ![1, 1, 1, 1]⟩
abbrev S4096x256x1 : Shape := ⟨3, ![4096, 256, 1]⟩
abbrev S4096x128x256x1 : Shape := ⟨4, ![4096, 128, 256, 1]⟩
abbrev S4096x128x256 : Shape := ⟨3, ![4096, 128, 256]⟩
abbrev S1x128x256 : Shape := ⟨3, ![1, 128, 256]⟩
abbrev S4096x128 : Shape := ⟨2, ![4096, 128]⟩

abbrev nBuf : Space → Nat
  | .hbm => 118
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S128x256x16, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S4096x256, .f32⟩
  | .hbm, ⟨8, _⟩ => ⟨S4096x256, .f32⟩
  | .hbm, ⟨9, _⟩ => ⟨S_, .f32⟩
  | .hbm, ⟨10, _⟩ => ⟨S4096x256, .f32⟩
  | .hbm, ⟨11, _⟩ => ⟨S4096x256, .f32⟩
  | .hbm, ⟨12, _⟩ => ⟨S_, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S_, .f32⟩
  | .hbm, ⟨19, _⟩ => ⟨S4096x256, .f32⟩
  | .hbm, ⟨20, _⟩ => ⟨S4096x256, .f32⟩
  | .hbm, ⟨21, _⟩ => ⟨S4096x256, .f32⟩
  | .hbm, ⟨22, _⟩ => ⟨S4096x256, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S4096x256, .i32⟩
  | .hbm, ⟨27, _⟩ => ⟨S4096x256, .i32⟩
  | .hbm, ⟨28, _⟩ => ⟨S_, .i32⟩
  | .hbm, ⟨29, _⟩ => ⟨S4096x256, .i32⟩
  | .hbm, ⟨30, _⟩ => ⟨S4096x256, .i32⟩
  | .hbm, ⟨31, _⟩ => ⟨S4096x256, .f32⟩
  | .hbm, ⟨32, _⟩ => ⟨S4096x256, .f32⟩
  | .hbm, ⟨33, _⟩ => ⟨S4096x1x256, .f32⟩
  | .hbm, ⟨34, _⟩ => ⟨S4096x1x256x1, .i32⟩
  | .hbm, ⟨35, _⟩ => ⟨S1x128x256x16, .f32⟩
  | .hbm, ⟨36, _⟩ => ⟨S_, .i32⟩
  | .hbm, ⟨37, _⟩ => ⟨S4096x1x256x1, .i32⟩
  | .hbm, ⟨38, _⟩ => ⟨S4096x1x256x1, .i1⟩
  | .hbm, ⟨39, _⟩ => ⟨S_, .i32⟩
  | .hbm, ⟨40, _⟩ => ⟨S4096x1x256x1, .i32⟩
  | .hbm, ⟨41, _⟩ => ⟨S4096x1x256x1, .i32⟩
  | .hbm, ⟨42, _⟩ => ⟨S4096x1x256x1, .i32⟩
  | .hbm, ⟨43, _⟩ => ⟨S4096x256x1x1, .i32⟩
  | .hbm, ⟨44, _⟩ => ⟨S128x256x16, .f32⟩
  | .hbm, ⟨45, _⟩ => ⟨S1, .i32⟩
  | .hbm, ⟨46, _⟩ => ⟨S_, .i32⟩
  | .hbm, ⟨47, _⟩ => ⟨S4096x256x1x1, .i32⟩
  | .hbm, ⟨48, _⟩ => ⟨S4096x256x1x1, .i1⟩
  | .hbm, ⟨49, _⟩ => ⟨S1x1x1x1, .i32⟩
  | .hbm, ⟨50, _⟩ => ⟨S4096x256x1x1, .i32⟩
  | .hbm, ⟨51, _⟩ => ⟨S4096x256x1x1, .i1⟩
  | .hbm, ⟨52, _⟩ => ⟨S4096x256x1x1, .i1⟩
  | .hbm, ⟨53, _⟩ => ⟨S_, .i1⟩
  | .hbm, ⟨54, _⟩ => ⟨S4096x256x1, .i1⟩
  | .hbm, ⟨55, _⟩ => ⟨S4096x128x256x1, .f32⟩
  | .hbm, ⟨56, _⟩ => ⟨S4096x128x256x1, .i1⟩
  | .hbm, ⟨57, _⟩ => ⟨S_, .f32⟩
  | .hbm, ⟨58, _⟩ => ⟨S4096x128x256x1, .f32⟩
  | .hbm, ⟨59, _⟩ => ⟨S4096x128x256x1, .f32⟩
  | .hbm, ⟨60, _⟩ => ⟨S4096x128x256, .f32⟩
  | .hbm, ⟨61, _⟩ => ⟨S1x128x256x16, .f32⟩
  | .hbm, ⟨62, _⟩ => ⟨S_, .i32⟩
  | .hbm, ⟨63, _⟩ => ⟨S4096x1x256x1, .i32⟩
  | .hbm, ⟨64, _⟩ => ⟨S4096x1x256x1, .i32⟩
  | .hbm, ⟨65, _⟩ => ⟨S_, .i32⟩
  | .hbm, ⟨66, _⟩ => ⟨S4096x1x256x1, .i32⟩
  | .hbm, ⟨67, _⟩ => ⟨S4096x1x256x1, .i1⟩
  | .hbm, ⟨68, _⟩ => ⟨S_, .i32⟩
  | .hbm, ⟨69, _⟩ => ⟨S4096x1x256x1, .i32⟩
  | .hbm, ⟨70, _⟩ => ⟨S4096x1x256x1, .i32⟩
  | .hbm, ⟨71, _⟩ => ⟨S4096x1x256x1, .i32⟩
  | .hbm, ⟨72, _⟩ => ⟨S4096x256x1x1, .i32⟩
  | .hbm, ⟨73, _⟩ => ⟨S128x256x16, .f32⟩
  | .hbm, ⟨74, _⟩ => ⟨S1, .i32⟩
  | .hbm, ⟨75, _⟩ => ⟨S_, .i32⟩
  | .hbm, ⟨76, _⟩ => ⟨S4096x256x1x1, .i32⟩
  | .hbm, ⟨77, _⟩ => ⟨S4096x256x1x1, .i1⟩
  | .hbm, ⟨78, _⟩ => ⟨S1x1x1x1, .i32⟩
  | .hbm, ⟨79, _⟩ => ⟨S4096x256x1x1, .i32⟩
  | .hbm, ⟨80, _⟩ => ⟨S4096x256x1x1, .i1⟩
  | .hbm, ⟨81, _⟩ => ⟨S4096x256x1x1, .i1⟩
  | .hbm, ⟨82, _⟩ => ⟨S_, .i1⟩
  | .hbm, ⟨83, _⟩ => ⟨S4096x256x1, .i1⟩
  | .hbm, ⟨84, _⟩ => ⟨S4096x128x256x1, .f32⟩
  | .hbm, ⟨85, _⟩ => ⟨S4096x128x256x1, .i1⟩
  | .hbm, ⟨86, _⟩ => ⟨S_, .f32⟩
  | .hbm, ⟨87, _⟩ => ⟨S4096x128x256x1, .f32⟩
  | .hbm, ⟨88, _⟩ => ⟨S4096x128x256x1, .f32⟩
  | .hbm, ⟨89, _⟩ => ⟨S4096x128x256, .f32⟩
  | .hbm, ⟨90, _⟩ => ⟨S_, .f32⟩
  | .hbm, ⟨91, _⟩ => ⟨S4096x1x256, .f32⟩
  | .hbm, ⟨92, _⟩ => ⟨S4096x1x256, .f32⟩
  | .hbm, ⟨93, _⟩ => ⟨S4096x128x256, .f32⟩
  | .hbm, ⟨94, _⟩ => ⟨S4096x128x256, .f32⟩
  | .hbm, ⟨95, _⟩ => ⟨S4096x128x256, .f32⟩
  | .hbm, ⟨96, _⟩ => ⟨S4096x128x256, .f32⟩
  | .hbm, ⟨97, _⟩ => ⟨S4096x128x256, .f32⟩
  | .hbm, ⟨98, _⟩ => ⟨S4096x256, .f32⟩
  | .hbm, ⟨99, _⟩ => ⟨S4096x256, .f32⟩
  | .hbm, ⟨100, _⟩ => ⟨S_, .f32⟩
  | .hbm, ⟨101, _⟩ => ⟨S4096x256, .f32⟩
  | .hbm, ⟨102, _⟩ => ⟨S4096x256, .f32⟩
  | .hbm, ⟨103, _⟩ => ⟨S_, .f32⟩
  | .hbm, ⟨104, _⟩ => ⟨S4096x256, .f32⟩
  | .hbm, ⟨105, _⟩ => ⟨S4096x256, .f32⟩
  | .hbm, ⟨106, _⟩ => ⟨S4096x256, .f32⟩
  | .hbm, ⟨107, _⟩ => ⟨S4096x1x256, .f32⟩
  | .hbm, ⟨108, _⟩ => ⟨S1x128x256, .f32⟩
  | .hbm, ⟨109, _⟩ => ⟨S4096x128x256, .f32⟩
  | .hbm, ⟨110, _⟩ => ⟨S4096x128x256, .f32⟩
  | .hbm, ⟨111, _⟩ => ⟨S4096x128x256, .f32⟩
  | .hbm, ⟨112, _⟩ => ⟨S1x128x256, .f32⟩
  | .hbm, ⟨113, _⟩ => ⟨S4096x128x256, .f32⟩
  | .hbm, ⟨114, _⟩ => ⟨S4096x128x256, .f32⟩
  | .hbm, ⟨115, _⟩ => ⟨S4096x128x256, .f32⟩
  | .hbm, ⟨116, _⟩ => ⟨S_, .f32⟩
  | .hbm, ⟨117, _⟩ => ⟨S4096x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_v2 : Ref sig .tc := ⟨.hbm, 14, rfl⟩
abbrev main_cst_2 : Ref sig .tc := ⟨.hbm, 15, rfl⟩
abbrev main_v3 : Ref sig .tc := ⟨.hbm, 16, rfl⟩
abbrev main_v4 : Ref sig .tc := ⟨.hbm, 17, rfl⟩
abbrev main_cst_3 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_c_1 : Ref sig .tc := ⟨.hbm, 45, rfl⟩
abbrev main_call2_c_2 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_v12 : Ref sig .tc := ⟨.hbm, 52, rfl⟩
abbrev main_call2_c_3 : Ref sig .tc := ⟨.hbm, 53, rfl⟩
abbrev main_call2_v13 : Ref sig .tc := ⟨.hbm, 54, rfl⟩
abbrev main_call2_v14 : Ref sig .tc := ⟨.hbm, 55, rfl⟩
abbrev main_call2_v15 : Ref sig .tc := ⟨.hbm, 56, rfl⟩
abbrev main_call2_cst : Ref sig .tc := ⟨.hbm, 57, rfl⟩
abbrev main_call2_v16 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_c_5 : Ref sig .tc := ⟨.hbm, 62, rfl⟩
abbrev main_v18 : Ref sig .tc := ⟨.hbm, 63, rfl⟩
abbrev main_v19 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_v5 : Ref sig .tc := ⟨.hbm, 72, rfl⟩
abbrev main_call3_v6 : Ref sig .tc := ⟨.hbm, 73, rfl⟩
abbrev main_call3_c_1 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_v9 : Ref sig .tc := ⟨.hbm, 78, rfl⟩
abbrev main_call3_v10 : Ref sig .tc := ⟨.hbm, 79, rfl⟩
abbrev main_call3_v11 : Ref sig .tc := ⟨.hbm, 80, rfl⟩
abbrev main_call3_v12 : Ref sig .tc := ⟨.hbm, 81, rfl⟩
abbrev main_call3_c_3 : Ref sig .tc := ⟨.hbm, 82, rfl⟩
abbrev main_call3_v13 : Ref sig .tc := ⟨.hbm, 83, rfl⟩
abbrev main_call3_v14 : Ref sig .tc := ⟨.hbm, 84, rfl⟩
abbrev main_call3_v15 : Ref sig .tc := ⟨.hbm, 85, rfl⟩
abbrev main_call3_cst : Ref sig .tc := ⟨.hbm, 86, rfl⟩
abbrev main_call3_v16 : Ref sig .tc := ⟨.hbm, 87, rfl⟩
abbrev main_v20 : Ref sig .tc := ⟨.hbm, 88, rfl⟩
abbrev main_v21 : Ref sig .tc := ⟨.hbm, 89, rfl⟩
abbrev main_cst_6 : Ref sig .tc := ⟨.hbm, 90, rfl⟩
abbrev main_v22 : Ref sig .tc := ⟨.hbm, 91, rfl⟩
abbrev main_v23 : Ref sig .tc := ⟨.hbm, 92, rfl⟩
abbrev main_v24 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_call4_v0 : Ref sig .tc := ⟨.hbm, 98, rfl⟩
abbrev main_call4_v1 : Ref sig .tc := ⟨.hbm, 99, rfl⟩
abbrev main_call4_cst : Ref sig .tc := ⟨.hbm, 100, rfl⟩
abbrev main_call4_v2 : Ref sig .tc := ⟨.hbm, 101, rfl⟩
abbrev main_call4_v3 : Ref sig .tc := ⟨.hbm, 102, rfl⟩
abbrev main_call4_cst_0 : Ref sig .tc := ⟨.hbm, 103, rfl⟩
abbrev main_call4_v4 : Ref sig .tc := ⟨.hbm, 104, rfl⟩
abbrev main_call4_v5 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_cst_7 : Ref sig .tc := ⟨.hbm, 116, rfl⟩
abbrev main_v39 : Ref sig .tc := ⟨.hbm, 117, rfl⟩

abbrev nD : Nat := 1
abbrev τ : Topo := Topo.v7x

variable {F : FTy → Type} [FloatOps F]

class Facts₀ : Prop where
  bcast_S_S4096x256 : S_.BroadcastsInDim S4096x256 (![] : Fin 0 → Fin S4096x256.rank)
  bcast_S4096x256_S4096x1x256_0_2 : S4096x256.BroadcastsInDim S4096x1x256 (![0, 2] : Fin 2 → Fin S4096x1x256.rank)
  bcast_S4096x256_S4096x1x256x1_0_2 : S4096x256.BroadcastsInDim S4096x1x256x1 (![0, 2] : Fin 2 → Fin S4096x1x256x1.rank)
  bcast_S128x256x16_S1x128x256x16_1_2_3 : S128x256x16.BroadcastsInDim S1x128x256x16 (![1, 2, 3] : Fin 3 → Fin S1x128x256x16.rank)
  bcast_S_S4096x1x256x1 : S_.BroadcastsInDim S4096x1x256x1 (![] : Fin 0 → Fin S4096x1x256x1.rank)
  shapeCasts_S4096x1x256x1_S4096x256x1x1 : S4096x1x256x1.ShapeCasts S4096x256x1x1
  shapeCasts_S1x128x256x16_S128x256x16 : S1x128x256x16.ShapeCasts S128x256x16
  bcast_S_S4096x256x1x1 : S_.BroadcastsInDim S4096x256x1x1 (![] : Fin 0 → Fin S4096x256x1x1.rank)
  bcast_S1_S1x1x1x1_3 : S1.BroadcastsInDim S1x1x1x1 (![3] : Fin 1 → Fin S1x1x1x1.rank)
  bcast_S1x1x1x1_S4096x256x1x1_0_1_2_3 : S1x1x1x1.BroadcastsInDim S4096x256x1x1 (![0, 1, 2, 3] : Fin 4 → Fin S4096x256x1x1.rank)
  reducesTo_S4096x256x1x1_S4096x256x1_d3 : S4096x256x1x1.ReducesTo [3] S4096x256x1
  h_S_ : 0 < S_.numel
  bcast_S4096x256x1_S4096x128x256x1_0_2_3 : S4096x256x1.BroadcastsInDim S4096x128x256x1 (![0, 2, 3] : Fin 3 → Fin S4096x128x256x1.rank)
  bcast_S_S4096x128x256x1 : S_.BroadcastsInDim S4096x128x256x1 (![] : Fin 0 → Fin S4096x128x256x1.rank)
  shapeCasts_S4096x128x256x1_S4096x128x256 : S4096x128x256x1.ShapeCasts S4096x128x256
  bcast_S_S4096x1x256 : S_.BroadcastsInDim S4096x1x256 (![] : Fin 0 → Fin S4096x1x256.rank)
  bcast_S4096x1x256_S4096x128x256_0_1_2 : S4096x1x256.BroadcastsInDim S4096x128x256 (![0, 1, 2] : Fin 3 → Fin S4096x128x256.rank)
  bcast_S128x256_S1x128x256_1_2 : S128x256.BroadcastsInDim S1x128x256 (![1, 2] : Fin 2 → Fin S1x128x256.rank)
  bcast_S1x128x256_S4096x128x256_0_1_2 : S1x128x256.BroadcastsInDim S4096x128x256 (![0, 1, 2] : Fin 3 → Fin S4096x128x256.rank)
  reducesTo_S4096x128x256_S4096x128_d2 : S4096x128x256.ReducesTo [2] S4096x128
  gather_S128x256x16_S4096x256x1x1_S4096x128x256x1_1_2_1_1_2_3_12811_wf : GatherDims.WF S128x256x16 S4096x256x1x1 S4096x128x256x1 [1] [2] [1] [2] [1] 3 ![128, 1, 1]

variable [Facts₀]

def gather_S128x256x16_S4096x256x1x1_S4096x128x256x1_1_2_1_1_2_3_12811 : GatherDims S128x256x16 S4096x256x1x1 S4096x128x256x1 where
  offsetDims := [1]
  collapsedSliceDims := [2]
  operandBatchingDims := [1]
  startIndicesBatchingDims := [1]
  startIndexMap := [2]
  indexVectorDim := 3
  sliceSizes := ![128, 1, 1]
  wf := gather_S128x256x16_S4096x256x1x1_S4096x128x256x1_1_2_1_1_2_3_12811_wf

class Facts : Prop extends Facts₀ where

variable [Facts]
-- ==== Proof.RefStages.lean ====
/-
  The reference's run, read back in five stretches.  Its 114 host operations are cut where few values are live:
  after the knot coordinate t; after the left-knot words, the weight α and the broadcast table; after the first
  indexed read; after the second; and the interpolation, the base term and the final sum.  For each stretch: the
  buffers later stretches read hold the stage-by-stage values of the argument arrays, and the buffers it does not
  write are as before.  Composed, the result buffer holds the last stage of the four arguments.
-/
import proofs.«102799_j21638045237976_1_alg».proof.Proof.RefRun
import proofs.«102799_j21638045237976_1_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-! ## The five stretches -/

/-- Up to the knot coordinate t = (clip(x) + 2) / 4 · 15. -/
abbrev ops1 : List (HloOp τ sig (Elt F)) :=
  [ nullary main_cst (constant S_ .f32 0xC0000000#32),
    nullary main_cst_0 (constant S_ .f32 0x40000000#32),
    unary main_cst main_call0_v0 ((id) : (⟨S_, .f32⟩ : BufTy).Contents (Elt F) → (⟨S_, .f32⟩ : BufTy).Contents (Elt F)),
    unary main_call0_v0 main_call0_v1 (((broadcastInDim S4096x256 ![] bcast_S_S4096x256)) : (⟨S_, .f32⟩ : BufTy).Contents (Elt F) → (⟨S4096x256, .f32⟩ : BufTy).Contents (Elt F)),
    binary main_call0_v1 main_arg0 main_call0_v2 ((maximumf) : (⟨S4096x256, .f32⟩ : BufTy).Contents (Elt F) → (⟨S4096x256, .f32⟩ : BufTy).Contents (Elt F) → (⟨S4096x256, .f32⟩ : BufTy).Contents (Elt F)),
    unary main_cst_0 main_call0_v3 ((id) : (⟨S_, .f32⟩ : BufTy).Contents (Elt F) → (⟨S_, .f32⟩ : BufTy).Contents (Elt F)),
    unary main_call0_v3 main_call0_v4 (((broadcastInDim S4096x256 ![] bcast_S_S4096x256)) : (⟨S_, .f32⟩ : BufTy).Contents (Elt F) → (⟨S4096x256, .f32⟩ : BufTy).Contents (Elt F)),
    binary main_call0_v4 main_call0_v2 main_v0 ((minimumf) : (⟨S4096x256, .f32⟩ : BufTy).Contents (Elt F) → (⟨S4096x256, .f32⟩ : BufTy).Contents (Elt F) → (⟨S4096x256, .f32⟩ : BufTy).Contents (Elt F)),
    nullary main_cst_1 (constant S_ .f32 0xC0000000#32),
    unary main_cst_1 main_v1 (broadcastInDim S4096x256 ![] bcast_S_S4096x256 : (⟨S_, .f32⟩ : BufTy).Contents (Elt F) → (⟨S4096x256, .f32⟩ : BufTy).Contents (Elt F)),
    binary main_v0 main_v1 main_v2 (subf : (⟨S4096x256, .f32⟩ : BufTy).Contents (Elt F) → (⟨S4096x256, .f32⟩ : BufTy).Contents (Elt F) → (⟨S4096x256, .f32⟩ : BufTy).Contents (Elt F)),
    nullary main_cst_2 (constant S_ .f32 0x40800000#32),
    unary main_cst_2 main_v3 (broadcastInDim S4096x256 ![] bcast_S_S4096x256 : (⟨S_, .f32⟩ : BufTy).Contents (Elt F) → (⟨S4096x256, .f32⟩ : BufTy).Contents (Elt F)),
    binary main_v2 main_v3 main_v4 (Host.divf : (⟨S4096x256, .f32⟩ : BufTy).Contents (Elt F) → (⟨S4096x256, .f32⟩ : BufTy).Contents (Elt F) → (⟨S4096x256, .f32⟩ : BufTy).Contents (Elt F)),
    nullary main_cst_3 (constant S_ .f32 0x41700000#32),
    unary main_cst_3 main_v5 (broadcastInDim S4096x256 ![] bcast_S_S4096x256 : (⟨S_, .f32⟩ : BufTy).Contents (Elt F) → (⟨S4096x256, .f32⟩ : BufTy).Contents (Elt F)),
    binary main_v4 main_v5 main_v6 (mulf : (⟨S4096x256, .f32⟩ : BufTy).Contents (Elt F) → (⟨S4096x256, .f32⟩ : BufTy).Contents (Elt F) → (⟨S4096x256, .f32⟩ : BufTy).Contents (Elt F)) ]

/-- The left-knot word (floor, convert, clamp), the weight α = t - L, and the broadcasts the indexed reads take. -/
abbrev ops2 : List (HloOp τ sig (Elt F)) :=
  [ unary main_v6 main_v7 (Host.floor : (⟨S4096x256, .f32⟩ : BufTy).Contents (Elt F) → (⟨S4096x256, .f32⟩ : BufTy).Contents (Elt F)),
    unary main_v7 main_v8 (fptosi 32 : (⟨S4096x256, .f32⟩ : BufTy).Contents (Elt F) → (⟨S4096x256, .i32⟩ : BufTy).Contents (Elt F)),
    nullary main_c (constantI S_ 32 0#32),
    nullary main_c_4 (constantI S_ 32 14#32),
    unary main_c main_call1_v0 ((id) : (⟨S_, .i32⟩ : BufTy).Contents (Elt F) → (⟨S_, .i32⟩ : BufTy).Contents (Elt F)),
    unary main_call1_v0 main_call1_v1 (((broadcastInDim S4096x256 ![] bcast_S_S4096x256)) : (⟨S_, .i32⟩ : BufTy).Contents (Elt F) → (⟨S4096x256, .i32⟩ : BufTy).Contents (Elt F)),
    binary main_call1_v1 main_v8 main_call1_v2 ((maxsi) : (⟨S4096x256, .i32⟩ : BufTy).Contents (Elt F) → (⟨S4096x256, .i32⟩ : BufTy).Contents (Elt F) → (⟨S4096x256, .i32⟩ : BufTy).Contents (Elt F)),
    unary main_c_4 main_call1_v3 ((id) : (⟨S_, .i32⟩ : BufTy).Contents (Elt F) → (⟨S_, .i32⟩ : BufTy).Contents (Elt F)),
    unary main_call1_v3 main_call1_v4 (((broadcastInDim S4096x256 ![] bcast_S_S4096x256)) : (⟨S_, .i32⟩ : BufTy).Contents (Elt F) → (⟨S4096x256, .i32⟩ : BufTy).Contents (Elt F)),
    binary main_call1_v4 main_call1_v2 main_v9 ((minsi) : (⟨S4096x256, .i32⟩ : BufTy).Contents (Elt F) → (⟨S4096x256, .i32⟩ : BufTy).Contents (Elt F) → (⟨S4096x256, .i32⟩ : BufTy).Contents (Elt F)),
    unary main_v9 main_v10 (sitofp .f32 : (⟨S4096x256, .i32⟩ : BufTy).Contents (Elt F) → (⟨S4096x256, .f32⟩ : BufTy).Contents (Elt F)),
    binary main_v6 main_v10 main_v11 (subf : (⟨S4096x256, .f32⟩ : BufTy).Contents (Elt F) → (⟨S4096x256, .f32⟩ : BufTy).Contents (Elt F) → (⟨S4096x256, .f32⟩ : BufTy).Contents (Elt F)),
    unary main_v11 main_v12 (broadcastInDim S4096x1x256 ![0, 2] bcast_S4096x256_S4096x1x256_0_2 : (⟨S4096x256, .f32⟩ : BufTy).Contents (Elt F) → (⟨S4096x1x256, .f32⟩ : BufTy).Contents (Elt F)),
    unary main_v9 main_v13 (broadcastInDim S4096x1x256x1 ![0, 2] bcast_S4096x256_S4096x1x256x1_0_2 : (⟨S4096x256, .i32⟩ : BufTy).Contents (Elt F) → (⟨S4096x1x256x1, .i32⟩ : BufTy).Contents (Elt F)),
    unary main_arg1 main_v14 (broadcastInDim S1x128x256x16 ![1, 2, 3] bcast_S128x256x16_S1x128x256x16_1_2_3 : (⟨S128x256x16, .f32⟩ : BufTy).Contents (Elt F) → (⟨S1x128x256x16, .f32⟩ : BufTy).Contents (Elt F)) ]

/-- The first indexed read (at L) and its reshape. -/
abbrev ops3 : List (HloOp τ sig (Elt F)) :=
  [ nullary main_call2_c (((constantI S_ 32 0#32)) : (⟨S_, .i32⟩ : BufTy).Contents (Elt F)),
    unary main_call2_c main_call2_v0 (((broadcastInDim S4096x1x256x1 ![] bcast_S_S4096x1x256x1)) : (⟨S_, .i32⟩ : BufTy).Contents (Elt F) → (⟨S4096x1x256x1, .i32⟩ : BufTy).Contents (Elt F)),
    binary main_v13 main_call2_v0 main_call2_v1 (((cmpi .slt)) : (⟨S4096x1x256x1, .i32⟩ : BufTy).Contents (Elt F) → (⟨S4096x1x256x1, .i32⟩ : BufTy).Contents (Elt F) → (⟨S4096x1x256x1, .i1⟩ : BufTy).Contents (Elt F)),
    nullary main_call2_c_0 (((constantI S_ 32 16#32)) : (⟨S_, .i32⟩ : BufTy).Contents (Elt F)),
    unary main_call2_c_0 main_call2_v2 (((broadcastInDim S4096x1x256x1 ![] bcast_S_S4096x1x256x1)) : (⟨S_, .i32⟩ : BufTy).Contents (Elt F) → (⟨S4096x1x256x1, .i32⟩ : BufTy).Contents (Elt F)),
    binary main_v13 main_call2_v2 main_call2_v3 ((addi) : (⟨S4096x1x256x1, .i32⟩ : BufTy).Contents (Elt F) → (⟨S4096x1x256x1, .i32⟩ : BufTy).Contents (Elt F) → (⟨S4096x1x256x1, .i32⟩ : BufTy).Contents (Elt F)),
    ternary main_call2_v1 main_call2_v3 main_v13 main_call2_v4 ((select) : (⟨S4096x1x256x1, .i1⟩ : BufTy).Contents (Elt F) → (⟨S4096x1x256x1, .i32⟩ : BufTy).Contents (Elt F) → (⟨S4096x1x256x1, .i32⟩ : BufTy).Contents (Elt F) → (⟨S4096x1x256x1, .i32⟩ : BufTy).Contents (Elt F)),
    reshape main_call2_v4 main_call2_v5 rfl shapeCasts_S4096x1x256x1_S4096x256x1x1,
    reshape main_v14 main_call2_v6 rfl shapeCasts_S1x128x256x16_S128x256x16,
    nullary main_call2_c_1 (((constantI S1 32 15#32)) : (⟨S1, .i32⟩ : BufTy).Contents (Elt F)),
    nullary main_call2_c_2 (((constantI S_ 32 0#32)) : (⟨S_, .i32⟩ : BufTy).Contents (Elt F)),
    unary main_call2_c_2 main_call2_v7 (((broadcastInDim S4096x256x1x1 ![] bcast_S_S4096x256x1x1)) : (⟨S_, .i32⟩ : BufTy).Contents (Elt F) → (⟨S4096x256x1x1, .i32⟩ : BufTy).Contents (Elt F)),
    binary main_call2_v5 main_call2_v7 main_call2_v8 (((cmpi .sge)) : (⟨S4096x256x1x1, .i32⟩ : BufTy).Contents (Elt F) → (⟨S4096x256x1x1, .i32⟩ : BufTy).Contents (Elt F) → (⟨S4096x256x1x1, .i1⟩ : BufTy).Contents (Elt F)),
    unary main_call2_c_1 main_call2_v9 (((broadcastInDim S1x1x1x1 ![3] bcast_S1_S1x1x1x1_3)) : (⟨S1, .i32⟩ : BufTy).Contents (Elt F) → (⟨S1x1x1x1, .i32⟩ : BufTy).Contents (Elt F)),
    unary main_call2_v9 main_call2_v10 (((broadcastInDim S4096x256x1x1 ![0, 1, 2, 3] bcast_S1x1x1x1_S4096x256x1x1_0_1_2_3)) : (⟨S1x1x1x1, .i32⟩ : BufTy).Contents (Elt F) → (⟨S4096x256x1x1, .i32⟩ : BufTy).Contents (Elt F)),
    binary main_call2_v5 main_call2_v10 main_call2_v11 (((cmpi .sle)) : (⟨S4096x256x1x1, .i32⟩ : BufTy).Contents (Elt F) → (⟨S4096x256x1x1, .i32⟩ : BufTy).Contents (Elt F) → (⟨S4096x256x1x1, .i1⟩ : BufTy).Contents (Elt F)),
    binary main_call2_v8 main_call2_v11 main_call2_v12 ((andi) : (⟨S4096x256x1x1, .i1⟩ : BufTy).Contents (Elt F) → (⟨S4096x256x1x1, .i1⟩ : BufTy).Contents (Elt F) → (⟨S4096x256x1x1, .i1⟩ : BufTy).Contents (Elt F)),
    nullary main_call2_c_3 (((constantI S_ 1 1#1)) : (⟨S_, .i1⟩ : BufTy).Contents (Elt F)),
    binary main_call2_v12 main_call2_c_3 main_call2_v13 (((fun x v => Host.reduce IntOp.andi x v reducesTo_S4096x256x1x1_S4096x256x1_d3 h_S_)) : (⟨S4096x256x1x1, .i1⟩ : BufTy).Contents (Elt F) → (⟨S_, .i1⟩ : BufTy).Contents (Elt F) → (⟨S4096x256x1, .i1⟩ : BufTy).Contents (Elt F)),
    binary main_call2_v6 main_call2_v5 main_call2_v14 (((fun x i => Host.gather gather_S128x256x16_S4096x256x1x1_S4096x128x256x1_1_2_1_1_2_3_12811 x i)) : (⟨S128x256x16, .f32⟩ : BufTy).Contents (Elt F) → (⟨S4096x256x1x1, .i32⟩ : BufTy).Contents (Elt F) → (⟨S4096x128x256x1, .f32⟩ : BufTy).Contents (Elt F)),
    unary main_call2_v13 main_call2_v15 (((broadcastInDim S4096x128x256x1 ![0, 2, 3] bcast_S4096x256x1_S4096x128x256x1_0_2_3)) : (⟨S4096x256x1, .i1⟩ : BufTy).Contents (Elt F) → (⟨S4096x128x256x1, .i1⟩ : BufTy).Contents (Elt F)),
    nullary main_call2_cst (((constant S_ .f32 0x7FC00000#32)) : (⟨S_, .f32⟩ : BufTy).Contents (Elt F)),
    unary main_call2_cst main_call2_v16 (((broadcastInDim S4096x128x256x1 ![] bcast_S_S4096x128x256x1)) : (⟨S_, .f32⟩ : BufTy).Contents (Elt F) → (⟨S4096x128x256x1, .f32⟩ : BufTy).Contents (Elt F)),
    ternary main_call2_v15 main_call2_v14 main_call2_v16 main_v15 ((select) : (⟨S4096x128x256x1, .i1⟩ : BufTy).Contents (Elt F) → (⟨S4096x128x256x1, .f32⟩ : BufTy).Contents (Elt F) → (⟨S4096x128x256x1, .f32⟩ : BufTy).Contents (Elt F) → (⟨S4096x128x256x1, .f32⟩ : BufTy).Contents (Elt F)),
    reshape main_v15 main_v16 rfl shapeCasts_S4096x128x256x1_S4096x128x256 ]

/-- The second indexed read (at L + 1) and its reshape. -/
abbrev ops4 : List (HloOp τ sig (Elt F)) :=
  [ unary main_arg1 main_v17 (broadcastInDim S1x128x256x16 ![1, 2, 3] bcast_S128x256x16_S1x128x256x16_1_2_3 : (⟨S128x256x16, .f32⟩ : BufTy).Contents (Elt F) → (⟨S1x128x256x16, .f32⟩ : BufTy).Contents (Elt F)),
    nullary main_c_5 (constantI S_ 32 1#32),
    unary main_c_5 main_v18 (broadcastInDim S4096x1x256x1 ![] bcast_S_S4096x1x256x1 : (⟨S_, .i32⟩ : BufTy).Contents (Elt F) → (⟨S4096x1x256x1, .i32⟩ : BufTy).Contents (Elt F)),
    binary main_v13 main_v18 main_v19 (addi : (⟨S4096x1x256x1, .i32⟩ : BufTy).Contents (Elt F) → (⟨S4096x1x256x1, .i32⟩ : BufTy).Contents (Elt F) → (⟨S4096x1x256x1, .i32⟩ : BufTy).Contents (Elt F)),
    nullary main_call3_c (((constantI S_ 32 0#32)) : (⟨S_, .i32⟩ : BufTy).Contents (Elt F)),
    unary main_call3_c main_call3_v0 (((broadcastInDim S4096x1x256x1 ![] bcast_S_S4096x1x256x1)) : (⟨S_, .i32⟩ : BufTy).Contents (Elt F) → (⟨S4096x1x256x1, .i32⟩ : BufTy).Contents (Elt F)),
    binary main_v19 main_call3_v0 main_call3_v1 (((cmpi .slt)) : (⟨S4096x1x256x1, .i32⟩ : BufTy).Contents (Elt F) → (⟨S4096x1x256x1, .i32⟩ : BufTy).Contents (Elt F) → (⟨S4096x1x256x1, .i1⟩ : BufTy).Contents (Elt F)),
    nullary main_call3_c_0 (((constantI S_ 32 16#32)) : (⟨S_, .i32⟩ : BufTy).Contents (Elt F)),
    unary main_call3_c_0 main_call3_v2 (((broadcastInDim S4096x1x256x1 ![] bcast_S_S4096x1x256x1)) : (⟨S_, .i32⟩ : BufTy).Contents (Elt F) → (⟨S4096x1x256x1, .i32⟩ : BufTy).Contents (Elt F)),
    binary main_v19 main_call3_v2 main_call3_v3 ((addi) : (⟨S4096x1x256x1, .i32⟩ : BufTy).Contents (Elt F) → (⟨S4096x1x256x1, .i32⟩ : BufTy).Contents (Elt F) → (⟨S4096x1x256x1, .i32⟩ : BufTy).Contents (Elt F)),
    ternary main_call3_v1 main_call3_v3 main_v19 main_call3_v4 ((select) : (⟨S4096x1x256x1, .i1⟩ : BufTy).Contents (Elt F) → (⟨S4096x1x256x1, .i32⟩ : BufTy).Contents (Elt F) → (⟨S4096x1x256x1, .i32⟩ : BufTy).Contents (Elt F) → (⟨S4096x1x256x1, .i32⟩ : BufTy).Contents (Elt F)),
    reshape main_call3_v4 main_call3_v5 rfl shapeCasts_S4096x1x256x1_S4096x256x1x1,
    reshape main_v17 main_call3_v6 rfl shapeCasts_S1x128x256x16_S128x256x16,
    nullary main_call3_c_1 (((constantI S1 32 15#32)) : (⟨S1, .i32⟩ : BufTy).Contents (Elt F)),
    nullary main_call3_c_2 (((constantI S_ 32 0#32)) : (⟨S_, .i32⟩ : BufTy).Contents (Elt F)),
    unary main_call3_c_2 main_call3_v7 (((broadcastInDim S4096x256x1x1 ![] bcast_S_S4096x256x1x1)) : (⟨S_, .i32⟩ : BufTy).Contents (Elt F) → (⟨S4096x256x1x1, .i32⟩ : BufTy).Contents (Elt F)),
    binary main_call3_v5 main_call3_v7 main_call3_v8 (((cmpi .sge)) : (⟨S4096x256x1x1, .i32⟩ : BufTy).Contents (Elt F) → (⟨S4096x256x1x1, .i32⟩ : BufTy).Contents (Elt F) → (⟨S4096x256x1x1, .i1⟩ : BufTy).Contents (Elt F)),
    unary main_call3_c_1 main_call3_v9 (((broadcastInDim S1x1x1x1 ![3] bcast_S1_S1x1x1x1_3)) : (⟨S1, .i32⟩ : BufTy).Contents (Elt F) → (⟨S1x1x1x1, .i32⟩ : BufTy).Contents (Elt F)),
    unary main_call3_v9 main_call3_v10 (((broadcastInDim S4096x256x1x1 ![0, 1, 2, 3] bcast_S1x1x1x1_S4096x256x1x1_0_1_2_3)) : (⟨S1x1x1x1, .i32⟩ : BufTy).Contents (Elt F) → (⟨S4096x256x1x1, .i32⟩ : BufTy).Contents (Elt F)),
    binary main_call3_v5 main_call3_v10 main_call3_v11 (((cmpi .sle)) : (⟨S4096x256x1x1, .i32⟩ : BufTy).Contents (Elt F) → (⟨S4096x256x1x1, .i32⟩ : BufTy).Contents (Elt F) → (⟨S4096x256x1x1, .i1⟩ : BufTy).Contents (Elt F)),
    binary main_call3_v8 main_call3_v11 main_call3_v12 ((andi) : (⟨S4096x256x1x1, .i1⟩ : BufTy).Contents (Elt F) → (⟨S4096x256x1x1, .i1⟩ : BufTy).Contents (Elt F) → (⟨S4096x256x1x1, .i1⟩ : BufTy).Contents (Elt F)),
    nullary main_call3_c_3 (((constantI S_ 1 1#1)) : (⟨S_, .i1⟩ : BufTy).Contents (Elt F)),
    binary main_call3_v12 main_call3_c_3 main_call3_v13 (((fun x v => Host.reduce IntOp.andi x v reducesTo_S4096x256x1x1_S4096x256x1_d3 h_S_)) : (⟨S4096x256x1x1, .i1⟩ : BufTy).Contents (Elt F) → (⟨S_, .i1⟩ : BufTy).Contents (Elt F) → (⟨S4096x256x1, .i1⟩ : BufTy).Contents (Elt F)),
    binary main_call3_v6 main_call3_v5 main_call3_v14 (((fun x i => Host.gather gather_S128x256x16_S4096x256x1x1_S4096x128x256x1_1_2_1_1_2_3_12811 x i)) : (⟨S128x256x16, .f32⟩ : BufTy).Contents (Elt F) → (⟨S4096x256x1x1, .i32⟩ : BufTy).Contents (Elt F) → (⟨S4096x128x256x1, .f32⟩ : BufTy).Contents (Elt F)),
    unary main_call3_v13 main_call3_v15 (((broadcastInDim S4096x128x256x1 ![0, 2, 3] bcast_S4096x256x1_S4096x128x256x1_0_2_3)) : (⟨S4096x256x1, .i1⟩ : BufTy).Contents (Elt F) → (⟨S4096x128x256x1, .i1⟩ : BufTy).Contents (Elt F)),
    nullary main_call3_cst (((constant S_ .f32 0x7FC00000#32)) : (⟨S_, .f32⟩ : BufTy).Contents (Elt F)),
    unary main_call3_cst main_call3_v16 (((broadcastInDim S4096x128x256x1 ![] bcast_S_S4096x128x256x1)) : (⟨S_, .f32⟩ : BufTy).Contents (Elt F) → (⟨S4096x128x256x1, .f32⟩ : BufTy).Contents (Elt F)),
    ternary main_call3_v15 main_call3_v14 main_call3_v16 main_v20 ((select) : (⟨S4096x128x256x1, .i1⟩ : BufTy).Contents (Elt F) → (⟨S4096x128x256x1, .f32⟩ : BufTy).Contents (Elt F) → (⟨S4096x128x256x1, .f32⟩ : BufTy).Contents (Elt F) → (⟨S4096x128x256x1, .f32⟩ : BufTy).Contents (Elt F)),
    reshape main_v20 main_v21 rfl shapeCasts_S4096x128x256x1_S4096x128x256 ]

/-- The interpolation, x · σ(x), the two scaled terms, and the sum over the features. -/
abbrev ops5 : List (HloOp τ sig (Elt F)) :=
  [ nullary main_cst_6 (constant S_ .f32 0x3F800000#32),
    unary main_cst_6 main_v22 (broadcastInDim S4096x1x256 ![] bcast_S_S4096x1x256 : (⟨S_, .f32⟩ : BufTy).Contents (Elt F) → (⟨S4096x1x256, .f32⟩ : BufTy).Contents (Elt F)),
    binary main_v22 main_v12 main_v23 (subf : (⟨S4096x1x256, .f32⟩ : BufTy).Contents (Elt F) → (⟨S4096x1x256, .f32⟩ : BufTy).Contents (Elt F) → (⟨S4096x1x256, .f32⟩ : BufTy).Contents (Elt F)),
    unary main_v23 main_v24 (broadcastInDim S4096x128x256 ![0, 1, 2] bcast_S4096x1x256_S4096x128x256_0_1_2 : (⟨S4096x1x256, .f32⟩ : BufTy).Contents (Elt F) → (⟨S4096x128x256, .f32⟩ : BufTy).Contents (Elt F)),
    binary main_v24 main_v16 main_v25 (mulf : (⟨S4096x128x256, .f32⟩ : BufTy).Contents (Elt F) → (⟨S4096x128x256, .f32⟩ : BufTy).Contents (Elt F) → (⟨S4096x128x256, .f32⟩ : BufTy).Contents (Elt F)),
    unary main_v12 main_v26 (broadcastInDim S4096x128x256 ![0, 1, 2] bcast_S4096x1x256_S4096x128x256_0_1_2 : (⟨S4096x1x256, .f32⟩ : BufTy).Contents (Elt F) → (⟨S4096x128x256, .f32⟩ : BufTy).Contents (Elt F)),
    binary main_v26 main_v21 main_v27 (mulf : (⟨S4096x128x256, .f32⟩ : BufTy).Contents (Elt F) → (⟨S4096x128x256, .f32⟩ : BufTy).Contents (Elt F) → (⟨S4096x128x256, .f32⟩ : BufTy).Contents (Elt F)),
    binary main_v25 main_v27 main_v28 (addf : (⟨S4096x128x256, .f32⟩ : BufTy).Contents (Elt F) → (⟨S4096x128x256, .f32⟩ : BufTy).Contents (Elt F) → (⟨S4096x128x256, .f32⟩ : BufTy).Contents (Elt F)),
    unary main_arg0 main_call4_v0 ((Host.negf) : (⟨S4096x256, .f32⟩ : BufTy).Contents (Elt F) → (⟨S4096x256, .f32⟩ : BufTy).Contents (Elt F)),
    unary main_call4_v0 main_call4_v1 ((Host.exp) : (⟨S4096x256, .f32⟩ : BufTy).Contents (Elt F) → (⟨S4096x256, .f32⟩ : BufTy).Contents (Elt F)),
    nullary main_call4_cst (((constant S_ .f32 0x3F800000#32)) : (⟨S_, .f32⟩ : BufTy).Contents (Elt F)),
    unary main_call4_cst main_call4_v2 (((broadcastInDim S4096x256 ![] bcast_S_S4096x256)) : (⟨S_, .f32⟩ : BufTy).Contents (Elt F) → (⟨S4096x256, .f32⟩ : BufTy).Contents (Elt F)),
    binary main_call4_v2 main_call4_v1 main_call4_v3 ((addf) : (⟨S4096x256, .f32⟩ : BufTy).Contents (Elt F) → (⟨S4096x256, .f32⟩ : BufTy).Contents (Elt F) → (⟨S4096x256, .f32⟩ : BufTy).Contents (Elt F)),
    nullary main_call4_cst_0 (((constant S_ .f32 0x3F800000#32)) : (⟨S_, .f32⟩ : BufTy).Contents (Elt F)),
    unary main_call4_cst_0 main_call4_v4 (((broadcastInDim S4096x256 ![] bcast_S_S4096x256)) : (⟨S_, .f32⟩ : BufTy).Contents (Elt F) → (⟨S4096x256, .f32⟩ : BufTy).Contents (Elt F)),
    binary main_call4_v4 main_call4_v3 main_call4_v5 ((Host.divf) : (⟨S4096x256, .f32⟩ : BufTy).Contents (Elt F) → (⟨S4096x256, .f32⟩ : BufTy).Contents (Elt F) → (⟨S4096x256, .f32⟩ : BufTy).Contents (Elt F)),
    binary main_arg0 main_call4_v5 main_v29 ((mulf) : (⟨S4096x256, .f32⟩ : BufTy).Contents (Elt F) → (⟨S4096x256, .f32⟩ : BufTy).Contents (Elt F) → (⟨S4096x256, .f32⟩ : BufTy).Contents (Elt F)),
    unary main_v29 main_v30 (broadcastInDim S4096x1x256 ![0, 2] bcast_S4096x256_S4096x1x256_0_2 : (⟨S4096x256, .f32⟩ : BufTy).Contents (Elt F) → (⟨S4096x1x256, .f32⟩ : BufTy).Contents (Elt F)),
    unary main_arg2 main_v31 (broadcastInDim S1x128x256 ![1, 2] bcast_S128x256_S1x128x256_1_2 : (⟨S128x256, .f32⟩ : BufTy).Contents (Elt F) → (⟨S1x128x256, .f32⟩ : BufTy).Contents (Elt F)),
    unary main_v31 main_v32 (broadcastInDim S4096x128x256 ![0, 1, 2] bcast_S1x128x256_S4096x128x256_0_1_2 : (⟨S1x128x256, .f32⟩ : BufTy).Contents (Elt F) → (⟨S4096x128x256, .f32⟩ : BufTy).Contents (Elt F)),
    unary main_v30 main_v33 (broadcastInDim S4096x128x256 ![0, 1, 2] bcast_S4096x1x256_S4096x128x256_0_1_2 : (⟨S4096x1x256, .f32⟩ : BufTy).Contents (Elt F) → (⟨S4096x128x256, .f32⟩ : BufTy).Contents (Elt F)),
    binary main_v32 main_v33 main_v34 (mulf : (⟨S4096x128x256, .f32⟩ : BufTy).Contents (Elt F) → (⟨S4096x128x256, .f32⟩ : BufTy).Contents (Elt F) → (⟨S4096x128x256, .f32⟩ : BufTy).Contents (Elt F)),
    unary main_arg3 main_v35 (broadcastInDim S1x128x256 ![1, 2] bcast_S128x256_S1x128x256_1_2 : (⟨S128x256, .f32⟩ : BufTy).Contents (Elt F) → (⟨S1x128x256, .f32⟩ : BufTy).Contents (Elt F)),
    unary main_v35 main_v36 (broadcastInDim S4096x128x256 ![0, 1, 2] bcast_S1x128x256_S4096x128x256_0_1_2 : (⟨S1x128x256, .f32⟩ : BufTy).Contents (Elt F) → (⟨S4096x128x256, .f32⟩ : BufTy).Contents (Elt F)),
    binary main_v36 main_v28 main_v37 (mulf : (⟨S4096x128x256, .f32⟩ : BufTy).Contents (Elt F) → (⟨S4096x128x256, .f32⟩ : BufTy).Contents (Elt F) → (⟨S4096x128x256, .f32⟩ : BufTy).Contents (Elt F)),
    binary main_v34 main_v37 main_v38 (addf : (⟨S4096x128x256, .f32⟩ : BufTy).Contents (Elt F) → (⟨S4096x128x256, .f32⟩ : BufTy).Contents (Elt F) → (⟨S4096x128x256, .f32⟩ : BufTy).Contents (Elt F)),
    nullary main_cst_7 (constant S_ .f32 0x00000000#32),
    binary main_v38 main_cst_7 main_v39 ((fun x v => Host.reduceAdd x v reducesTo_S4096x128x256_S4096x128_d2 h_S_) : (⟨S4096x128x256, .f32⟩ : BufTy).Contents (Elt F) → (⟨S_, .f32⟩ : BufTy).Contents (Elt F) → (⟨S4096x128, .f32⟩ : BufTy).Contents (Elt F)) ]

/-! The same stretches as the program spells them: the operations of an inlined function carry their operands' tensor
types and move contents along the (trivial) equations between those types and the buffers'. Stretch by stretch they are
the plain operations above. -/

abbrev opsT1 : List (HloOp τ sig (Elt F)) :=
  [ nullary main_cst (constant S_ .f32 0xC0000000#32),
    nullary main_cst_0 (constant S_ .f32 0x40000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S4096x256, .f32⟩) main_call0_v1) (broadcastInDim S4096x256 ![] bcast_S_S4096x256),
    TRef.binary (TRef.of (T := ⟨S4096x256, .f32⟩) main_call0_v1) (TRef.of (T := ⟨S4096x256, .f32⟩) main_arg0) (TRef.of (T := ⟨S4096x256, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S4096x256, .f32⟩) main_call0_v4) (broadcastInDim S4096x256 ![] bcast_S_S4096x256),
    TRef.binary (TRef.of (T := ⟨S4096x256, .f32⟩) main_call0_v4) (TRef.of (T := ⟨S4096x256, .f32⟩) main_call0_v2) (TRef.of (T := ⟨S4096x256, .f32⟩) main_v0) minimumf,
    nullary main_cst_1 (constant S_ .f32 0xC0000000#32),
    unary main_cst_1 main_v1 (broadcastInDim S4096x256 ![] bcast_S_S4096x256 : (⟨S_, .f32⟩ : BufTy).Contents (Elt F) → (⟨S4096x256, .f32⟩ : BufTy).Contents (Elt F)),
    binary main_v0 main_v1 main_v2 (subf : (⟨S4096x256, .f32⟩ : BufTy).Contents (Elt F) → (⟨S4096x256, .f32⟩ : BufTy).Contents (Elt F) → (⟨S4096x256, .f32⟩ : BufTy).Contents (Elt F)),
    nullary main_cst_2 (constant S_ .f32 0x40800000#32),
    unary main_cst_2 main_v3 (broadcastInDim S4096x256 ![] bcast_S_S4096x256 : (⟨S_, .f32⟩ : BufTy).Contents (Elt F) → (⟨S4096x256, .f32⟩ : BufTy).Contents (Elt F)),
    binary main_v2 main_v3 main_v4 (Host.divf : (⟨S4096x256, .f32⟩ : BufTy).Contents (Elt F) → (⟨S4096x256, .f32⟩ : BufTy).Contents (Elt F) → (⟨S4096x256, .f32⟩ : BufTy).Contents (Elt F)),
    nullary main_cst_3 (constant S_ .f32 0x41700000#32),
    unary main_cst_3 main_v5 (broadcastInDim S4096x256 ![] bcast_S_S4096x256 : (⟨S_, .f32⟩ : BufTy).Contents (Elt F) → (⟨S4096x256, .f32⟩ : BufTy).Contents (Elt F)),
    binary main_v4 main_v5 main_v6 (mulf : (⟨S4096x256, .f32⟩ : BufTy).Contents (Elt F) → (⟨S4096x256, .f32⟩ : BufTy).Contents (Elt F) → (⟨S4096x256, .f32⟩ : BufTy).Contents (Elt F)) ]

abbrev opsT2 : List (HloOp τ sig (Elt F)) :=
  [ unary main_v6 main_v7 (Host.floor : (⟨S4096x256, .f32⟩ : BufTy).Contents (Elt F) → (⟨S4096x256, .f32⟩ : BufTy).Contents (Elt F)),
    unary main_v7 main_v8 (fptosi 32 : (⟨S4096x256, .f32⟩ : BufTy).Contents (Elt F) → (⟨S4096x256, .i32⟩ : BufTy).Contents (Elt F)),
    nullary main_c (constantI S_ 32 0#32),
    nullary main_c_4 (constantI S_ 32 14#32),
    TRef.unary (TRef.of (T := ⟨S_, .i32⟩) main_c) (TRef.of (T := ⟨S_, .i32⟩) main_call1_v0) id,
    TRef.unary (TRef.of (T := ⟨S_, .i32⟩) main_call1_v0) (TRef.of (T := ⟨S4096x256, .i32⟩) main_call1_v1) (broadcastInDim S4096x256 ![] bcast_S_S4096x256),
    TRef.binary (TRef.of (T := ⟨S4096x256, .i32⟩) main_call1_v1) (TRef.of (T := ⟨S4096x256, .i32⟩) main_v8) (TRef.of (T := ⟨S4096x256, .i32⟩) main_call1_v2) maxsi,
    TRef.unary (TRef.of (T := ⟨S_, .i32⟩) main_c_4) (TRef.of (T := ⟨S_, .i32⟩) main_call1_v3) id,
    TRef.unary (TRef.of (T := ⟨S_, .i32⟩) main_call1_v3) (TRef.of (T := ⟨S4096x256, .i32⟩) main_call1_v4) (broadcastInDim S4096x256 ![] bcast_S_S4096x256),
    TRef.binary (TRef.of (T := ⟨S4096x256, .i32⟩) main_call1_v4) (TRef.of (T := ⟨S4096x256, .i32⟩) main_call1_v2) (TRef.of (T := ⟨S4096x256, .i32⟩) main_v9) minsi,
    unary main_v9 main_v10 (sitofp .f32 : (⟨S4096x256, .i32⟩ : BufTy).Contents (Elt F) → (⟨S4096x256, .f32⟩ : BufTy).Contents (Elt F)),
    binary main_v6 main_v10 main_v11 (subf : (⟨S4096x256, .f32⟩ : BufTy).Contents (Elt F) → (⟨S4096x256, .f32⟩ : BufTy).Contents (Elt F) → (⟨S4096x256, .f32⟩ : BufTy).Contents (Elt F)),
    unary main_v11 main_v12 (broadcastInDim S4096x1x256 ![0, 2] bcast_S4096x256_S4096x1x256_0_2 : (⟨S4096x256, .f32⟩ : BufTy).Contents (Elt F) → (⟨S4096x1x256, .f32⟩ : BufTy).Contents (Elt F)),
    unary main_v9 main_v13 (broadcastInDim S4096x1x256x1 ![0, 2] bcast_S4096x256_S4096x1x256x1_0_2 : (⟨S4096x256, .i32⟩ : BufTy).Contents (Elt F) → (⟨S4096x1x256x1, .i32⟩ : BufTy).Contents (Elt F)),
    unary main_arg1 main_v14 (broadcastInDim S1x128x256x16 ![1, 2, 3] bcast_S128x256x16_S1x128x256x16_1_2_3 : (⟨S128x256x16, .f32⟩ : BufTy).Contents (Elt F) → (⟨S1x128x256x16, .f32⟩ : BufTy).Contents (Elt F)) ]

abbrev opsT3 : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S4096x1x256x1, .i32⟩) main_call2_v0) (broadcastInDim S4096x1x256x1 ![] bcast_S_S4096x1x256x1),
    TRef.binary (TRef.of (T := ⟨S4096x1x256x1, .i32⟩) main_v13) (TRef.of (T := ⟨S4096x1x256x1, .i32⟩) main_call2_v0) (TRef.of (T := ⟨S4096x1x256x1, .i1⟩) main_call2_v1) (cmpi .slt),
    TRef.nullary (TRef.of (T := ⟨S_, .i32⟩) main_call2_c_0) (constantI S_ 32 16#32),
    TRef.unary (TRef.of (T := ⟨S_, .i32⟩) main_call2_c_0) (TRef.of (T := ⟨S4096x1x256x1, .i32⟩) main_call2_v2) (broadcastInDim S4096x1x256x1 ![] bcast_S_S4096x1x256x1),
    TRef.binary (TRef.of (T := ⟨S4096x1x256x1, .i32⟩) main_v13) (TRef.of (T := ⟨S4096x1x256x1, .i32⟩) main_call2_v2) (TRef.of (T := ⟨S4096x1x256x1, .i32⟩) main_call2_v3) addi,
    TRef.ternary (TRef.of (T := ⟨S4096x1x256x1, .i1⟩) main_call2_v1) (TRef.of (T := ⟨S4096x1x256x1, .i32⟩) main_call2_v3) (TRef.of (T := ⟨S4096x1x256x1, .i32⟩) main_v13) (TRef.of (T := ⟨S4096x1x256x1, .i32⟩) main_call2_v4) select,
    TRef.reshape (TRef.of (T := ⟨S4096x1x256x1, .i32⟩) main_call2_v4) (TRef.of (T := ⟨S4096x256x1x1, .i32⟩) main_call2_v5) rfl shapeCasts_S4096x1x256x1_S4096x256x1x1,
    TRef.reshape (TRef.of (T := ⟨S1x128x256x16, .f32⟩) main_v14) (TRef.of (T := ⟨S128x256x16, .f32⟩) main_call2_v6) rfl shapeCasts_S1x128x256x16_S128x256x16,
    TRef.nullary (TRef.of (T := ⟨S1, .i32⟩) main_call2_c_1) (constantI S1 32 15#32),
    TRef.nullary (TRef.of (T := ⟨S_, .i32⟩) main_call2_c_2) (constantI S_ 32 0#32),
    TRef.unary (TRef.of (T := ⟨S_, .i32⟩) main_call2_c_2) (TRef.of (T := ⟨S4096x256x1x1, .i32⟩) main_call2_v7) (broadcastInDim S4096x256x1x1 ![] bcast_S_S4096x256x1x1),
    TRef.binary (TRef.of (T := ⟨S4096x256x1x1, .i32⟩) main_call2_v5) (TRef.of (T := ⟨S4096x256x1x1, .i32⟩) main_call2_v7) (TRef.of (T := ⟨S4096x256x1x1, .i1⟩) main_call2_v8) (cmpi .sge),
    TRef.unary (TRef.of (T := ⟨S1, .i32⟩) main_call2_c_1) (TRef.of (T := ⟨S1x1x1x1, .i32⟩) main_call2_v9) (broadcastInDim S1x1x1x1 ![3] bcast_S1_S1x1x1x1_3),
    TRef.unary (TRef.of (T := ⟨S1x1x1x1, .i32⟩) main_call2_v9) (TRef.of (T := ⟨S4096x256x1x1, .i32⟩) main_call2_v10) (broadcastInDim S4096x256x1x1 ![0, 1, 2, 3] bcast_S1x1x1x1_S4096x256x1x1_0_1_2_3),
    TRef.binary (TRef.of (T := ⟨S4096x256x1x1, .i32⟩) main_call2_v5) (TRef.of (T := ⟨S4096x256x1x1, .i32⟩) main_call2_v10) (TRef.of (T := ⟨S4096x256x1x1, .i1⟩) main_call2_v11) (cmpi .sle),
    TRef.binary (TRef.of (T := ⟨S4096x256x1x1, .i1⟩) main_call2_v8) (TRef.of (T := ⟨S4096x256x1x1, .i1⟩) main_call2_v11) (TRef.of (T := ⟨S4096x256x1x1, .i1⟩) main_call2_v12) andi,
    TRef.nullary (TRef.of (T := ⟨S_, .i1⟩) main_call2_c_3) (constantI S_ 1 1#1),
    TRef.binary (TRef.of (T := ⟨S4096x256x1x1, .i1⟩) main_call2_v12) (TRef.of (T := ⟨S_, .i1⟩) main_call2_c_3) (TRef.of (T := ⟨S4096x256x1, .i1⟩) main_call2_v13) (fun x v => Host.reduce IntOp.andi x v reducesTo_S4096x256x1x1_S4096x256x1_d3 h_S_),
    TRef.binary (TRef.of (T := ⟨S128x256x16, .f32⟩) main_call2_v6) (TRef.of (T := ⟨S4096x256x1x1, .i32⟩) main_call2_v5) (TRef.of (T := ⟨S4096x128x256x1, .f32⟩) main_call2_v14) (fun x i => Host.gather gather_S128x256x16_S4096x256x1x1_S4096x128x256x1_1_2_1_1_2_3_12811 x i),
    TRef.unary (TRef.of (T := ⟨S4096x256x1, .i1⟩) main_call2_v13) (TRef.of (T := ⟨S4096x128x256x1, .i1⟩) main_call2_v15) (broadcastInDim S4096x128x256x1 ![0, 2, 3] bcast_S4096x256x1_S4096x128x256x1_0_2_3),
    TRef.nullary (TRef.of (T := ⟨S_, .f32⟩) main_call2_cst) (constant S_ .f32 0x7FC00000#32),
    TRef.unary (TRef.of (T := ⟨S_, .f32⟩) main_call2_cst) (TRef.of (T := ⟨S4096x128x256x1, .f32⟩) main_call2_v16) (broadcastInDim S4096x128x256x1 ![] bcast_S_S4096x128x256x1),
    TRef.ternary (TRef.of (T := ⟨S4096x128x256x1, .i1⟩) main_call2_v15) (TRef.of (T := ⟨S4096x128x256x1, .f32⟩) main_call2_v14) (TRef.of (T := ⟨S4096x128x256x1, .f32⟩) main_call2_v16) (TRef.of (T := ⟨S4096x128x256x1, .f32⟩) main_v15) select,
    reshape main_v15 main_v16 rfl shapeCasts_S4096x128x256x1_S4096x128x256 ]

abbrev opsT4 : List (HloOp τ sig (Elt F)) :=
  [ unary main_arg1 main_v17 (broadcastInDim S1x128x256x16 ![1, 2, 3] bcast_S128x256x16_S1x128x256x16_1_2_3 : (⟨S128x256x16, .f32⟩ : BufTy).Contents (Elt F) → (⟨S1x128x256x16, .f32⟩ : BufTy).Contents (Elt F)),
    nullary main_c_5 (constantI S_ 32 1#32),
    unary main_c_5 main_v18 (broadcastInDim S4096x1x256x1 ![] bcast_S_S4096x1x256x1 : (⟨S_, .i32⟩ : BufTy).Contents (Elt F) → (⟨S4096x1x256x1, .i32⟩ : BufTy).Contents (Elt F)),
    binary main_v13 main_v18 main_v19 (addi : (⟨S4096x1x256x1, .i32⟩ : BufTy).Contents (Elt F) → (⟨S4096x1x256x1, .i32⟩ : BufTy).Contents (Elt F) → (⟨S4096x1x256x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S4096x1x256x1, .i32⟩) main_call3_v0) (broadcastInDim S4096x1x256x1 ![] bcast_S_S4096x1x256x1),
    TRef.binary (TRef.of (T := ⟨S4096x1x256x1, .i32⟩) main_v19) (TRef.of (T := ⟨S4096x1x256x1, .i32⟩) main_call3_v0) (TRef.of (T := ⟨S4096x1x256x1, .i1⟩) main_call3_v1) (cmpi .slt),
    TRef.nullary (TRef.of (T := ⟨S_, .i32⟩) main_call3_c_0) (constantI S_ 32 16#32),
    TRef.unary (TRef.of (T := ⟨S_, .i32⟩) main_call3_c_0) (TRef.of (T := ⟨S4096x1x256x1, .i32⟩) main_call3_v2) (broadcastInDim S4096x1x256x1 ![] bcast_S_S4096x1x256x1),
    TRef.binary (TRef.of (T := ⟨S4096x1x256x1, .i32⟩) main_v19) (TRef.of (T := ⟨S4096x1x256x1, .i32⟩) main_call3_v2) (TRef.of (T := ⟨S4096x1x256x1, .i32⟩) main_call3_v3) addi,
    TRef.ternary (TRef.of (T := ⟨S4096x1x256x1, .i1⟩) main_call3_v1) (TRef.of (T := ⟨S4096x1x256x1, .i32⟩) main_call3_v3) (TRef.of (T := ⟨S4096x1x256x1, .i32⟩) main_v19) (TRef.of (T := ⟨S4096x1x256x1, .i32⟩) main_call3_v4) select,
    TRef.reshape (TRef.of (T := ⟨S4096x1x256x1, .i32⟩) main_call3_v4) (TRef.of (T := ⟨S4096x256x1x1, .i32⟩) main_call3_v5) rfl shapeCasts_S4096x1x256x1_S4096x256x1x1,
    TRef.reshape (TRef.of (T := ⟨S1x128x256x16, .f32⟩) main_v17) (TRef.of (T := ⟨S128x256x16, .f32⟩) main_call3_v6) rfl shapeCasts_S1x128x256x16_S128x256x16,
    TRef.nullary (TRef.of (T := ⟨S1, .i32⟩) main_call3_c_1) (constantI S1 32 15#32),
    TRef.nullary (TRef.of (T := ⟨S_, .i32⟩) main_call3_c_2) (constantI S_ 32 0#32),
    TRef.unary (TRef.of (T := ⟨S_, .i32⟩) main_call3_c_2) (TRef.of (T := ⟨S4096x256x1x1, .i32⟩) main_call3_v7) (broadcastInDim S4096x256x1x1 ![] bcast_S_S4096x256x1x1),
    TRef.binary (TRef.of (T := ⟨S4096x256x1x1, .i32⟩) main_call3_v5) (TRef.of (T := ⟨S4096x256x1x1, .i32⟩) main_call3_v7) (TRef.of (T := ⟨S4096x256x1x1, .i1⟩) main_call3_v8) (cmpi .sge),
    TRef.unary (TRef.of (T := ⟨S1, .i32⟩) main_call3_c_1) (TRef.of (T := ⟨S1x1x1x1, .i32⟩) main_call3_v9) (broadcastInDim S1x1x1x1 ![3] bcast_S1_S1x1x1x1_3),
    TRef.unary (TRef.of (T := ⟨S1x1x1x1, .i32⟩) main_call3_v9) (TRef.of (T := ⟨S4096x256x1x1, .i32⟩) main_call3_v10) (broadcastInDim S4096x256x1x1 ![0, 1, 2, 3] bcast_S1x1x1x1_S4096x256x1x1_0_1_2_3),
    TRef.binary (TRef.of (T := ⟨S4096x256x1x1, .i32⟩) main_call3_v5) (TRef.of (T := ⟨S4096x256x1x1, .i32⟩) main_call3_v10) (TRef.of (T := ⟨S4096x256x1x1, .i1⟩) main_call3_v11) (cmpi .sle),
    TRef.binary (TRef.of (T := ⟨S4096x256x1x1, .i1⟩) main_call3_v8) (TRef.of (T := ⟨S4096x256x1x1, .i1⟩) main_call3_v11) (TRef.of (T := ⟨S4096x256x1x1, .i1⟩) main_call3_v12) andi,
    TRef.nullary (TRef.of (T := ⟨S_, .i1⟩) main_call3_c_3) (constantI S_ 1 1#1),
    TRef.binary (TRef.of (T := ⟨S4096x256x1x1, .i1⟩) main_call3_v12) (TRef.of (T := ⟨S_, .i1⟩) main_call3_c_3) (TRef.of (T := ⟨S4096x256x1, .i1⟩) main_call3_v13) (fun x v => Host.reduce IntOp.andi x v reducesTo_S4096x256x1x1_S4096x256x1_d3 h_S_),
    TRef.binary (TRef.of (T := ⟨S128x256x16, .f32⟩) main_call3_v6) (TRef.of (T := ⟨S4096x256x1x1, .i32⟩) main_call3_v5) (TRef.of (T := ⟨S4096x128x256x1, .f32⟩) main_call3_v14) (fun x i => Host.gather gather_S128x256x16_S4096x256x1x1_S4096x128x256x1_1_2_1_1_2_3_12811 x i),
    TRef.unary (TRef.of (T := ⟨S4096x256x1, .i1⟩) main_call3_v13) (TRef.of (T := ⟨S4096x128x256x1, .i1⟩) main_call3_v15) (broadcastInDim S4096x128x256x1 ![0, 2, 3] bcast_S4096x256x1_S4096x128x256x1_0_2_3),
    TRef.nullary (TRef.of (T := ⟨S_, .f32⟩) main_call3_cst) (constant S_ .f32 0x7FC00000#32),
    TRef.unary (TRef.of (T := ⟨S_, .f32⟩) main_call3_cst) (TRef.of (T := ⟨S4096x128x256x1, .f32⟩) main_call3_v16) (broadcastInDim S4096x128x256x1 ![] bcast_S_S4096x128x256x1),
    TRef.ternary (TRef.of (T := ⟨S4096x128x256x1, .i1⟩) main_call3_v15) (TRef.of (T := ⟨S4096x128x256x1, .f32⟩) main_call3_v14) (TRef.of (T := ⟨S4096x128x256x1, .f32⟩) main_call3_v16) (TRef.of (T := ⟨S4096x128x256x1, .f32⟩) main_v20) select,
    reshape main_v20 main_v21 rfl shapeCasts_S4096x128x256x1_S4096x128x256 ]

abbrev opsT5 : List (HloOp τ sig (Elt F)) :=
  [ nullary main_cst_6 (constant S_ .f32 0x3F800000#32),
    unary main_cst_6 main_v22 (broadcastInDim S4096x1x256 ![] bcast_S_S4096x1x256 : (⟨S_, .f32⟩ : BufTy).Contents (Elt F) → (⟨S4096x1x256, .f32⟩ : BufTy).Contents (Elt F)),
    binary main_v22 main_v12 main_v23 (subf : (⟨S4096x1x256, .f32⟩ : BufTy).Contents (Elt F) → (⟨S4096x1x256, .f32⟩ : BufTy).Contents (Elt F) → (⟨S4096x1x256, .f32⟩ : BufTy).Contents (Elt F)),
    unary main_v23 main_v24 (broadcastInDim S4096x128x256 ![0, 1, 2] bcast_S4096x1x256_S4096x128x256_0_1_2 : (⟨S4096x1x256, .f32⟩ : BufTy).Contents (Elt F) → (⟨S4096x128x256, .f32⟩ : BufTy).Contents (Elt F)),
    binary main_v24 main_v16 main_v25 (mulf : (⟨S4096x128x256, .f32⟩ : BufTy).Contents (Elt F) → (⟨S4096x128x256, .f32⟩ : BufTy).Contents (Elt F) → (⟨S4096x128x256, .f32⟩ : BufTy).Contents (Elt F)),
    unary main_v12 main_v26 (broadcastInDim S4096x128x256 ![0, 1, 2] bcast_S4096x1x256_S4096x128x256_0_1_2 : (⟨S4096x1x256, .f32⟩ : BufTy).Contents (Elt F) → (⟨S4096x128x256, .f32⟩ : BufTy).Contents (Elt F)),
    binary main_v26 main_v21 main_v27 (mulf : (⟨S4096x128x256, .f32⟩ : BufTy).Contents (Elt F) → (⟨S4096x128x256, .f32⟩ : BufTy).Contents (Elt F) → (⟨S4096x128x256, .f32⟩ : BufTy).Contents (Elt F)),
    binary main_v25 main_v27 main_v28 (addf : (⟨S4096x128x256, .f32⟩ : BufTy).Contents (Elt F) → (⟨S4096x128x256, .f32⟩ : BufTy).Contents (Elt F) → (⟨S4096x128x256, .f32⟩ : BufTy).Contents (Elt F)),
    TRef.unary (TRef.of (T := ⟨S4096x256, .f32⟩) main_arg0) (TRef.of (T := ⟨S4096x256, .f32⟩) main_call4_v0) Host.negf,
    TRef.unary (TRef.of (T := ⟨S4096x256, .f32⟩) main_call4_v0) (TRef.of (T := ⟨S4096x256, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S4096x256, .f32⟩) main_call4_v2) (broadcastInDim S4096x256 ![] bcast_S_S4096x256),
    TRef.binary (TRef.of (T := ⟨S4096x256, .f32⟩) main_call4_v2) (TRef.of (T := ⟨S4096x256, .f32⟩) main_call4_v1) (TRef.of (T := ⟨S4096x256, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S4096x256, .f32⟩) main_call4_v4) (broadcastInDim S4096x256 ![] bcast_S_S4096x256),
    TRef.binary (TRef.of (T := ⟨S4096x256, .f32⟩) main_call4_v4) (TRef.of (T := ⟨S4096x256, .f32⟩) main_call4_v3) (TRef.of (T := ⟨S4096x256, .f32⟩) main_call4_v5) Host.divf,
    TRef.binary (TRef.of (T := ⟨S4096x256, .f32⟩) main_arg0) (TRef.of (T := ⟨S4096x256, .f32⟩) main_call4_v5) (TRef.of (T := ⟨S4096x256, .f32⟩) main_v29) mulf,
    unary main_v29 main_v30 (broadcastInDim S4096x1x256 ![0, 2] bcast_S4096x256_S4096x1x256_0_2 : (⟨S4096x256, .f32⟩ : BufTy).Contents (Elt F) → (⟨S4096x1x256, .f32⟩ : BufTy).Contents (Elt F)),
    unary main_arg2 main_v31 (broadcastInDim S1x128x256 ![1, 2] bcast_S128x256_S1x128x256_1_2 : (⟨S128x256, .f32⟩ : BufTy).Contents (Elt F) → (⟨S1x128x256, .f32⟩ : BufTy).Contents (Elt F)),
    unary main_v31 main_v32 (broadcastInDim S4096x128x256 ![0, 1, 2] bcast_S1x128x256_S4096x128x256_0_1_2 : (⟨S1x128x256, .f32⟩ : BufTy).Contents (Elt F) → (⟨S4096x128x256, .f32⟩ : BufTy).Contents (Elt F)),
    unary main_v30 main_v33 (broadcastInDim S4096x128x256 ![0, 1, 2] bcast_S4096x1x256_S4096x128x256_0_1_2 : (⟨S4096x1x256, .f32⟩ : BufTy).Contents (Elt F) → (⟨S4096x128x256, .f32⟩ : BufTy).Contents (Elt F)),
    binary main_v32 main_v33 main_v34 (mulf : (⟨S4096x128x256, .f32⟩ : BufTy).Contents (Elt F) → (⟨S4096x128x256, .f32⟩ : BufTy).Contents (Elt F) → (⟨S4096x128x256, .f32⟩ : BufTy).Contents (Elt F)),
    unary main_arg3 main_v35 (broadcastInDim S1x128x256 ![1, 2] bcast_S128x256_S1x128x256_1_2 : (⟨S128x256, .f32⟩ : BufTy).Contents (Elt F) → (⟨S1x128x256, .f32⟩ : BufTy).Contents (Elt F)),
    unary main_v35 main_v36 (broadcastInDim S4096x128x256 ![0, 1, 2] bcast_S1x128x256_S4096x128x256_0_1_2 : (⟨S1x128x256, .f32⟩ : BufTy).Contents (Elt F) → (⟨S4096x128x256, .f32⟩ : BufTy).Contents (Elt F)),
    binary main_v36 main_v28 main_v37 (mulf : (⟨S4096x128x256, .f32⟩ : BufTy).Contents (Elt F) → (⟨S4096x128x256, .f32⟩ : BufTy).Contents (Elt F) → (⟨S4096x128x256, .f32⟩ : BufTy).Contents (Elt F)),
    binary main_v34 main_v37 main_v38 (addf : (⟨S4096x128x256, .f32⟩ : BufTy).Contents (Elt F) → (⟨S4096x128x256, .f32⟩ : BufTy).Contents (Elt F) → (⟨S4096x128x256, .f32⟩ : BufTy).Contents (Elt F)),
    nullary main_cst_7 (constant S_ .f32 0x00000000#32),
    binary main_v38 main_cst_7 main_v39 ((fun x v => Host.reduceAdd x v reducesTo_S4096x128x256_S4096x128_d2 h_S_) : (⟨S4096x128x256, .f32⟩ : BufTy).Contents (Elt F) → (⟨S_, .f32⟩ : BufTy).Contents (Elt F) → (⟨S4096x128, .f32⟩ : BufTy).Contents (Elt F)) ]

theorem stretch1_eq : (opsT1 : List (HloOp τ sig (Elt F))) = ops1 := rfl
theorem stretch2_eq : (opsT2 : List (HloOp τ sig (Elt F))) = ops2 := rfl
theorem stretch3_eq : (opsT3 : List (HloOp τ sig (Elt F))) = ops3 :=
  congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons (by simp only [TRef.binary, TRef.toBuf, TRef.ofBuf, cast_eq]; congr) <| congrArg₂ List.cons rfl <| congrArg₂ List.cons rfl <| congrArg₂ List.cons rfl <| congrArg₂ List.cons rfl <| congrArg₂ List.cons rfl <| congrArg₂ List.cons rfl <| rfl
theorem stretch4_eq : (opsT4 : List (HloOp τ sig (Elt F))) = ops4 :=
  congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons rfl <| congrArg₂ List.cons (by simp only [TRef.binary, TRef.toBuf, TRef.ofBuf, cast_eq]; congr) <| congrArg₂ List.cons rfl <| congrArg₂ List.cons rfl <| congrArg₂ List.cons rfl <| congrArg₂ List.cons rfl <| congrArg₂ List.cons rfl <| congrArg₂ List.cons rfl <| rfl
theorem stretch5_eq : (opsT5 : List (HloOp τ sig (Elt F))) = ops5 := rfl

/-- The program's operation list is the five stretches in order. -/
theorem ops_split : (Cert.ReferenceIdeal.ValueP.ops : List (HloOp τ sig (Elt F))) = ops1 ++ (ops2 ++ (ops3 ++ (ops4 ++ ops5))) := by
  rw [show (Cert.ReferenceIdeal.ValueP.ops : List (HloOp τ sig (Elt F))) = opsT1 ++ (opsT2 ++ (opsT3 ++ (opsT4 ++ opsT5))) from rfl,
    stretch1_eq, stretch2_eq, stretch3_eq, stretch4_eq, stretch5_eq]

/-! ## First stretch -/

theorem s1_v6 (W : Valuation τ sig (Elt F)) : after ops1 W (Proc.devRef .tc main_v6) = val_main_v6 (F := F) (W (Proc.devRef .tc main_arg0)) := by
  after_results_simp
  rfl
theorem kept1_arg0 (W : Valuation τ sig (Elt F)) : after ops1 W (Proc.devRef .tc main_arg0) = W (Proc.devRef .tc main_arg0) := by
  after_results_simp
theorem kept1_arg1 (W : Valuation τ sig (Elt F)) : after ops1 W (Proc.devRef .tc main_arg1) = W (Proc.devRef .tc main_arg1) := by
  after_results_simp
theorem kept1_arg2 (W : Valuation τ sig (Elt F)) : after ops1 W (Proc.devRef .tc main_arg2) = W (Proc.devRef .tc main_arg2) := by
  after_results_simp
theorem kept1_arg3 (W : Valuation τ sig (Elt F)) : after ops1 W (Proc.devRef .tc main_arg3) = W (Proc.devRef .tc main_arg3) := by
  after_results_simp

/-! ## Second stretch -/

theorem s2_v12 (W : Valuation τ sig (Elt F)) (x0 : (⟨S4096x256, .f32⟩ : BufTy).Contents (Elt F)) (h6 : W (Proc.devRef .tc main_v6) = val_main_v6 (F := F) x0) :
    after ops2 W (Proc.devRef .tc main_v12) = val_main_v12 (F := F) x0 := by
  after_results_simp
  simp only [h6]
  rfl
theorem s2_v13 (W : Valuation τ sig (Elt F)) (x0 : (⟨S4096x256, .f32⟩ : BufTy).Contents (Elt F)) (h6 : W (Proc.devRef .tc main_v6) = val_main_v6 (F := F) x0) :
    after ops2 W (Proc.devRef .tc main_v13) = val_main_v13 (F := F) x0 := by
  after_results_simp
  simp only [h6]
  rfl
theorem s2_v14 (W : Valuation τ sig (Elt F)) : after ops2 W (Proc.devRef .tc main_v14) = val_main_v14 (F := F) (W (Proc.devRef .tc main_arg1)) := by
  after_results_simp
  rfl
theorem kept2_arg0 (W : Valuation τ sig (Elt F)) : after ops2 W (Proc.devRef .tc main_arg0) = W (Proc.devRef .tc main_arg0) := by
  after_results_simp
theorem kept2_arg1 (W : Valuation τ sig (Elt F)) : after ops2 W (Proc.devRef .tc main_arg1) = W (Proc.devRef .tc main_arg1) := by
  after_results_simp
theorem kept2_arg2 (W : Valuation τ sig (Elt F)) : after ops2 W (Proc.devRef .tc main_arg2) = W (Proc.devRef .tc main_arg2) := by
  after_results_simp
theorem kept2_arg3 (W : Valuation τ sig (Elt F)) : after ops2 W (Proc.devRef .tc main_arg3) = W (Proc.devRef .tc main_arg3) := by
  after_results_simp

/-! ## Third stretch -/

theorem s3_v16 (W : Valuation τ sig (Elt F)) (x0 : (⟨S4096x256, .f32⟩ : BufTy).Contents (Elt F)) (x1 : (⟨S128x256x16, .f32⟩ : BufTy).Contents (Elt F))
    (h13 : W (Proc.devRef .tc main_v13) = val_main_v13 (F := F) x0) (h14 : W (Proc.devRef .tc main_v14) = val_main_v14 (F := F) x1) :
    after ops3 W (Proc.devRef .tc main_v16) = val_main_v16 (F := F) x0 x1 := by
  after_results_simp
  simp only [h13, h14]
  rfl
theorem kept3_v12 (W : Valuation τ sig (Elt F)) : after ops3 W (Proc.devRef .tc main_v12) = W (Proc.devRef .tc main_v12) := by
  after_results_simp
theorem kept3_v13 (W : Valuation τ sig (Elt F)) : after ops3 W (Proc.devRef .tc main_v13) = W (Proc.devRef .tc main_v13) := by
  after_results_simp
theorem kept3_arg0 (W : Valuation τ sig (Elt F)) : after ops3 W (Proc.devRef .tc main_arg0) = W (Proc.devRef .tc main_arg0) := by
  after_results_simp
theorem kept3_arg1 (W : Valuation τ sig (Elt F)) : after ops3 W (Proc.devRef .tc main_arg1) = W (Proc.devRef .tc main_arg1) := by
  after_results_simp
theorem kept3_arg2 (W : Valuation τ sig (Elt F)) : after ops3 W (Proc.devRef .tc main_arg2) = W (Proc.devRef .tc main_arg2) := by
  after_results_simp
theorem kept3_arg3 (W : Valuation τ sig (Elt F)) : after ops3 W (Proc.devRef .tc main_arg3) = W (Proc.devRef .tc main_arg3) := by
  after_results_simp

/-! ## Fourth stretch -/

theorem s4_v21 (W : Valuation τ sig (Elt F)) (x0 : (⟨S4096x256, .f32⟩ : BufTy).Contents (Elt F))
    (h13 : W (Proc.devRef .tc main_v13) = val_main_v13 (F := F) x0) :
    after ops4 W (Proc.devRef .tc main_v21) = val_main_v21 (F := F) x0 (W (Proc.devRef .tc main_arg1)) := by
  after_results_simp
  simp only [h13]
  rfl
theorem kept4_v12 (W : Valuation τ sig (Elt F)) : after ops4 W (Proc.devRef .tc main_v12) = W (Proc.devRef .tc main_v12) := by
  after_results_simp
theorem kept4_v16 (W : Valuation τ sig (Elt F)) : after ops4 W (Proc.devRef .tc main_v16) = W (Proc.devRef .tc main_v16) := by
  after_results_simp
theorem kept4_arg0 (W : Valuation τ sig (Elt F)) : after ops4 W (Proc.devRef .tc main_arg0) = W (Proc.devRef .tc main_arg0) := by
  after_results_simp
theorem kept4_arg1 (W : Valuation τ sig (Elt F)) : after ops4 W (Proc.devRef .tc main_arg1) = W (Proc.devRef .tc main_arg1) := by
  after_results_simp
theorem kept4_arg2 (W : Valuation τ sig (Elt F)) : after ops4 W (Proc.devRef .tc main_arg2) = W (Proc.devRef .tc main_arg2) := by
  after_results_simp
theorem kept4_arg3 (W : Valuation τ sig (Elt F)) : after ops4 W (Proc.devRef .tc main_arg3) = W (Proc.devRef .tc main_arg3) := by
  after_results_simp

/-! ## Fifth stretch -/

theorem s5_v39 (W : Valuation τ sig (Elt F)) (x0 : (⟨S4096x256, .f32⟩ : BufTy).Contents (Elt F)) (x1 : (⟨S128x256x16, .f32⟩ : BufTy).Contents (Elt F))
    (h12 : W (Proc.devRef .tc main_v12) = val_main_v12 (F := F) x0) (h16 : W (Proc.devRef .tc main_v16) = val_main_v16 (F := F) x0 x1)
    (h21 : W (Proc.devRef .tc main_v21) = val_main_v21 (F := F) x0 x1) (h0 : W (Proc.devRef .tc main_arg0) = x0) :
    after ops5 W (Proc.devRef .tc main_v39) = val_main_v39 (F := F) x0 x1 (W (Proc.devRef .tc main_arg2)) (W (Proc.devRef .tc main_arg3)) := by
  after_results_simp
  simp only [h12, h16, h21, h0]
  rfl

theorem kept5_arg0 (W : Valuation τ sig (Elt F)) : after ops5 W (Proc.devRef .tc main_arg0) = W (Proc.devRef .tc main_arg0) := by
  after_results_simp
theorem kept5_arg1 (W : Valuation τ sig (Elt F)) : after ops5 W (Proc.devRef .tc main_arg1) = W (Proc.devRef .tc main_arg1) := by
  after_results_simp
theorem kept5_arg2 (W : Valuation τ sig (Elt F)) : after ops5 W (Proc.devRef .tc main_arg2) = W (Proc.devRef .tc main_arg2) := by
  after_results_simp
theorem kept5_arg3 (W : Valuation τ sig (Elt F)) : after ops5 W (Proc.devRef .tc main_arg3) = W (Proc.devRef .tc main_arg3) := by
  after_results_simp

/-! ## The whole list -/

/-- After all 114 operations the result buffer holds the last stage of the four argument arrays. -/
theorem result (V : Valuation τ sig (Elt F)) :
    after Cert.ReferenceIdeal.ValueP.ops V (Proc.devRef .tc main_v39)
      = val_main_v39 (F := F) (V (Proc.devRef .tc main_arg0)) (V (Proc.devRef .tc main_arg1)) (V (Proc.devRef .tc main_arg2)) (V (Proc.devRef .tc main_arg3)) := by
  rw [ops_split, StableHlo.after_append, StableHlo.after_append, StableHlo.after_append, StableHlo.after_append]
  have e6 := s1_v6 V
  have e12 := s2_v12 (after ops1 V) _ e6
  have e13 := s2_v13 (after ops1 V) _ e6
  have e14 := s2_v14 (after ops1 V)
  rw [kept1_arg1] at e14
  have e16 := s3_v16 (after ops2 (after ops1 V)) _ _ e13 e14
  have e13' := (kept3_v13 (after ops2 (after ops1 V))).trans e13
  have e12' := (kept3_v12 (after ops2 (after ops1 V))).trans e12
  have e21 := s4_v21 (after ops3 (after ops2 (after ops1 V))) _ e13'
  rw [kept3_arg1, kept2_arg1, kept1_arg1] at e21
  have e16' := (kept4_v16 (after ops3 (after ops2 (after ops1 V)))).trans e16
  have e12'' := (kept4_v12 (after ops3 (after ops2 (after ops1 V)))).trans e12'
  have e0 : after ops4 (after ops3 (after ops2 (after ops1 V))) (Proc.devRef .tc main_arg0) = V (Proc.devRef .tc main_arg0) := by
    rw [kept4_arg0, kept3_arg0, kept2_arg0, kept1_arg0]
  have e := s5_v39 (after ops4 (after ops3 (after ops2 (after ops1 V)))) _ _ e12'' e16' e21 e0
  rw [kept4_arg2, kept3_arg2, kept2_arg2, kept1_arg2, kept4_arg3, kept3_arg3, kept2_arg3, kept1_arg3] at e
  exact e

/-- On every device, from any memory with zero counters: every weakly fair execution of the reference terminates with the
    result buffer at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = val_main_v39 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v39).trans (result (launchContents m c)),
      (h c main_arg0).trans (by rw [ops_split, StableHlo.after_append, StableHlo.after_append, StableHlo.after_append, StableHlo.after_append, kept5_arg0, kept4_arg0, kept3_arg0, kept2_arg0, kept1_arg0]),
      (h c main_arg1).trans (by rw [ops_split, StableHlo.after_append, StableHlo.after_append, StableHlo.after_append, StableHlo.after_append, kept5_arg1, kept4_arg1, kept3_arg1, kept2_arg1, kept1_arg1]),
      (h c main_arg2).trans (by rw [ops_split, StableHlo.after_append, StableHlo.after_append, StableHlo.after_append, StableHlo.after_append, kept5_arg2, kept4_arg2, kept3_arg2, kept2_arg2, kept1_arg2]),
      (h c main_arg3).trans (by rw [ops_split, StableHlo.after_append, StableHlo.after_append, StableHlo.after_append, StableHlo.after_append, kept5_arg3, kept4_arg3, kept3_arg3, kept2_arg3, kept1_arg3])⟩)
    (run_seq Cert.ReferenceIdeal.ValueP.scopedRefs_eq Cert.ReferenceIdeal.ValueP.scopedSems_eq defs main (fun _ => Cert.ReferenceIdeal.ValueP.ops) Cert.ReferenceIdeal.ValueP.main_eq (fun _ => Cert.ReferenceIdeal.ValueP.ops_sub) m ρ)

end Cert.ReferenceIdeal.Stages

end
-- ==== Proof.SplineSpec.lean ====
/-
  The two programs' common mathematics, stated once over extended reals and with no program in sight.

  A layer of learnable one-dimensional activations: input row `b`, output unit `o`, and for each input
  feature `k` an edge whose activation is  bs[o,k] · silu(x[b,k]) + ss[o,k] · spline_{o,k}(x[b,k]),
  summed over `k`.  The spline is piecewise linear on 16 equally spaced knots over [-2, 2]: with
  t = (clip(x, -2, 2) + 2) · 15/4 ∈ [0, 15] its value is (1 - α)·s[L] + α·s[L+1] for L = clamp(⌊t⌋, 0, 14),
  α = t - L.

  The reference computes exactly that, reading the two neighbouring knot values by an index (`edgeR`, `kanRAt`).
  The kernel instead weights EVERY knot by the triangular hat  max(0, 1 - |t - g|)  and contracts over `k`
  once per knot, adding the sixteen products to the base product one after the other (`nest`, `kanKAt`).
  Literals are kept as the words the programs print (`lit`).
-/
import Idealize.ShloMosaic.PureOps.Ideal
import Idealize.ShloMosaic.Lib.ValueIdx

noncomputable section

namespace Cert.Spline

open Idealize.ShloMosaic Idealize.ShloMosaic.ValueIdx
open scoped BigOperators

/-- A single-precision literal, read as the extended real its word denotes. -/
abbrev lit (w : BitVec 32) : EReal := Ideal.ofBits .f32 w

/-! ## The kernel's side -/

/-- The knot coordinate as the kernel computes it: (clip(x, -2, 2) - (-2)) · 3.75. -/
def knotK (x : EReal) : EReal :=
  (min (lit 0x40000000#32) (max (lit 0xC0000000#32) x) - lit 0xC0000000#32) * lit 0x40700000#32

/-- The hat function centred at the knot whose coordinate is the literal `w`: max(0, 1 - |t - w|). -/
def hat (w : BitVec 32) (t : EReal) : EReal :=
  max (lit 0x00000000#32) (lit 0x3F800000#32 - max (t - lit w) (-(t - lit w)))

/-- x · σ(x), with σ the logistic function as one operation. -/
def silu (x : EReal) : EReal := x * Ideal.logistic x

/-- One knot's contraction over the 256 input features: Σ_k hat_w(knot(X k)) · (S k · C k). -/
def hatDot (w : BitVec 32) (X S C : Fin 256 → EReal) : EReal :=
  ∑ k : Fin 256, hat w (knotK (X k)) * (S k * C k)

/-- The base contraction: Σ_k silu(X k) · D k. -/
def baseDot (X D : Fin 256 → EReal) : EReal := ∑ k : Fin 256, silu (X k) * D k

/-- The kernel's accumulation for one (row, unit) pair: the base product, then the sixteen knots' products added one
    after the other in knot order. `X` the row of inputs, `S g` the knot-`g` values of the unit's 256 edges, `C` the
    spline scales, `D` the base scales. -/
def nest (X : Fin 256 → EReal) (S : Fin 16 → Fin 256 → EReal) (C D : Fin 256 → EReal) : EReal :=
  baseDot X D + hatDot 0x00000000#32 X (S 0) C
     + hatDot 0x3F800000#32 X (S 1) C
     + hatDot 0x40000000#32 X (S 2) C
     + hatDot 0x40400000#32 X (S 3) C
     + hatDot 0x40800000#32 X (S 4) C
     + hatDot 0x40A00000#32 X (S 5) C
     + hatDot 0x40C00000#32 X (S 6) C
     + hatDot 0x40E00000#32 X (S 7) C
     + hatDot 0x41000000#32 X (S 8) C
     + hatDot 0x41100000#32 X (S 9) C
     + hatDot 0x41200000#32 X (S 10) C
     + hatDot 0x41300000#32 X (S 11) C
     + hatDot 0x41400000#32 X (S 12) C
     + hatDot 0x41500000#32 X (S 13) C
     + hatDot 0x41600000#32 X (S 14) C
     + hatDot 0x41700000#32 X (S 15) C

/-- The knots' coordinates as the words the kernel prints: 0.0, 1.0, …, 15.0. -/
def knots : Fin 16 → BitVec 32 :=
  ![0x00000000#32, 0x3F800000#32, 0x40000000#32, 0x40400000#32, 0x40800000#32, 0x40A00000#32, 0x40C00000#32, 0x40E00000#32, 0x41000000#32, 0x41100000#32, 0x41200000#32, 0x41300000#32, 0x41400000#32, 0x41500000#32, 0x41600000#32, 0x41700000#32]

/-- One edge, the kernel's way: the base term plus every knot's hat-weighted value. -/
def edgeK (x : EReal) (s : Fin 16 → EReal) (c d : EReal) : EReal :=
  silu x * d + ∑ g : Fin 16, hat (knots g) (knotK x) * (s g * c)

/-- The kernel's value at row `b`, unit `o`, over the whole arrays: x[4096,256], sv[128,256,16], bs and ss [128,256]. -/
def kanKAt (x : (⟨2, ![4096, 256]⟩ : Shape).Idx → EReal) (sv : (⟨3, ![128, 256, 16]⟩ : Shape).Idx → EReal)
    (bs ss : (⟨2, ![128, 256]⟩ : Shape).Idx → EReal) (b : Fin 4096) (o : Fin 128) : EReal :=
  nest (fun k => x (ix2 b k)) (fun g k => sv (ix3 o k g)) (fun k => ss (ix2 o k)) (fun k => bs (ix2 o k))

/-- … as an array over the output's index set. -/
def kanK (x : (⟨2, ![4096, 256]⟩ : Shape).Idx → EReal) (sv : (⟨3, ![128, 256, 16]⟩ : Shape).Idx → EReal)
    (bs ss : (⟨2, ![128, 256]⟩ : Shape).Idx → EReal) : (⟨2, ![4096, 128]⟩ : Shape).Idx → EReal :=
  fun j => kanKAt x sv bs ss ⟨(j 0).val, idx2_lt0 j⟩ ⟨(j 1).val, idx2_lt1 j⟩

theorem kanK_ix2 (x : (⟨2, ![4096, 256]⟩ : Shape).Idx → EReal) (sv : (⟨3, ![128, 256, 16]⟩ : Shape).Idx → EReal)
    (bs ss : (⟨2, ![128, 256]⟩ : Shape).Idx → EReal) (b : Fin 4096) (o : Fin 128) :
    kanK x sv bs ss (ix2 b o) = kanKAt x sv bs ss b o := rfl

/-! ## The reference's side -/

/-- The knot coordinate as the reference computes it: (clip(x, -2, 2) - (-2)) / 4 · 15. -/
def knotR (x : EReal) : EReal :=
  Ideal.div (min (lit 0x40000000#32) (max (lit 0xC0000000#32) x) - lit 0xC0000000#32) (lit 0x40800000#32) * lit 0x41700000#32

/-- x · (1 / (1 + e^(-x))): the logistic function spelt out. -/
def siluR (x : EReal) : EReal := x * Ideal.div (lit 0x3F800000#32) (lit 0x3F800000#32 + Ideal.exp (-x))

/-- The left knot's index as a 32-bit word: ⌊t⌋ converted to an integer and clamped into [0, 14]. -/
def leftW (t : EReal) : BitVec 32 :=
  IntOp.minsi 14#32 (IntOp.maxsi 0#32 (Ideal.fptosi 32 (Ideal.liftRound Int.floor t)))

/-- An index word as the indexed read normalises it: a negative one wraps around by 16. -/
def wrapW (w : BitVec 32) : BitVec 32 := Scalar.select (IntOp.cmpi .slt w 0#32) (IntOp.addi w 16#32) w

/-- The indexed read of a 16-vector at the word `w`: the entry at the wrapped word (read signed, clamped into
    [0, 15]) when that word is in range, the not-a-number literal otherwise. -/
def takeR (s : Fin 16 → EReal) (w : BitVec 32) : EReal :=
  Scalar.select (IntOp.andi (IntOp.cmpi .sge (wrapW w) 0#32) (IntOp.cmpi .sle (wrapW w) 15#32))
    (s ⟨min (wrapW w).toInt.toNat 15, Nat.lt_succ_of_le (Nat.min_le_right _ _)⟩) (lit 0x7FC00000#32)

/-- The interpolation weight α = t - L, with L read back from its word. -/
def alphaR (x : EReal) : EReal := knotR x - (((leftW (knotR x)).toInt : ℝ) : EReal)

/-- One edge, the reference's way: d · silu(x) + c · ((1 - α) · s[L] + α · s[L+1]). -/
def edgeR (x : EReal) (s : Fin 16 → EReal) (c d : EReal) : EReal :=
  d * siluR x + c * ((lit 0x3F800000#32 - alphaR x) * takeR s (leftW (knotR x))
    + alphaR x * takeR s (IntOp.addi (leftW (knotR x)) 1#32))

/-- The reference's value at row `b`, unit `o`: zero plus the sum of the 256 edges. -/
def kanRAt (x : (⟨2, ![4096, 256]⟩ : Shape).Idx → EReal) (sv : (⟨3, ![128, 256, 16]⟩ : Shape).Idx → EReal)
    (bs ss : (⟨2, ![128, 256]⟩ : Shape).Idx → EReal) (b : Fin 4096) (o : Fin 128) : EReal :=
  lit 0x00000000#32 + ∑ k : Fin 256, edgeR (x (ix2 b k)) (fun g => sv (ix3 o k g)) (ss (ix2 o k)) (bs (ix2 o k))

/-- … as an array over the output's index set. -/
def kanR (x : (⟨2, ![4096, 256]⟩ : Shape).Idx → EReal) (sv : (⟨3, ![128, 256, 16]⟩ : Shape).Idx → EReal)
    (bs ss : (⟨2, ![128, 256]⟩ : Shape).Idx → EReal) : (⟨2, ![4096, 128]⟩ : Shape).Idx → EReal :=
  fun j => kanRAt x sv bs ss ⟨(j 0).val, idx2_lt0 j⟩ ⟨(j 1).val, idx2_lt1 j⟩

theorem kanR_ix2 (x : (⟨2, ![4096, 256]⟩ : Shape).Idx → EReal) (sv : (⟨3, ![128, 256, 16]⟩ : Shape).Idx → EReal)
    (bs ss : (⟨2, ![128, 256]⟩ : Shape).Idx → EReal) (b : Fin 4096) (o : Fin 128) :
    kanR x sv bs ss (ix2 b o) = kanRAt x sv bs ss b o := rfl

end Cert.Spline

end
-- ==== Proof.SplineReal.lean ====
/-
  The float side of one edge at a REAL input: the programs' literals as numbers, the knot coordinate, the hats and
  the logistic product as real expressions.
-/
import proofs.«102799_j21638045237976_1_alg».proof.Proof.SplineSpec

noncomputable section

namespace Cert.Spline

open Idealize.ShloMosaic
open scoped BigOperators

/-- The knot coordinate of a real input: (clip(r, -2, 2) + 2) · 15/4, in [0, 15]. -/
def tReal (r : ℝ) : ℝ := (min 2 (max (-2) r) + 2) * (15 / 4)

/-- The left knot of a coordinate: ⌊t⌋ clamped into [0, 14]. -/
def leftZ (t : ℝ) : ℤ := min 14 (max 0 ⌊t⌋)

theorem tReal_nonneg (r : ℝ) : 0 ≤ tReal r := by
  unfold tReal
  have h : (-2 : ℝ) ≤ min 2 (max (-2) r) := le_min (by norm_num) (le_max_left _ _)
  exact mul_nonneg (by linarith) (by norm_num)

theorem tReal_le (r : ℝ) : tReal r ≤ 15 := by
  unfold tReal
  have h : min 2 (max (-2) r) ≤ (2 : ℝ) := min_le_left _ _
  linarith

theorem leftZ_nonneg (t : ℝ) : 0 ≤ leftZ t := by
  exact le_min (by norm_num) (le_max_left _ _)

theorem leftZ_le (t : ℝ) : leftZ t ≤ 14 := by
  exact min_le_left _ _

/-- For t in [0, 15] the left knot brackets it: L ≤ t ≤ L + 1. -/
theorem leftZ_le_self (t : ℝ) (h0 : 0 ≤ t) : ((leftZ t : ℤ) : ℝ) ≤ t := by
  have h1 : leftZ t ≤ max 0 ⌊t⌋ := min_le_right _ _
  have h2 : ((max 0 ⌊t⌋ : ℤ) : ℝ) ≤ t := by
    rcases le_total 0 ⌊t⌋ with h | h
    · rw [max_eq_right h]; exact Int.floor_le t
    · rw [max_eq_left h]; simpa using h0
  exact le_trans (by exact_mod_cast h1) h2

theorem self_le_leftZ_succ (t : ℝ) (h15 : t ≤ 15) : t ≤ ((leftZ t : ℤ) : ℝ) + 1 := by
  unfold leftZ
  rcases le_total 14 (max 0 ⌊t⌋) with h | h
  · rw [min_eq_left h]; push_cast; linarith
  · rw [min_eq_right h]
    have h1 : ⌊t⌋ ≤ max 0 ⌊t⌋ := le_max_right _ _
    have h2 : ((⌊t⌋ : ℤ) : ℝ) ≤ ((max 0 ⌊t⌋ : ℤ) : ℝ) := by exact_mod_cast h1
    have h3 := Int.lt_floor_add_one t
    linarith

/-! ## The literals' values -/

theorem lit_zero : lit 0x00000000#32 = ((0 : ℝ) : EReal) := by
  simp [Ideal.ofBits, Ideal.ieee]

theorem lit_one : lit 0x3F800000#32 = ((1 : ℝ) : EReal) := by
  simp [Ideal.ofBits, Ideal.ieee, -EReal.coe_mul]; norm_num

private theorem lit_two : lit 0x40000000#32 = ((2 : ℝ) : EReal) := by
  simp [Ideal.ofBits, Ideal.ieee, -EReal.coe_mul]; norm_num

private theorem lit_negTwo : lit 0xC0000000#32 = ((-2 : ℝ) : EReal) := by
  simp [Ideal.ofBits, Ideal.ieee, -EReal.coe_mul]; norm_num

private theorem lit_15q : lit 0x40700000#32 = ((15 / 4 : ℝ) : EReal) := by
  simp [Ideal.ofBits, Ideal.ieee, -EReal.coe_mul]; norm_num

private theorem lit_four : lit 0x40800000#32 = ((4 : ℝ) : EReal) := by
  simp [Ideal.ofBits, Ideal.ieee, -EReal.coe_mul]; norm_num

private theorem lit_fifteen : lit 0x41700000#32 = ((15 : ℝ) : EReal) := by
  simp [Ideal.ofBits, Ideal.ieee, -EReal.coe_mul]; norm_num

private theorem coe_max' (a b : ℝ) : max (a : EReal) (b : EReal) = ((max a b : ℝ) : EReal) :=
  (EReal.coe_strictMono.monotone.map_max).symm

private theorem coe_min' (a b : ℝ) : min (a : EReal) (b : EReal) = ((min a b : ℝ) : EReal) :=
  (EReal.coe_strictMono.monotone.map_min).symm

/-- The kernel's knot coordinate at a real input. -/
theorem knotK_coe (r : ℝ) : knotK (r : EReal) = ((tReal r : ℝ) : EReal) := by
  unfold knotK tReal
  rw [lit_two, lit_negTwo, lit_15q, coe_max', coe_min', ← EReal.coe_sub, ← EReal.coe_mul]
  congr 1
  ring

/-- The reference's knot coordinate at a real input: the same number. -/
theorem knotR_coe (r : ℝ) : knotR (r : EReal) = ((tReal r : ℝ) : EReal) := by
  unfold knotR tReal
  rw [lit_two, lit_negTwo, lit_four, lit_fifteen, coe_max', coe_min', ← EReal.coe_sub,
    Ideal.div_coe (by norm_num : (4 : ℝ) ≠ 0), ← EReal.coe_mul, ← EReal.coe_mul]
  congr 1
  ring

private theorem lit_three : lit 0x40400000#32 = ((3 : ℝ) : EReal) := by
  simp [Ideal.ofBits, Ideal.ieee, -EReal.coe_mul]; norm_num
private theorem lit_five : lit 0x40A00000#32 = ((5 : ℝ) : EReal) := by
  simp [Ideal.ofBits, Ideal.ieee, -EReal.coe_mul]; norm_num
private theorem lit_six : lit 0x40C00000#32 = ((6 : ℝ) : EReal) := by
  simp [Ideal.ofBits, Ideal.ieee, -EReal.coe_mul]; norm_num
private theorem lit_seven : lit 0x40E00000#32 = ((7 : ℝ) : EReal) := by
  simp [Ideal.ofBits, Ideal.ieee, -EReal.coe_mul]; norm_num
private theorem lit_eight : lit 0x41000000#32 = ((8 : ℝ) : EReal) := by
  simp [Ideal.ofBits, Ideal.ieee, -EReal.coe_mul]; norm_num
private theorem lit_nine : lit 0x41100000#32 = ((9 : ℝ) : EReal) := by
  simp [Ideal.ofBits, Ideal.ieee, -EReal.coe_mul]; norm_num
private theorem lit_ten : lit 0x41200000#32 = ((10 : ℝ) : EReal) := by
  simp [Ideal.ofBits, Ideal.ieee, -EReal.coe_mul]; norm_num
private theorem lit_eleven : lit 0x41300000#32 = ((11 : ℝ) : EReal) := by
  simp [Ideal.ofBits, Ideal.ieee, -EReal.coe_mul]; norm_num
private theorem lit_twelve : lit 0x41400000#32 = ((12 : ℝ) : EReal) := by
  simp [Ideal.ofBits, Ideal.ieee, -EReal.coe_mul]; norm_num
private theorem lit_thirteen : lit 0x41500000#32 = ((13 : ℝ) : EReal) := by
  simp [Ideal.ofBits, Ideal.ieee, -EReal.coe_mul]; norm_num
private theorem lit_fourteen : lit 0x41600000#32 = ((14 : ℝ) : EReal) := by
  simp [Ideal.ofBits, Ideal.ieee, -EReal.coe_mul]; norm_num

/-- The knots' words denote 0, 1, …, 15. -/
private theorem lit_knots (g : Fin 16) : lit (knots g) = ((g.val : ℝ) : EReal) := by
  fin_cases g
  · simpa [knots] using lit_zero
  · simpa [knots] using lit_one
  · simpa [knots] using lit_two
  · simpa [knots] using lit_three
  · simpa [knots] using lit_four
  · simpa [knots] using lit_five
  · simpa [knots] using lit_six
  · simpa [knots] using lit_seven
  · simpa [knots] using lit_eight
  · simpa [knots] using lit_nine
  · simpa [knots] using lit_ten
  · simpa [knots] using lit_eleven
  · simpa [knots] using lit_twelve
  · simpa [knots] using lit_thirteen
  · simpa [knots] using lit_fourteen
  · simpa [knots] using lit_fifteen

/-- The hat at knot g, at a real coordinate. -/
theorem hat_coe (g : Fin 16) (t : ℝ) :
    hat (knots g) (t : EReal) = ((max 0 (1 - |t - (g.val : ℝ)|) : ℝ) : EReal) := by
  unfold hat
  rw [lit_knots, lit_zero, lit_one, ← EReal.coe_sub, ← EReal.coe_neg, coe_max', ← EReal.coe_sub, coe_max',
    abs_eq_max_neg]

/-- x · σ(x) at a real input, the logistic as one operation … -/
theorem silu_coe (r : ℝ) : silu (r : EReal) = ((r * (1 + Real.exp (-r))⁻¹ : ℝ) : EReal) := by
  unfold silu
  rw [Ideal.logistic_coe, ← EReal.coe_mul]

/-- … and spelt out: the same number. -/
theorem siluR_coe (r : ℝ) : siluR (r : EReal) = ((r * (1 + Real.exp (-r))⁻¹ : ℝ) : EReal) := by
  unfold siluR
  have hne : (1 + Real.exp (-r) : ℝ) ≠ 0 := by positivity
  rw [lit_one, ← EReal.coe_neg, Ideal.exp_coe, ← EReal.coe_add, Ideal.div_coe hne, ← EReal.coe_mul, ← EReal.coe_mul]
  congr 1
  rw [one_mul, one_div]

end Cert.Spline

end
-- ==== Proof.SplineWords.lean ====
/-
  The integer side of one edge: the left knot as a 32-bit word, and the two indexed reads at it.
-/
import proofs.«102799_j21638045237976_1_alg».proof.Proof.SplineSpec
import proofs.«102799_j21638045237976_1_alg».proof.Proof.SplineReal
import Mathlib.Tactic.IntervalCases
import Mathlib.Algebra.Order.Floor.Ring

noncomputable section

namespace Cert.Spline

open Idealize.ShloMosaic

theorem leftZ_toNat_lt (t : ℝ) : (leftZ t).toNat + 1 < 16 := by
  have h0 := leftZ_nonneg t
  have h14 := leftZ_le t
  omega

/-- The clamped truncation of an integer-valued real inside the clamp's range is that integer. -/
private theorem toIntClamped_int (lo hi m : ℤ) (hlo : lo ≤ m) (hhi : m ≤ hi) :
    Ideal.toIntClamped lo hi (((m : ℝ)) : EReal) = m := by
  show max lo (min hi (if 0 ≤ (m : ℝ) then ⌊(m : ℝ)⌋ else ⌈(m : ℝ)⌉)) = m
  rw [Int.floor_intCast, Int.ceil_intCast, ite_self]
  omega

/-- The conversion to a 32-bit word of a small integer-valued real is the word of that integer. -/
private theorem fptosi_int (m : ℤ) (h0 : 0 ≤ m) (h15 : m ≤ 15) :
    Ideal.fptosi 32 (((m : ℝ)) : EReal) = BitVec.ofInt 32 m := by
  unfold Ideal.fptosi
  rw [toIntClamped_int _ _ m (by norm_num; omega) (by norm_num; omega)]

/-- Clamping the word of an integer in [0, 15] into [0, 14] is the word of the clamped integer. -/
private theorem clamp_word (m : ℤ) (h0 : 0 ≤ m) (h15 : m ≤ 15) :
    IntOp.minsi 14#32 (IntOp.maxsi 0#32 (BitVec.ofInt 32 m)) = BitVec.ofInt 32 (min 14 (max 0 m)) := by
  obtain ⟨n, rfl⟩ := Int.eq_ofNat_of_zero_le h0
  have hn : n ≤ 15 := by omega
  interval_cases n <;> decide

/-- The left-knot word is the word of the clamped floor. -/
private theorem leftW_eq (t : ℝ) (h0 : 0 ≤ t) (h15 : t ≤ 15) :
    leftW (t : EReal) = BitVec.ofInt 32 (leftZ t) := by
  have hf0 : 0 ≤ ⌊t⌋ := Int.floor_nonneg.mpr h0
  have hf15 : ⌊t⌋ ≤ 15 := by
    have : ⌊t⌋ < 15 + 1 := Int.floor_lt.mpr (by push_cast; linarith)
    omega
  unfold leftW leftZ
  rw [Ideal.liftRound_coe, fptosi_int _ hf0 hf15, clamp_word _ hf0 hf15]

/-- The left-knot word of a coordinate in [0, 15], read signed, is the clamped floor. -/
theorem leftW_toInt (t : ℝ) (h0 : 0 ≤ t) (h15 : t ≤ 15) : (leftW (t : EReal)).toInt = leftZ t := by
  rw [leftW_eq t h0 h15]
  have hz0 := leftZ_nonneg t
  have hz14 := leftZ_le t
  generalize leftZ t = z at hz0 hz14
  obtain ⟨n, rfl⟩ := Int.eq_ofNat_of_zero_le hz0
  have hn : n ≤ 14 := by omega
  interval_cases n <;> decide

/-- The indexed read at the word of a number below 16 is in range and returns that entry. -/
private theorem takeR_word (s : Fin 16 → EReal) (n : ℕ) (hn : n < 16) :
    takeR s (BitVec.ofNat 32 n) = s ⟨n, hn⟩ := by
  have hc : IntOp.andi (IntOp.cmpi .sge (wrapW (BitVec.ofNat 32 n)) 0#32)
      (IntOp.cmpi .sle (wrapW (BitVec.ofNat 32 n)) 15#32) = 1#1 := by
    interval_cases n <;> decide
  have hi : min (wrapW (BitVec.ofNat 32 n)).toInt.toNat 15 = n := by interval_cases n <;> decide
  unfold takeR
  rw [hc, ValueIdx.select_one]
  exact congrArg s (Fin.ext hi)

/-- The same, at the word of a non-negative integer below 16. -/
private theorem takeR_ofInt (s : Fin 16 → EReal) (z : ℤ) (h0 : 0 ≤ z) (h : z.toNat < 16) :
    takeR s (BitVec.ofInt 32 z) = s ⟨z.toNat, h⟩ := by
  obtain ⟨n, rfl⟩ := Int.eq_ofNat_of_zero_le h0
  have hn : n < 16 := by simpa using h
  rw [BitVec.ofInt_natCast, takeR_word s n hn]
  exact congrArg s (Fin.ext (by simp))

/-- The indexed read at the left-knot word is in range and returns entry L. -/
theorem takeR_left (s : Fin 16 → EReal) (t : ℝ) (h0 : 0 ≤ t) (h15 : t ≤ 15) :
    takeR s (leftW (t : EReal)) = s ⟨(leftZ t).toNat, Nat.lt_of_succ_lt (leftZ_toNat_lt t)⟩ := by
  rw [leftW_eq t h0 h15]
  exact takeR_ofInt s (leftZ t) (leftZ_nonneg t) _

/-- The indexed read one word further is in range and returns entry L + 1. -/
theorem takeR_right (s : Fin 16 → EReal) (t : ℝ) (h0 : 0 ≤ t) (h15 : t ≤ 15) :
    takeR s (IntOp.addi (leftW (t : EReal)) 1#32) = s ⟨(leftZ t).toNat + 1, leftZ_toNat_lt t⟩ := by
  have hz0 := leftZ_nonneg t
  have hlt := leftZ_toNat_lt t
  have hadd : IntOp.addi (leftW (t : EReal)) 1#32 = BitVec.ofInt 32 (leftZ t + 1) := by
    rw [leftW_eq t h0 h15, BitVec.ofInt_add]
    rfl
  have hr : (leftZ t + 1).toNat < 16 := by omega
  rw [hadd, takeR_ofInt s (leftZ t + 1) (by omega) hr]
  exact congrArg s (Fin.ext (by show (leftZ t + 1).toNat = (leftZ t).toNat + 1; omega))

end Cert.Spline

end
-- ==== Proof.SplineEdge.lean ====
/-
  One edge: on finite inputs the reference's two-neighbour interpolation is the kernel's sum over all sixteen hats.
-/
import proofs.«102799_j21638045237976_1_alg».proof.Proof.SplineSpec
import proofs.«102799_j21638045237976_1_alg».proof.Proof.SplineReal
import proofs.«102799_j21638045237976_1_alg».proof.Proof.SplineWords

noncomputable section

namespace Cert.Spline

open Idealize.ShloMosaic
open scoped BigOperators

/-- The coercion of the reals into the extended reals commutes with finite sums. -/
private theorem coe_finsum {ι : Type} (S : Finset ι) (f : ι → ℝ) :
    ((∑ i ∈ S, f i : ℝ) : EReal) = ∑ i ∈ S, ((f i : ℝ) : EReal) := by
  classical
  refine Finset.induction_on S ?_ ?_
  · simp
  · intro a S ha ih
    rw [Finset.sum_insert ha, Finset.sum_insert ha, EReal.coe_add, ih]

/-- A hat vanishes at distance at least one from its knot. -/
private theorem hat_zero_of_one_le (t x : ℝ) (h : 1 ≤ |t - x|) : max 0 (1 - |t - x|) = 0 :=
  max_eq_left (by linarith)

/-- The two-knot form of the hat sum, with the left knot given as a natural number n whose real value is L. -/
private theorem hat_sum_aux (t L : ℝ) (n : ℕ) (hlt : n + 1 < 16) (hcast : (n : ℝ) = L)
    (hle : L ≤ t) (hge : t ≤ L + 1) (s : Fin 16 → ℝ) :
    ∑ g : Fin 16, max 0 (1 - |t - (g.val : ℝ)|) * s g
      = (1 - (t - L)) * s ⟨n, Nat.lt_of_succ_lt hlt⟩ + (t - L) * s ⟨n + 1, hlt⟩ := by
  -- the two knots that matter
  have hab : (⟨n, Nat.lt_of_succ_lt hlt⟩ : Fin 16) ≠ ⟨n + 1, hlt⟩ := by
    intro h
    have := congrArg Fin.val h
    simp at this
  rw [← Finset.sum_subset (Finset.subset_univ
    ({⟨n, Nat.lt_of_succ_lt hlt⟩, ⟨n + 1, hlt⟩} : Finset (Fin 16)))]
  · rw [Finset.sum_pair hab]
    have e1 : max 0 (1 - |t - (n : ℝ)|) = 1 - (t - L) := by
      rw [hcast, abs_of_nonneg (by linarith)]
      exact max_eq_right (by linarith)
    have e2 : max 0 (1 - |t - ((n + 1 : ℕ) : ℝ)|) = t - L := by
      rw [Nat.cast_add, Nat.cast_one, hcast, abs_of_nonpos (by linarith)]
      rw [max_eq_right (by linarith)]
      ring
    simp only [e1, e2]
  · intro g _ hg
    have hg1 : g.val ≠ n := by
      intro h
      apply hg
      simp [Fin.ext_iff, h]
    have hg2 : g.val ≠ n + 1 := by
      intro h
      apply hg
      simp [Fin.ext_iff, h]
    have hfar : 1 ≤ |t - (g.val : ℝ)| := by
      rcases Nat.lt_or_ge g.val n with hlt' | hge'
      · -- the knot lies at least one to the left of t
        have h1 : ((g.val + 1 : ℕ) : ℝ) ≤ (n : ℝ) := by exact_mod_cast hlt'
        rw [Nat.cast_add, Nat.cast_one] at h1
        rw [abs_of_nonneg (by linarith)]
        linarith
      · -- the knot lies at least one to the right of t
        have h2 : n + 2 ≤ g.val := by omega
        have h3 : ((n + 2 : ℕ) : ℝ) ≤ (g.val : ℝ) := by exact_mod_cast h2
        rw [Nat.cast_add, Nat.cast_ofNat] at h3
        rw [abs_of_nonpos (by linarith)]
        linarith
    rw [hat_zero_of_one_le t _ hfar, zero_mul]

/-- Over the reals: of the sixteen hats at a coordinate t in [0, 15] only those at the left knot L and at L + 1 can be
    non-zero, with weights 1 - (t - L) and t - L. -/
theorem hat_sum (t : ℝ) (h0 : 0 ≤ t) (h15 : t ≤ 15) (s : Fin 16 → ℝ) :
    ∑ g : Fin 16, max 0 (1 - |t - (g.val : ℝ)|) * s g
      = (1 - (t - (leftZ t : ℝ))) * s ⟨(leftZ t).toNat, Nat.lt_of_succ_lt (leftZ_toNat_lt t)⟩
        + (t - (leftZ t : ℝ)) * s ⟨(leftZ t).toNat + 1, leftZ_toNat_lt t⟩ := by
  -- the natural-number index of the left knot, as a real, is L
  have hcast : (((leftZ t).toNat : ℕ) : ℝ) = ((leftZ t : ℤ) : ℝ) := by
    have hz : (((leftZ t).toNat : ℕ) : ℤ) = leftZ t := Int.toNat_of_nonneg (leftZ_nonneg t)
    rw [← Int.cast_natCast, hz]
  exact hat_sum_aux t _ _ (leftZ_toNat_lt t) hcast (leftZ_le_self t h0) (self_le_leftZ_succ t h15) s

/-- For real input, knot values and scales, the reference's edge value is the kernel's. -/
theorem edge_eq (r : ℝ) (sr : Fin 16 → ℝ) (cr dr : ℝ) :
    edgeR (r : EReal) (fun g => ((sr g : ℝ) : EReal)) (cr : EReal) (dr : EReal)
      = edgeK (r : EReal) (fun g => ((sr g : ℝ) : EReal)) (cr : EReal) (dr : EReal) := by
  have h0 : 0 ≤ tReal r := tReal_nonneg r
  have h15 : tReal r ≤ 15 := tReal_le r
  -- the interpolation weight is the real number t - L
  have hα : alphaR (r : EReal) = ((tReal r - (leftZ (tReal r) : ℝ) : ℝ) : EReal) := by
    unfold alphaR
    rw [knotR_coe, leftW_toInt (tReal r) h0 h15, EReal.coe_sub]
  -- the kernel's sixteen-term sum is the coercion of a real sum
  have hsum : ∑ g : Fin 16, hat (knots g) (knotK (r : EReal)) * (((sr g : ℝ) : EReal) * (cr : EReal))
      = ((∑ g : Fin 16, max 0 (1 - |tReal r - (g.val : ℝ)|) * (sr g * cr) : ℝ) : EReal) := by
    rw [knotK_coe, coe_finsum]
    refine Finset.sum_congr rfl ?_
    intro g _
    rw [hat_coe, EReal.coe_mul, EReal.coe_mul]
  unfold edgeR edgeK
  rw [hsum, hat_sum (tReal r) h0 h15, hα, siluR_coe, silu_coe, knotR_coe,
    takeR_left _ (tReal r) h0 h15, takeR_right _ (tReal r) h0 h15, lit_one]
  simp only [← EReal.coe_mul, ← EReal.coe_add, ← EReal.coe_sub]
  refine congrArg (fun z : ℝ => (z : EReal)) ?_
  ring

end Cert.Spline

end
-- ==== Proof.SplineSum.lean ====
/-
  From one edge to the whole array: the kernel's sixteen-fold accumulation regrouped edge by edge.
-/
import proofs.«102799_j21638045237976_1_alg».proof.Proof.SplineSpec
import proofs.«102799_j21638045237976_1_alg».proof.Proof.SplineReal
import proofs.«102799_j21638045237976_1_alg».proof.Proof.SplineEdge

noncomputable section

namespace Cert.Spline

open Idealize.ShloMosaic Idealize.ShloMosaic.ValueIdx
open scoped BigOperators

/-- A sum over sixteen indices written out, left to right. -/
theorem sum_fin16 {M : Type*} [AddCommMonoid M] (f : Fin 16 → M) :
    ∑ g : Fin 16, f g = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- The kernel's accumulation is the sum over the input features of the kernel-form edges: only the commutative
    monoid laws of addition are used, so no finiteness is needed here. -/
theorem nest_eq_sum (X : Fin 256 → EReal) (S : Fin 16 → Fin 256 → EReal) (C D : Fin 256 → EReal) :
    nest X S C D = ∑ k : Fin 256, edgeK (X k) (fun g => S g k) (C k) (D k) := by
  have hR : ∑ k : Fin 256, edgeK (X k) (fun g => S g k) (C k) (D k)
      = baseDot X D + ∑ g : Fin 16, hatDot (knots g) X (S g) C := by
    unfold edgeK baseDot hatDot
    rw [Finset.sum_add_distrib, Finset.sum_comm]
  rw [hR, sum_fin16]
  unfold nest
  simp only [← add_assoc]
  rfl

/-- On finite arrays the kernel's array is the reference's. -/
theorem kanK_eq_kanR (x : (⟨2, ![4096, 256]⟩ : Shape).Idx → EReal) (sv : (⟨3, ![128, 256, 16]⟩ : Shape).Idx → EReal) (bs ss : (⟨2, ![128, 256]⟩ : Shape).Idx → EReal)
    (hx : ∀ i, ∃ r : ℝ, x i = (r : EReal)) (hsv : ∀ i, ∃ r : ℝ, sv i = (r : EReal))
    (hbs : ∀ i, ∃ r : ℝ, bs i = (r : EReal)) (hss : ∀ i, ∃ r : ℝ, ss i = (r : EReal)) :
    kanK x sv bs ss = kanR x sv bs ss := by
  funext j
  obtain ⟨b, o, rfl⟩ : ∃ (b : Fin 4096) (o : Fin 128), j = ix2 b o := ⟨j 0, j 1, eq_ix2 j⟩
  rw [kanK_ix2, kanR_ix2]
  unfold kanKAt kanRAt
  rw [nest_eq_sum, lit_zero, EReal.coe_zero, zero_add]
  refine Finset.sum_congr rfl fun k _ => ?_
  obtain ⟨r, hr⟩ := hx (ix2 b k)
  obtain ⟨cr, hcr⟩ := hss (ix2 o k)
  obtain ⟨dr, hdr⟩ := hbs (ix2 o k)
  choose sr hsr using fun g : Fin 16 => hsv (ix3 o k g)
  have hs : (fun g : Fin 16 => sv (ix3 o k g)) = fun g => ((sr g : ℝ) : EReal) := funext hsr
  rw [hr, hcr, hdr, hs]
  exact (edge_eq r sr cr dr).symm

end Cert.Spline

end
-- ==== Proof.RefKnot.lean ====
/-
  The reference's knot coordinate and left-knot word, read at one input entry.
-/
import proofs.«102799_j21638045237976_1_alg».proof.Proof.RefRead
import proofs.«102799_j21638045237976_1_alg».proof.Proof.SplineSpec

noncomputable section

namespace Cert.ReferenceIdeal.RefValue

open Cert.ReferenceIdeal Cert.ReferenceIdeal.ReadP Idealize.ShloMosaic Idealize.ShloMosaic.ValueIdx

/-- The reference's knot coordinate t at input entry (b, k). -/
theorem knot_val (x0 : (⟨S4096x256, .f32⟩ : BufTy).Contents (Elt Ideal)) (b : Fin 4096) (k : Fin 256) :
    val_main_v6 (F := Ideal) x0 (ix2 b k) = Cert.Spline.knotR (x0 (ix2 b k)) := by
  rw [val_main_v6_apply, val_main_v4_apply, val_main_v2_apply, val_main_v0_apply, val_main_call0_v4_apply,
    val_main_call0_v3_apply, val_main_cst_0_apply, val_main_call0_v2_apply, val_main_call0_v1_apply,
    val_main_call0_v0_apply, val_main_cst_apply, val_main_v1_apply, val_main_cst_1_apply, val_main_v3_apply,
    val_main_cst_2_apply, val_main_v5_apply, val_main_cst_3_apply]
  unfold Cert.Spline.knotR
  simp only [Ideal.hostDivf_def, Ideal.minimumf_def, Ideal.maximumf_def, Ideal.subf_def, Ideal.mulf_def,
    Ideal.ofBits_def]

/-- The clamped left-knot word at input entry (b, k). -/
theorem left_word (x0 : (⟨S4096x256, .f32⟩ : BufTy).Contents (Elt Ideal)) (b : Fin 4096) (k : Fin 256) :
    val_main_v9 (F := Ideal) x0 (ix2 b k) = Cert.Spline.leftW (Cert.Spline.knotR (x0 (ix2 b k))) := by
  rw [val_main_v9_apply, val_main_call1_v4_apply, val_main_call1_v3_apply, val_main_c_4_apply,
    val_main_call1_v2_apply, val_main_call1_v1_apply, val_main_call1_v0_apply, val_main_c_apply,
    val_main_v8_apply, val_main_v7_apply, knot_val]
  unfold Cert.Spline.leftW
  simp only [Ideal.hostUnary_floor_def]
  rfl

end Cert.ReferenceIdeal.RefValue

end
-- ==== Proof.RefTake.lean ====
/-
  The reference's two indexed reads of the knot table, at one (row, unit, feature).
-/
import proofs.«102799_j21638045237976_1_alg».proof.Proof.RefRead
import proofs.«102799_j21638045237976_1_alg».proof.Proof.SplineSpec
import proofs.«102799_j21638045237976_1_alg».proof.Proof.RefKnot

noncomputable section

namespace Cert.ReferenceIdeal.RefValue

open Cert.ReferenceIdeal Cert.ReferenceIdeal.ReadP Idealize.ShloMosaic Idealize.ShloMosaic.ValueIdx

/-- The reference's gather record: operand [128,256,16], start indices [4096,256,1,1], result [4096,128,256,1]. -/
private abbrev takeGd := gather_S128x256x16_S4096x256x1x1_S4096x128x256x1_1_2_1_1_2_3_12811

/-- The gather read at (b, o, k, 0): operand axis 0 is the offset axis (coordinate o), axis 1 the batching axis
    (coordinate k), axis 2 the collapsed, start-indexed axis: the start index at (b, k, 0, 0) read signed and clamped
    into [0, 15]. -/
private theorem take_gather_read {α : Type} {w : Nat} (x : S128x256x16.Idx → α) (idx : IVec S4096x256x1x1 w)
    (b : Fin 4096) (o : Fin 128) (k : Fin 256) :
    Host.gather gather_S128x256x16_S4096x256x1x1_S4096x128x256x1_1_2_1_1_2_3_12811 x idx (ix4 b o k (0 : Fin 1))
      = x (ix3 o k (⟨min (idx (ix4 b k (0 : Fin 1) (0 : Fin 1))).toInt.toNat 15, Nat.lt_succ_of_le (Nat.min_le_right _ _)⟩ : Fin 16)) := by
  unfold Host.gather
  congr 1
  funext a
  refine Fin.ext ?_
  match a with
  | ⟨0, _⟩ =>
    show takeGd.start (ix4 b o k (0 : Fin 1)) idx (0 : Fin 3) + takeGd.batchCoord (ix4 b o k (0 : Fin 1)) (0 : Fin 3)
      + takeGd.offCoord (ix4 b o k (0 : Fin 1)) (0 : Fin 3) = o.val
    rw [GatherDims.batchCoord_eq_zero _ _ _ (by decide)]
    unfold GatherDims.start GatherDims.offCoord
    rw [dif_neg (by decide), dif_pos (by decide)]
    simp only [Nat.zero_add]
    rfl
  | ⟨1, _⟩ =>
    show takeGd.start (ix4 b o k (0 : Fin 1)) idx (1 : Fin 3) + takeGd.batchCoord (ix4 b o k (0 : Fin 1)) (1 : Fin 3)
      + takeGd.offCoord (ix4 b o k (0 : Fin 1)) (1 : Fin 3) = k.val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨2, _⟩ =>
    show takeGd.start (ix4 b o k (0 : Fin 1)) idx (2 : Fin 3) + takeGd.batchCoord (ix4 b o k (0 : Fin 1)) (2 : Fin 3)
      + takeGd.offCoord (ix4 b o k (0 : Fin 1)) (2 : Fin 3) = min (idx (ix4 b k (0 : Fin 1) (0 : Fin 1))).toInt.toNat 15
    rw [GatherDims.batchCoord_eq_zero _ _ _ (by decide), GatherDims.offCoord_eq_zero _ _ _ (by decide)]
    unfold GatherDims.start
    rw [dif_pos (by decide)]
    have hsi : takeGd.siIdx (ix4 b o k (0 : Fin 1)) ⟨List.idxOf (2 : Fin 3) takeGd.startIndexMap,
        List.idxOf_lt_length_iff.2 (by decide)⟩ = ix4 b k (0 : Fin 1) (0 : Fin 1) := by
      funext c; refine Fin.ext ?_
      match c with
      | ⟨0, _⟩ => rfl
      | ⟨1, _⟩ => rfl
      | ⟨2, _⟩ => rfl
      | ⟨3, _⟩ => rfl
    rw [hsi]
    rfl

/-- 1 is neutral for `and` on one-bit words. -/
private theorem take_andi_one (x : BitVec 1) : IntOp.andi x 1#1 = x := by
  revert x; decide

/-- A reduction by `and` from 1 over an axis of extent one is the operand's single element on that axis. -/
private theorem take_reduce_read (v : IVec S4096x256x1x1 1) (init : S_.Idx → BitVec 1) (hinit : ∀ i, init i = 1#1)
    (h' : S4096x256x1x1.ReducesTo [3] S4096x256x1) (hu : 0 < S_.numel) (b : Fin 4096) (k : Fin 256) :
    Host.reduce IntOp.andi v init h' hu (ix3 b k (0 : Fin 1)) = v (ix4 b k (0 : Fin 1) (0 : Fin 1)) := by
  have h : S4096x256x1x1.Reduces [3] S4096x256x1 := by decide
  rw [Host.reduce_eq_fold_single IntOp.andi v init h' h hu]
  haveI : Unique (Fin (S4096x256x1x1.size 3)) := (inferInstance : Unique (Fin 1))
  rw [Finset.univ_unique, Finset.fold_singleton, hinit, take_andi_one, Function.comp_apply]
  congr 1
  funext c
  refine Fin.ext ?_
  rw [h.lift_val]
  match c with
  | ⟨0, _⟩ => rfl
  | ⟨1, _⟩ => rfl
  | ⟨2, _⟩ => rfl
  | ⟨3, _⟩ =>
    have e : ∀ z : Fin (S4096x256x1x1.size 3), z.val = 0 := fun z => Fin.val_eq_zero (z : Fin 1)
    rw [e]
    rfl

/-! ## The layout operations' index maps at coordinates -/

private theorem take_idx_v13 (b : Fin 4096) (k : Fin 256) :
    idx_main_v13 (ix4 b (0 : Fin 1) k (0 : Fin 1)) = ix2 b k := by
  funext a
  match a with
  | ⟨0, _⟩ => rfl
  | ⟨1, _⟩ => rfl

private theorem take_idx_v16 (b : Fin 4096) (o : Fin 128) (k : Fin 256) :
    idx_main_v16 (ix3 b o k) = ix4 b o k (0 : Fin 1) := by
  funext a
  match a with
  | ⟨0, _⟩ => exact Fin.ext (by show ((b.val * 128 + o.val) * 256 + k.val) / 32768 = b.val; omega)
  | ⟨1, _⟩ => exact Fin.ext (by show ((b.val * 128 + o.val) * 256 + k.val) / 256 % 128 = o.val; omega)
  | ⟨2, _⟩ => exact Fin.ext (by show ((b.val * 128 + o.val) * 256 + k.val) / 1 % 256 = k.val; omega)
  | ⟨3, _⟩ => rfl

private theorem take_idx_call2_v15 (b : Fin 4096) (o : Fin 128) (k : Fin 256) :
    idx_main_call2_v15 (ix4 b o k (0 : Fin 1)) = ix3 b k (0 : Fin 1) := by
  funext a
  match a with
  | ⟨0, _⟩ => rfl
  | ⟨1, _⟩ => rfl
  | ⟨2, _⟩ => rfl

private theorem take_idx_call2_v5 (b : Fin 4096) (k : Fin 256) :
    idx_main_call2_v5 (ix4 b k (0 : Fin 1) (0 : Fin 1)) = ix4 b (0 : Fin 1) k (0 : Fin 1) := by
  funext a
  match a with
  | ⟨0, _⟩ => exact Fin.ext (by show (((b.val * 256 + k.val) * 1 + 0) * 1 + 0) / 256 = b.val; omega)
  | ⟨1, _⟩ => rfl
  | ⟨2, _⟩ => exact Fin.ext (by show (((b.val * 256 + k.val) * 1 + 0) * 1 + 0) / 1 % 256 = k.val; omega)
  | ⟨3, _⟩ => rfl

private theorem take_idx_call2_v6 (o : Fin 128) (k : Fin 256) (g : Fin 16) :
    idx_main_v14 (idx_main_call2_v6 (ix3 o k g)) = ix3 o k g := by
  funext a
  match a with
  | ⟨0, _⟩ => exact Fin.ext (by show ((o.val * 256 + k.val) * 16 + g.val) / 4096 % 128 = o.val; omega)
  | ⟨1, _⟩ => exact Fin.ext (by show ((o.val * 256 + k.val) * 16 + g.val) / 16 % 256 = k.val; omega)
  | ⟨2, _⟩ => exact Fin.ext (by show ((o.val * 256 + k.val) * 16 + g.val) % 16 = g.val; omega)

private theorem take_idx_v21 (b : Fin 4096) (o : Fin 128) (k : Fin 256) :
    idx_main_v21 (ix3 b o k) = ix4 b o k (0 : Fin 1) := by
  funext a
  match a with
  | ⟨0, _⟩ => exact Fin.ext (by show ((b.val * 128 + o.val) * 256 + k.val) / 32768 = b.val; omega)
  | ⟨1, _⟩ => exact Fin.ext (by show ((b.val * 128 + o.val) * 256 + k.val) / 256 % 128 = o.val; omega)
  | ⟨2, _⟩ => exact Fin.ext (by show ((b.val * 128 + o.val) * 256 + k.val) / 1 % 256 = k.val; omega)
  | ⟨3, _⟩ => rfl

private theorem take_idx_call3_v15 (b : Fin 4096) (o : Fin 128) (k : Fin 256) :
    idx_main_call3_v15 (ix4 b o k (0 : Fin 1)) = ix3 b k (0 : Fin 1) := by
  funext a
  match a with
  | ⟨0, _⟩ => rfl
  | ⟨1, _⟩ => rfl
  | ⟨2, _⟩ => rfl

private theorem take_idx_call3_v5 (b : Fin 4096) (k : Fin 256) :
    idx_main_call3_v5 (ix4 b k (0 : Fin 1) (0 : Fin 1)) = ix4 b (0 : Fin 1) k (0 : Fin 1) := by
  funext a
  match a with
  | ⟨0, _⟩ => exact Fin.ext (by show (((b.val * 256 + k.val) * 1 + 0) * 1 + 0) / 256 = b.val; omega)
  | ⟨1, _⟩ => rfl
  | ⟨2, _⟩ => exact Fin.ext (by show (((b.val * 256 + k.val) * 1 + 0) * 1 + 0) / 1 % 256 = k.val; omega)
  | ⟨3, _⟩ => rfl

private theorem take_idx_call3_v6 (o : Fin 128) (k : Fin 256) (g : Fin 16) :
    idx_main_v17 (idx_main_call3_v6 (ix3 o k g)) = ix3 o k g := by
  funext a
  match a with
  | ⟨0, _⟩ => exact Fin.ext (by show ((o.val * 256 + k.val) * 16 + g.val) / 4096 % 128 = o.val; omega)
  | ⟨1, _⟩ => exact Fin.ext (by show ((o.val * 256 + k.val) * 16 + g.val) / 16 % 256 = k.val; omega)
  | ⟨2, _⟩ => exact Fin.ext (by show ((o.val * 256 + k.val) * 16 + g.val) % 16 = g.val; omega)

/-! ## The left neighbour -/

/-- The gather's start index for (b, k): the left-knot word, wrapped. -/
private theorem take_left_start (x0 : (⟨S4096x256, .f32⟩ : BufTy).Contents (Elt Ideal)) (b : Fin 4096) (k : Fin 256) :
    val_main_call2_v5 (F := Ideal) x0 (ix4 b k (0 : Fin 1) (0 : Fin 1))
      = Cert.Spline.wrapW (Cert.Spline.leftW (Cert.Spline.knotR (x0 (ix2 b k)))) := by
  rw [val_main_call2_v5_apply, take_idx_call2_v5, val_main_call2_v4_apply, val_main_call2_v1_apply, val_main_call2_v3_apply,
    val_main_v13_apply, take_idx_v13, left_word, val_main_call2_v0_apply, val_main_call2_c_apply, val_main_call2_v2_apply,
    val_main_call2_c_0_apply]
  rfl

/-- The in-range mask for (b, k): 0 ≤ wrapped word ≤ 15. -/
private theorem take_left_mask (x0 : (⟨S4096x256, .f32⟩ : BufTy).Contents (Elt Ideal)) (b : Fin 4096) (k : Fin 256) :
    val_main_call2_v13 (F := Ideal) x0 (ix3 b k (0 : Fin 1))
      = IntOp.andi (IntOp.cmpi .sge (Cert.Spline.wrapW (Cert.Spline.leftW (Cert.Spline.knotR (x0 (ix2 b k))))) 0#32) (IntOp.cmpi .sle (Cert.Spline.wrapW (Cert.Spline.leftW (Cert.Spline.knotR (x0 (ix2 b k))))) 15#32) := by
  unfold val_main_call2_v13
  rw [take_reduce_read (val_main_call2_v12 (F := Ideal) x0) (val_main_call2_c_3 (F := Ideal)) (fun _ => rfl),
    val_main_call2_v12_apply, val_main_call2_v8_apply, val_main_call2_v11_apply,
    take_left_start, val_main_call2_v7_apply, val_main_call2_c_2_apply, val_main_call2_v10_apply, val_main_call2_v9_apply,
    val_main_call2_c_1_apply]

/-- The gather's operand is the knot table itself. -/
private theorem take_call2_v6_read (x1 : (⟨S128x256x16, .f32⟩ : BufTy).Contents (Elt Ideal)) (o : Fin 128) (k : Fin 256) (g : Fin 16) :
    val_main_call2_v6 (F := Ideal) x1 (ix3 o k g) = x1 (ix3 o k g) := by
  rw [val_main_call2_v6_apply, val_main_v14_apply, take_idx_call2_v6]

/-- The gathered entry for (b, o, k): the table row of edge (o, k) at the wrapped word, read signed and clamped. -/
private theorem take_left_gather (x0 : (⟨S4096x256, .f32⟩ : BufTy).Contents (Elt Ideal)) (x1 : (⟨S128x256x16, .f32⟩ : BufTy).Contents (Elt Ideal))
    (b : Fin 4096) (o : Fin 128) (k : Fin 256) :
    val_main_call2_v14 (F := Ideal) x0 x1 (ix4 b o k (0 : Fin 1))
      = x1 (ix3 o k (⟨min (Cert.Spline.wrapW (Cert.Spline.leftW (Cert.Spline.knotR (x0 (ix2 b k))))).toInt.toNat 15, Nat.lt_succ_of_le (Nat.min_le_right _ _)⟩ : Fin 16)) := by
  unfold val_main_call2_v14
  rw [take_gather_read, take_call2_v6_read, take_left_start]

/-- The left neighbour's knot value: the table row of edge (o, k) read at the left-knot word. -/
theorem left_val (x0 : (⟨S4096x256, .f32⟩ : BufTy).Contents (Elt Ideal)) (x1 : (⟨S128x256x16, .f32⟩ : BufTy).Contents (Elt Ideal))
    (b : Fin 4096) (o : Fin 128) (k : Fin 256) :
    val_main_v16 (F := Ideal) x0 x1 (ix3 b o k)
      = Cert.Spline.takeR (fun g => x1 (ix3 o k g)) (Cert.Spline.leftW (Cert.Spline.knotR (x0 (ix2 b k)))) := by
  rw [val_main_v16_apply, take_idx_v16, val_main_v15_apply, val_main_call2_v15_apply, take_idx_call2_v15, take_left_mask,
    val_main_call2_v16_apply, val_main_call2_cst_apply, Ideal.ofBits_def, take_left_gather]
  rfl

/-! ## The right neighbour -/

/-- The gather's start index for (b, k): the left-knot word plus one, wrapped. -/
private theorem take_right_start (x0 : (⟨S4096x256, .f32⟩ : BufTy).Contents (Elt Ideal)) (b : Fin 4096) (k : Fin 256) :
    val_main_call3_v5 (F := Ideal) x0 (ix4 b k (0 : Fin 1) (0 : Fin 1))
      = Cert.Spline.wrapW (IntOp.addi (Cert.Spline.leftW (Cert.Spline.knotR (x0 (ix2 b k)))) 1#32) := by
  rw [val_main_call3_v5_apply, take_idx_call3_v5, val_main_call3_v4_apply, val_main_call3_v1_apply, val_main_call3_v3_apply,
    val_main_v19_apply, val_main_v13_apply, take_idx_v13, left_word, val_main_v18_apply, val_main_c_5_apply, val_main_call3_v0_apply, val_main_call3_c_apply, val_main_call3_v2_apply,
    val_main_call3_c_0_apply]
  rfl

/-- The in-range mask for (b, k): 0 ≤ wrapped word ≤ 15. -/
private theorem take_right_mask (x0 : (⟨S4096x256, .f32⟩ : BufTy).Contents (Elt Ideal)) (b : Fin 4096) (k : Fin 256) :
    val_main_call3_v13 (F := Ideal) x0 (ix3 b k (0 : Fin 1))
      = IntOp.andi (IntOp.cmpi .sge (Cert.Spline.wrapW (IntOp.addi (Cert.Spline.leftW (Cert.Spline.knotR (x0 (ix2 b k)))) 1#32)) 0#32) (IntOp.cmpi .sle (Cert.Spline.wrapW (IntOp.addi (Cert.Spline.leftW (Cert.Spline.knotR (x0 (ix2 b k)))) 1#32)) 15#32) := by
  unfold val_main_call3_v13
  rw [take_reduce_read (val_main_call3_v12 (F := Ideal) x0) (val_main_call3_c_3 (F := Ideal)) (fun _ => rfl),
    val_main_call3_v12_apply, val_main_call3_v8_apply, val_main_call3_v11_apply,
    take_right_start, val_main_call3_v7_apply, val_main_call3_c_2_apply, val_main_call3_v10_apply, val_main_call3_v9_apply,
    val_main_call3_c_1_apply]

/-- The gather's operand is the knot table itself. -/
private theorem take_call3_v6_read (x1 : (⟨S128x256x16, .f32⟩ : BufTy).Contents (Elt Ideal)) (o : Fin 128) (k : Fin 256) (g : Fin 16) :
    val_main_call3_v6 (F := Ideal) x1 (ix3 o k g) = x1 (ix3 o k g) := by
  rw [val_main_call3_v6_apply, val_main_v17_apply, take_idx_call3_v6]

/-- The gathered entry for (b, o, k): the table row of edge (o, k) at the wrapped word, read signed and clamped. -/
private theorem take_right_gather (x0 : (⟨S4096x256, .f32⟩ : BufTy).Contents (Elt Ideal)) (x1 : (⟨S128x256x16, .f32⟩ : BufTy).Contents (Elt Ideal))
    (b : Fin 4096) (o : Fin 128) (k : Fin 256) :
    val_main_call3_v14 (F := Ideal) x0 x1 (ix4 b o k (0 : Fin 1))
      = x1 (ix3 o k (⟨min (Cert.Spline.wrapW (IntOp.addi (Cert.Spline.leftW (Cert.Spline.knotR (x0 (ix2 b k)))) 1#32)).toInt.toNat 15, Nat.lt_succ_of_le (Nat.min_le_right _ _)⟩ : Fin 16)) := by
  unfold val_main_call3_v14
  rw [take_gather_read, take_call3_v6_read, take_right_start]

/-- The right neighbour's: the same row read at the left-knot word plus one. -/
theorem right_val (x0 : (⟨S4096x256, .f32⟩ : BufTy).Contents (Elt Ideal)) (x1 : (⟨S128x256x16, .f32⟩ : BufTy).Contents (Elt Ideal))
    (b : Fin 4096) (o : Fin 128) (k : Fin 256) :
    val_main_v21 (F := Ideal) x0 x1 (ix3 b o k)
      = Cert.Spline.takeR (fun g => x1 (ix3 o k g)) (IntOp.addi (Cert.Spline.leftW (Cert.Spline.knotR (x0 (ix2 b k)))) 1#32) := by
  rw [val_main_v21_apply, take_idx_v21, val_main_v20_apply, val_main_call3_v15_apply, take_idx_call3_v15, take_right_mask,
    val_main_call3_v16_apply, val_main_call3_cst_apply, Ideal.ofBits_def, take_right_gather]
  rfl

end Cert.ReferenceIdeal.RefValue

end
-- ==== Proof.RefSum.lean ====
/-
  The reference's result array is the reference-form specification.
-/
import proofs.«102799_j21638045237976_1_alg».proof.Proof.RefRead
import proofs.«102799_j21638045237976_1_alg».proof.Proof.SplineSpec
import proofs.«102799_j21638045237976_1_alg».proof.Proof.RefKnot
import proofs.«102799_j21638045237976_1_alg».proof.Proof.RefTake

noncomputable section

namespace Cert.ReferenceIdeal.RefValue

open Cert.ReferenceIdeal Cert.ReferenceIdeal.ReadP Idealize.ShloMosaic Idealize.ShloMosaic.ValueIdx
open scoped BigOperators

/-! ## Where the broadcasts read -/

private theorem at39 (b : Fin 4096) (o : Fin 128) (k : Fin 256) : idx_main_v39 (ix2 b o) k = ix3 b o k :=
  funext fun a => Fin.ext (by match a with | ⟨0, _⟩ => rfl | ⟨1, _⟩ => rfl | ⟨2, _⟩ => rfl)

private theorem at24 (b : Fin 4096) (o : Fin 128) (k : Fin 256) : idx_main_v24 (ix3 b o k) = ix3 b (0 : Fin 1) k :=
  funext fun a => Fin.ext (by match a with | ⟨0, _⟩ => rfl | ⟨1, _⟩ => rfl | ⟨2, _⟩ => rfl)

private theorem at26 (b : Fin 4096) (o : Fin 128) (k : Fin 256) : idx_main_v26 (ix3 b o k) = ix3 b (0 : Fin 1) k :=
  funext fun a => Fin.ext (by match a with | ⟨0, _⟩ => rfl | ⟨1, _⟩ => rfl | ⟨2, _⟩ => rfl)

private theorem at33 (b : Fin 4096) (o : Fin 128) (k : Fin 256) : idx_main_v33 (ix3 b o k) = ix3 b (0 : Fin 1) k :=
  funext fun a => Fin.ext (by match a with | ⟨0, _⟩ => rfl | ⟨1, _⟩ => rfl | ⟨2, _⟩ => rfl)

private theorem at12 (b : Fin 4096) (k : Fin 256) : idx_main_v12 (ix3 b (0 : Fin 1) k) = ix2 b k :=
  funext fun a => Fin.ext (by match a with | ⟨0, _⟩ => rfl | ⟨1, _⟩ => rfl)

private theorem at30 (b : Fin 4096) (k : Fin 256) : idx_main_v30 (ix3 b (0 : Fin 1) k) = ix2 b k :=
  funext fun a => Fin.ext (by match a with | ⟨0, _⟩ => rfl | ⟨1, _⟩ => rfl)

private theorem at32 (b : Fin 4096) (o : Fin 128) (k : Fin 256) : idx_main_v32 (ix3 b o k) = ix3 (0 : Fin 1) o k :=
  funext fun a => Fin.ext (by match a with | ⟨0, _⟩ => rfl | ⟨1, _⟩ => rfl | ⟨2, _⟩ => rfl)

private theorem at36 (b : Fin 4096) (o : Fin 128) (k : Fin 256) : idx_main_v36 (ix3 b o k) = ix3 (0 : Fin 1) o k :=
  funext fun a => Fin.ext (by match a with | ⟨0, _⟩ => rfl | ⟨1, _⟩ => rfl | ⟨2, _⟩ => rfl)

private theorem at31 (o : Fin 128) (k : Fin 256) : idx_main_v31 (ix3 (0 : Fin 1) o k) = ix2 o k :=
  funext fun a => Fin.ext (by match a with | ⟨0, _⟩ => rfl | ⟨1, _⟩ => rfl)

private theorem at35 (o : Fin 128) (k : Fin 256) : idx_main_v35 (ix3 (0 : Fin 1) o k) = ix2 o k :=
  funext fun a => Fin.ext (by match a with | ⟨0, _⟩ => rfl | ⟨1, _⟩ => rfl)

/-! ## The stages, one at a time -/

/-- The interpolation weight α at input entry (b, k). -/
private theorem alpha_val (x0 : (⟨S4096x256, .f32⟩ : BufTy).Contents (Elt Ideal)) (b : Fin 4096) (k : Fin 256) :
    val_main_v11 (F := Ideal) x0 (ix2 b k) = Cert.Spline.alphaR (x0 (ix2 b k)) := by
  rw [val_main_v11_apply, val_main_v10_apply, knot_val, left_word]
  rfl

/-- The base activation x · (1 / (1 + e^(-x))) at input entry (b, k). -/
private theorem silu_val (x0 : (⟨S4096x256, .f32⟩ : BufTy).Contents (Elt Ideal)) (b : Fin 4096) (k : Fin 256) :
    val_main_v29 (F := Ideal) x0 (ix2 b k) = Cert.Spline.siluR (x0 (ix2 b k)) := by
  rw [val_main_v29_apply, val_main_call4_v5_apply, val_main_call4_v4_apply, val_main_call4_cst_0_apply,
    val_main_call4_v3_apply, val_main_call4_v2_apply, val_main_call4_cst_apply, val_main_call4_v1_apply,
    val_main_call4_v0_apply]
  unfold Cert.Spline.siluR
  simp only [Ideal.mulf_def, Ideal.hostDivf_def, Ideal.addf_def, Ideal.hostUnary_exp_def, Ideal.hostNegf_def,
    Ideal.negf_def, Ideal.ofBits_def]

/-- α broadcast over the units: the weight of the right neighbour. -/
private theorem wr_val (x0 : (⟨S4096x256, .f32⟩ : BufTy).Contents (Elt Ideal)) (b : Fin 4096) (o : Fin 128) (k : Fin 256) :
    val_main_v26 (F := Ideal) x0 (ix3 b o k) = Cert.Spline.alphaR (x0 (ix2 b k)) := by
  rw [val_main_v26_apply, at26, val_main_v12_apply, at12, alpha_val]

/-- 1 - α broadcast over the units: the weight of the left neighbour. -/
private theorem wl_val (x0 : (⟨S4096x256, .f32⟩ : BufTy).Contents (Elt Ideal)) (b : Fin 4096) (o : Fin 128) (k : Fin 256) :
    val_main_v24 (F := Ideal) x0 (ix3 b o k)
      = Cert.Spline.lit 0x3F800000#32 - Cert.Spline.alphaR (x0 (ix2 b k)) := by
  rw [val_main_v24_apply, at24, val_main_v23_apply, val_main_v22_apply, val_main_cst_6_apply, val_main_v12_apply,
    at12, alpha_val]
  rfl

/-- The piecewise-linear interpolation (1 - α) · s[L] + α · s[L+1] at (b, o, k). -/
private theorem interp_val (x0 : (⟨S4096x256, .f32⟩ : BufTy).Contents (Elt Ideal))
    (x1 : (⟨S128x256x16, .f32⟩ : BufTy).Contents (Elt Ideal)) (b : Fin 4096) (o : Fin 128) (k : Fin 256) :
    val_main_v28 (F := Ideal) x0 x1 (ix3 b o k)
      = (Cert.Spline.lit 0x3F800000#32 - Cert.Spline.alphaR (x0 (ix2 b k)))
          * Cert.Spline.takeR (fun g => x1 (ix3 o k g)) (Cert.Spline.leftW (Cert.Spline.knotR (x0 (ix2 b k))))
        + Cert.Spline.alphaR (x0 (ix2 b k))
          * Cert.Spline.takeR (fun g => x1 (ix3 o k g))
              (IntOp.addi (Cert.Spline.leftW (Cert.Spline.knotR (x0 (ix2 b k)))) 1#32) := by
  rw [val_main_v28_apply, val_main_v25_apply, val_main_v27_apply, wl_val, wr_val, left_val, right_val]
  rfl

/-- The base term's two factors at (b, o, k): the base scale and the base activation. -/
private theorem base_val (x0 : (⟨S4096x256, .f32⟩ : BufTy).Contents (Elt Ideal))
    (x2 : (⟨S128x256, .f32⟩ : BufTy).Contents (Elt Ideal)) (b : Fin 4096) (o : Fin 128) (k : Fin 256) :
    val_main_v34 (F := Ideal) x0 x2 (ix3 b o k) = x2 (ix2 o k) * Cert.Spline.siluR (x0 (ix2 b k)) := by
  rw [val_main_v34_apply, val_main_v32_apply, at32, val_main_v31_apply, at31, val_main_v33_apply, at33,
    val_main_v30_apply, at30, silu_val]
  rfl

/-- The spline scale broadcast over the rows. -/
private theorem scale_val (x3 : (⟨S128x256, .f32⟩ : BufTy).Contents (Elt Ideal)) (b : Fin 4096) (o : Fin 128) (k : Fin 256) :
    val_main_v36 (F := Ideal) x3 (ix3 b o k) = x3 (ix2 o k) := by
  rw [val_main_v36_apply, at36, val_main_v35_apply, at35]

/-- One summand of the last stage is one reference-form edge. -/
private theorem edge_val (x0 : (⟨S4096x256, .f32⟩ : BufTy).Contents (Elt Ideal))
    (x1 : (⟨S128x256x16, .f32⟩ : BufTy).Contents (Elt Ideal))
    (x2 x3 : (⟨S128x256, .f32⟩ : BufTy).Contents (Elt Ideal)) (b : Fin 4096) (o : Fin 128) (k : Fin 256) :
    val_main_v38 (F := Ideal) x0 x1 x2 x3 (ix3 b o k)
      = Cert.Spline.edgeR (x0 (ix2 b k)) (fun g => x1 (ix3 o k g)) (x3 (ix2 o k)) (x2 (ix2 o k)) := by
  rw [val_main_v38_apply, val_main_v37_apply, base_val, scale_val, interp_val]
  rfl

/-- Index by index the reference's last stage is zero plus the sum of the 256 reference-form edges. -/
theorem ref_eq (x0 : (⟨S4096x256, .f32⟩ : BufTy).Contents (Elt Ideal)) (x1 : (⟨S128x256x16, .f32⟩ : BufTy).Contents (Elt Ideal))
    (x2 x3 : (⟨S128x256, .f32⟩ : BufTy).Contents (Elt Ideal)) :
    val_main_v39 (F := Ideal) x0 x1 x2 x3 = Cert.Spline.kanR x0 x1 x2 x3 := by
  funext j
  obtain ⟨b, o, rfl⟩ : ∃ (b : Fin 4096) (o : Fin 128), j = ix2 b o := ⟨j 0, j 1, eq_ix2 j⟩
  rw [Cert.Spline.kanR_ix2, val_main_v39_apply, val_main_cst_7_apply]
  unfold Cert.Spline.kanRAt
  refine congrArg (_ + ·) (Finset.sum_congr rfl fun k _ => ?_)
  rw [at39, edge_val]

end Cert.ReferenceIdeal.RefValue

end
-- ==== Proof.KernelBlock.lean ====
/-
  What one grid point's body leaves in the output block, entry by entry.
-/
import proofs.«102799_j21638045237976_1_alg».proof.Proof.Gen.KernelIdeal.Frame
import proofs.«102799_j21638045237976_1_alg».proof.Proof.SplineSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx
open scoped BigOperators

/-- The kernel's contraction record. -/
private abbrev D := dot_S512x256_S256x128_S512x128_1_0_0_1_n_n

private theorem lhs_idx (p : Fin 512) (q : Fin 128) (k : Fin 256) :
    D.lhsIdx (ix2 p q) ((contrEquiv1 D 256 rfl rfl).symm k) = ix2 p k := by
  have c2 := contrEquiv1_symm_val D 256 rfl rfl k
  funext ax; apply Fin.ext
  match ax with
  | ⟨0, _⟩ => simp [DotDims.lhsIdx, D, dot_S512x256_S256x128_S512x128_1_0_0_1_n_n]; rfl
  | ⟨1, _⟩ => simp [DotDims.lhsIdx, D, dot_S512x256_S256x128_S512x128_1_0_0_1_n_n]; exact c2

private theorem rhs_idx (p : Fin 512) (q : Fin 128) (k : Fin 256) :
    D.rhsIdx (ix2 p q) ((contrEquiv1 D 256 rfl rfl).symm k) = ix2 k q := by
  have c2 := contrEquiv1_symm_val D 256 rfl rfl k
  funext ax; apply Fin.ext
  match ax with
  | ⟨0, _⟩ => simp [DotDims.rhsIdx, D, dot_S512x256_S256x128_S512x128_1_0_0_1_n_n]; exact c2
  | ⟨1, _⟩ => simp [DotDims.rhsIdx, D, dot_S512x256_S256x128_S512x128_1_0_0_1_n_n]; rfl

/-- One block product at an entry: row p of the left factor against row q of the (transposed) right factor. -/
private theorem mm_apply (a : FVec Ideal S512x256 .f32) (w : FVec Ideal S128x256 .f32) (p : Fin 512) (q : Fin 128) :
    matmul dot_S512x256_S256x128_S512x128_1_0_0_1_n_n none (truncf .bf16 a bitsLt_bf16_f32)
      (truncf .bf16 (transpose S256x128 [1, 0] w transposes_S128x256_p1_0_S256x128) bitsLt_bf16_f32)
      (constant S512x128 .f32 0x00000000#32) (ix2 p q) = ∑ k : Fin 256, a (ix2 p k) * w (ix2 q k) := by
  show FloatOps.matmul D none _ _ (constant S512x128 .f32 0x00000000#32) (ix2 p q) = _
  rw [Ideal.matmul_constant_zero_apply, ← Equiv.sum_comp (contrEquiv1 D 256 rfl rfl).symm]
  refine Finset.sum_congr rfl fun k _ => ?_
  rw [lhs_idx, rhs_idx, truncf_apply, truncf_apply, transpose_ix2_apply]

/-- The triangular weight of the knot whose coordinate word is w, over a block of knot coordinates. -/
private def hatV (w : BitVec 32) (t : FVec Ideal S512x256 .f32) : FVec Ideal S512x256 .f32 :=
  maximumf (broadcast S512x256 (Scalar.ofBits (F := Ideal) .f32 0x00000000#32))
    (subf (broadcast S512x256 (Scalar.ofBits (F := Ideal) .f32 0x3F800000#32))
      (absf (subf t (broadcast S512x256 (Scalar.ofBits (F := Ideal) .f32 w)))))

/-- Row p of a weight block against row q of a knot slab scaled by the spline scales. -/
private def dotW (h : FVec Ideal S512x256 .f32) (slab : Vec Ideal S1x128x256 .f32) (c : Vec Ideal S128x256 .f32)
    (p : Fin 512) (q : Fin 128) : EReal :=
  ∑ k : Fin 256, h (ix2 p k) * (slab (ix3 (0 : Fin 1) q k) * c (ix2 q k))

/-- The block product of a weight block with a scaled knot slab, at an entry. -/
private theorem mmW_apply (h : FVec Ideal S512x256 .f32)
    (slab : Vec Ideal S1x128x256 .f32) (c : Vec Ideal S128x256 .f32) (p : Fin 512) (q : Fin 128) :
    matmul dot_S512x256_S256x128_S512x128_1_0_0_1_n_n none (truncf .bf16 h bitsLt_bf16_f32)
      (truncf .bf16 (transpose S256x128 [1, 0] (mulf (shapeCast S128x256 slab shapeCasts_S1x128x256_S128x256) c)
        transposes_S128x256_p1_0_S256x128) bitsLt_bf16_f32)
      (constant S512x128 .f32 0x00000000#32) (ix2 p q) = dotW h slab c p q := by
  rw [mm_apply]
  refine Finset.sum_congr rfl fun k _ => ?_
  rw [mulf_apply, shapeCast_1ab_ab_apply]

/-- One accumulation step at an entry: the accumulator plus that block product. -/
private theorem step_apply (acc : FVec Ideal S512x128 .f32) (h : FVec Ideal S512x256 .f32)
    (slab : Vec Ideal S1x128x256 .f32) (c : Vec Ideal S128x256 .f32) (p : Fin 512) (q : Fin 128) :
    addf acc (matmul dot_S512x256_S256x128_S512x128_1_0_0_1_n_n none (truncf .bf16 h bitsLt_bf16_f32)
      (truncf .bf16 (transpose S256x128 [1, 0] (mulf (shapeCast S128x256 slab shapeCasts_S1x128x256_S128x256) c)
        transposes_S128x256_p1_0_S256x128) bitsLt_bf16_f32)
      (constant S512x128 .f32 0x00000000#32)) (ix2 p q)
      = acc (ix2 p q) + dotW h slab c p q := by
  rw [addf_apply, mmW_apply]

private theorem pay3_apply (v0 : Vec Ideal S512x256 .f32) (v9 v10 : Vec Ideal S128x256 .f32) (v24 : Vec Ideal S1x128x256 .f32)
    (p : Fin 512) (q : Fin 128) :
    k0_pay3 v0 v9 v10 v24 (ix2 p q)
      = (∑ k : Fin 256, Cert.Spline.silu (v0 (ix2 p k)) * v9 (ix2 q k))
        + dotW (hatV 0x00000000#32 (k0_pay2 v0)) v24 v10 p q := by
  unfold k0_pay3
  refine (step_apply _ _ _ _ p q).trans ?_
  refine congrArg (· + _) ?_
  exact mm_apply _ _ p q

private theorem pay6_apply (v8 : FVec Ideal S512x256 .f32) (v10 : Vec Ideal S128x256 .f32) (v31 : FVec Ideal S512x128 .f32)
    (v36 v37 : FVec Ideal S512x256 .f32) (v39 v54 v69 : Vec Ideal S1x128x256 .f32) (p : Fin 512) (q : Fin 128) :
    k0_pay6 v8 v10 v31 v36 v37 v39 v54 v69 (ix2 p q)
      = v31 (ix2 p q) + dotW (maximumf v37 v36) v39 v10 p q + dotW (hatV 0x40000000#32 v8) v54 v10 p q
        + dotW (hatV 0x40400000#32 v8) v69 v10 p q := by
  unfold k0_pay6
  refine (step_apply _ _ _ _ p q).trans ?_
  refine congrArg (· + _) ?_
  refine (step_apply _ _ _ _ p q).trans ?_
  refine congrArg (· + _) ?_
  exact step_apply _ _ _ _ p q

private theorem pay8_apply (v8 : FVec Ideal S512x256 .f32) (v10 : Vec Ideal S128x256 .f32) (v76 : FVec Ideal S512x128 .f32)
    (v78 : FVec Ideal S512x256 .f32) (v84 v99 : Vec Ideal S1x128x256 .f32) (p : Fin 512) (q : Fin 128) :
    k0_pay8 v8 v10 v76 v78 v84 v99 (ix2 p q)
      = v76 (ix2 p q)
        + dotW (maximumf (broadcast S512x256 (Scalar.ofBits (F := Ideal) .f32 0x00000000#32))
            (subf (broadcast S512x256 (Scalar.ofBits (F := Ideal) .f32 0x3F800000#32)) (absf v78))) v84 v10 p q
        + dotW (hatV 0x40A00000#32 v8) v99 v10 p q := by
  unfold k0_pay8
  refine (step_apply _ _ _ _ p q).trans ?_
  refine congrArg (· + _) ?_
  exact step_apply _ _ _ _ p q

private theorem pay9_10_apply (v8 : FVec Ideal S512x256 .f32) (v10 : Vec Ideal S128x256 .f32) (v114 : Vec Ideal S1x128x256 .f32)
    (p : Fin 512) (q : Fin 128) :
    matmul dot_S512x256_S256x128_S512x128_1_0_0_1_n_n none (k0_pay9 v8) (k0_pay10 v10 v114)
      (constant S512x128 .f32 0x00000000#32) (ix2 p q) = dotW (hatV 0x40C00000#32 v8) v114 v10 p q :=
  mmW_apply _ _ _ p q

private theorem pay11_apply (v8 : FVec Ideal S512x256 .f32) (v10 : Vec Ideal S128x256 .f32) (v106 : FVec Ideal S512x128 .f32)
    (v117 : FVec Ideal S512x256 .bf16) (v119 : FVec Ideal S256x128 .bf16) (v129 v144 : Vec Ideal S1x128x256 .f32)
    (p : Fin 512) (q : Fin 128) :
    k0_pay11 v8 v10 v106 v117 v119 v129 v144 (ix2 p q)
      = v106 (ix2 p q)
        + matmul dot_S512x256_S256x128_S512x128_1_0_0_1_n_n none v117 v119 (constant S512x128 .f32 0x00000000#32) (ix2 p q)
        + dotW (hatV 0x40E00000#32 v8) v129 v10 p q + dotW (hatV 0x41000000#32 v8) v144 v10 p q := by
  unfold k0_pay11
  refine (step_apply _ _ _ _ p q).trans ?_
  refine congrArg (· + _) ?_
  refine (step_apply _ _ _ _ p q).trans ?_
  refine congrArg (· + _) ?_
  rfl

private theorem pay13_apply (v8 : FVec Ideal S512x256 .f32) (v10 : Vec Ideal S128x256 .f32) (v151 : FVec Ideal S512x128 .f32)
    (v158 : FVec Ideal S512x256 .f32) (v159 v174 v189 : Vec Ideal S1x128x256 .f32) (p : Fin 512) (q : Fin 128) :
    k0_pay13 v8 v10 v151 v158 v159 v174 v189 (ix2 p q)
      = v151 (ix2 p q) + dotW v158 v159 v10 p q + dotW (hatV 0x41200000#32 v8) v174 v10 p q
        + dotW (hatV 0x41300000#32 v8) v189 v10 p q := by
  unfold k0_pay13
  refine (step_apply _ _ _ _ p q).trans ?_
  refine congrArg (· + _) ?_
  refine (step_apply _ _ _ _ p q).trans ?_
  refine congrArg (· + _) ?_
  exact step_apply _ _ _ _ p q

private theorem pay15_apply (v8 : FVec Ideal S512x256 .f32) (v10 : Vec Ideal S128x256 .f32) (v196 : FVec Ideal S512x128 .f32)
    (v201 : FVec Ideal S512x256 .f32) (v204 v219 v234 : Vec Ideal S1x128x256 .f32) (p : Fin 512) (q : Fin 128) :
    k0_pay15 v8 v10 v196 v201 v204 v219 v234 (ix2 p q)
      = v196 (ix2 p q)
        + dotW (maximumf (broadcast S512x256 (Scalar.ofBits (F := Ideal) .f32 0x00000000#32)) v201) v204 v10 p q
        + dotW (hatV 0x41500000#32 v8) v219 v10 p q + dotW (hatV 0x41600000#32 v8) v234 v10 p q := by
  unfold k0_pay15
  refine (step_apply _ _ _ _ p q).trans ?_
  refine congrArg (· + _) ?_
  refine (step_apply _ _ _ _ p q).trans ?_
  refine congrArg (· + _) ?_
  exact step_apply _ _ _ _ p q

private theorem pay1_apply (v8 : FVec Ideal S512x256 .f32) (v10 : Vec Ideal S128x256 .f32) (v241 : FVec Ideal S512x128 .f32)
    (w : BitVec 32) (v249 : Vec Ideal S1x128x256 .f32) (p : Fin 512) (q : Fin 128) :
    k0_pay1 v8 v10 v241 (Scalar.ofBits (F := Ideal) .f32 w) v249 (ix2 p q)
      = v241 (ix2 p q) + dotW (hatV w v8) v249 v10 p q := by
  unfold k0_pay1
  exact step_apply _ _ _ _ p q

/-- The zero offsets of a whole-block access. -/
private theorem hz2 : (![0, 0] : Fin 2 → Nat) = fun _ => 0 := funext fun a => by fin_cases a <;> rfl

/-- The load of knot g's slab of the knot table reads the table at knot g. -/
private theorem ld_slab (x1 : Vec Ideal S16x128x256 .f32) (g : Fin 16)
    (inb : ∀ a, (![g.val, 0, 0] : Fin 3 → Nat) a + S1x128x256.size a ≤ S16x128x256.size a) (q : Fin 128) (k : Fin 256) :
    View.ld x1 (Rect.unit (s := S16x128x256) ![g.val, 0, 0] S1x128x256.size inb) (ix3 (0 : Fin 1) q k) = x1 (ix3 g q k) := by
  show x1 _ = x1 _
  congr 1
  funext a; apply Fin.ext
  match a with
  | ⟨0, _⟩ => show g.val + 1 * 0 = g.val; omega
  | ⟨1, _⟩ => show 0 + 1 * q.val = q.val; omega
  | ⟨2, _⟩ => show 0 + 1 * k.val = k.val; omega

/-- A weight block that is knot w's hat of the knot coordinates, against knot g's slab: that knot's contraction. -/
private theorem dotW_hat (w : BitVec 32) (g : Fin 16) (h : FVec Ideal S512x256 .f32) (x0 : Vec Ideal S512x256 .f32)
    (x1 : Vec Ideal S16x128x256 .f32) (x3 : Vec Ideal S128x256 .f32) (slab : Vec Ideal S1x128x256 .f32)
    (hh : ∀ i, h i = Cert.Spline.hat w (Cert.Spline.knotK (x0 i)))
    (hs : ∀ (q : Fin 128) (k : Fin 256), slab (ix3 (0 : Fin 1) q k) = x1 (ix3 g q k)) (p : Fin 512) (q : Fin 128) :
    dotW h slab x3 p q
      = Cert.Spline.hatDot w (fun k => x0 (ix2 p k)) (fun k => x1 (ix3 g q k)) (fun k => x3 (ix2 q k)) := by
  unfold dotW Cert.Spline.hatDot
  refine Finset.sum_congr rfl fun k _ => ?_
  rw [hh, hs]

private theorem add_congr {a a' b b' : EReal} (h1 : a = a') (h2 : b = b') : a + b = a' + b' := by rw [h1, h2]

/-- Entry (p, q) of the block the body stores, from the four input blocks: the base contraction of row p of the input
    block with row q of the base scales, then the sixteen knots' contractions added in order. -/
theorem out_apply (x0 : Vec Ideal S512x256 .f32) (x1 : Vec Ideal S16x128x256 .f32) (x2 x3 : Vec Ideal S128x256 .f32)
    (p : Fin 512) (q : Fin 128) :
    out0_4 (F := Ideal) x0 x1 x2 x3 (ix2 p q)
      = Cert.Spline.nest (fun k => x0 (ix2 p k)) (fun g k => x1 (ix3 g q k)) (fun k => x3 (ix2 q k)) (fun k => x2 (ix2 q k)) := by
  have e0 : View.ld x0 r0_0 = x0 := View.ld_unit_zero (S := S512x256) hz2 _ x0
  have e2 : View.ld x2 r0_1 = x2 := View.ld_unit_zero (S := S128x256) hz2 _ x2
  have e3 : View.ld x3 r0_1 = x3 := View.ld_unit_zero (S := S128x256) hz2 _ x3
  unfold out0_4
  rw [View.canon_unit_zero (S := S512x128) hz2, e0, e2, e3]
  rw [pay1_apply, pay15_apply, pay13_apply, pay11_apply, pay9_10_apply, pay8_apply, pay6_apply, pay3_apply]
  unfold Cert.Spline.nest
  refine add_congr (add_congr (add_congr (add_congr (add_congr (add_congr (add_congr (add_congr (add_congr (add_congr
    (add_congr (add_congr (add_congr (add_congr (add_congr (add_congr ?_ ?_) ?_) ?_) ?_) ?_) ?_) ?_) ?_) ?_) ?_) ?_) ?_) ?_) ?_) ?_) ?_
  · rfl
  · exact dotW_hat 0x00000000#32 0 _ x0 x1 x3 _ (by intro i; rfl) (by intro q k; exact ld_slab x1 0 _ q k) p q
  · exact dotW_hat 0x3F800000#32 1 _ x0 x1 x3 _ (by intro i; rfl) (by intro q k; exact ld_slab x1 1 _ q k) p q
  · exact dotW_hat 0x40000000#32 2 _ x0 x1 x3 _ (by intro i; rfl) (by intro q k; exact ld_slab x1 2 _ q k) p q
  · exact dotW_hat 0x40400000#32 3 _ x0 x1 x3 _ (by intro i; rfl) (by intro q k; exact ld_slab x1 3 _ q k) p q
  · exact dotW_hat 0x40800000#32 4 _ x0 x1 x3 _ (by intro i; rfl) (by intro q k; exact ld_slab x1 4 _ q k) p q
  · exact dotW_hat 0x40A00000#32 5 _ x0 x1 x3 _ (by intro i; rfl) (by intro q k; exact ld_slab x1 5 _ q k) p q
  · exact dotW_hat 0x40C00000#32 6 _ x0 x1 x3 _ (by intro i; rfl) (by intro q k; exact ld_slab x1 6 _ q k) p q
  · exact dotW_hat 0x40E00000#32 7 _ x0 x1 x3 _ (by intro i; rfl) (by intro q k; exact ld_slab x1 7 _ q k) p q
  · exact dotW_hat 0x41000000#32 8 _ x0 x1 x3 _ (by intro i; rfl) (by intro q k; exact ld_slab x1 8 _ q k) p q
  · exact dotW_hat 0x41100000#32 9 _ x0 x1 x3 _ (by intro i; rfl) (by intro q k; exact ld_slab x1 9 _ q k) p q
  · exact dotW_hat 0x41200000#32 10 _ x0 x1 x3 _ (by intro i; rfl) (by intro q k; exact ld_slab x1 10 _ q k) p q
  · exact dotW_hat 0x41300000#32 11 _ x0 x1 x3 _ (by intro i; rfl) (by intro q k; exact ld_slab x1 11 _ q k) p q
  · exact dotW_hat 0x41400000#32 12 _ x0 x1 x3 _ (by intro i; rfl) (by intro q k; exact ld_slab x1 12 _ q k) p q
  · exact dotW_hat 0x41500000#32 13 _ x0 x1 x3 _ (by intro i; rfl) (by intro q k; exact ld_slab x1 13 _ q k) p q
  · exact dotW_hat 0x41600000#32 14 _ x0 x1 x3 _ (by intro i; rfl) (by intro q k; exact ld_slab x1 14 _ q k) p q
  · exact dotW_hat 0x41700000#32 15 _ x0 x1 x3 _ (by intro i; rfl) (by intro q k; exact ld_slab x1 15 _ q k) p q

end Cert.KernelIdeal.Block

end
-- ==== Proof.KernelArray.lean ====
/-
  From the blocks to the whole output array, and the kernel's run with its result named.
-/
import proofs.«102799_j21638045237976_1_alg».proof.Proof.Gen.KernelIdeal.Value
import proofs.«102799_j21638045237976_1_alg».proof.Proof.SplineSpec
import proofs.«102799_j21638045237976_1_alg».proof.Proof.KernelBlock
import Idealize.ShloMosaic.Lib.ValueIdx
import Idealize.ShloMosaic.Lib.Pipeline.Value

noncomputable section

namespace Cert.KernelIdeal.Whole

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where each window's block sits at a grid point -/

/-- The index maps over the eight grid points: the window of input rows and the output window sit at block row `t`,
    block column 0; the three parameter windows are whole arrays, at block 0 on every axis. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ t.val < 8 :=
  (by decide +kernel : ∀ t : Fin grid0.N, _)

/-- The accumulation depends only on its four families of values. -/
theorem nest_congr {X X' : Fin 256 → EReal} {S S' : Fin 16 → Fin 256 → EReal} {C C' D D' : Fin 256 → EReal}
    (hX : X = X') (hS : S = S') (hC : C = C') (hD : D = D') :
    Cert.Spline.nest X S C D = Cert.Spline.nest X' S' C' D' := by
  subst hX hS hC hD; rfl

/-! ## Each input block as entries of the argument arrays -/

/-- The block of input rows at point `t` is rows `512 t … 512 t + 511` of the first argument. -/
theorem iblk0_apply (c : Dev nD) (t : Fin cfg0.N) (x : S512x256.Idx) (k : S4096x256.Idx)
    (hk0 : (k 0).val = 512 * t.val + (x 0).val) (hk1 : (k 1).val = (x 1).val) :
    (iblk m c 0 t : Vec Ideal S512x256 .f32) x
      = (m ((c : Thread nD τ).loc main_arg0) : S4096x256.Idx → Elt Ideal .f32) k := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 512 + 1 * (x 0).val = (k 0).val; omega
  | ⟨1, _⟩ => show win0_0.index t (1 : Fin 2) * 256 + 1 * (x 1).val = (k 1).val; omega

/-- The knot-major array the region finds is the second argument with its knot axis moved to the front. -/
theorem entry_knots (c : Dev nD) :
    (V m c main_v0 : S16x128x256.Idx → Elt Ideal .f32)
      = transpose S16x128x256 [2, 0, 1] (m ((c : Thread nD τ).loc main_arg1) : S128x256x16.Idx → Elt Ideal .f32)
          transposes_S128x256x16_S16x128x256_2_0_1 := by
  dsimp only [Gen.V, Gen.hostOps0]; after_results

/-- The knot window is that whole array at every point: entry (g, o, k) is the second argument's entry (o, k, g). -/
theorem iblk1_apply (c : Dev nD) (t : Fin cfg0.N) (x : S16x128x256.Idx) (k : S128x256x16.Idx)
    (h0 : (k 2).val = (x 0).val) (h1 : (k 0).val = (x 1).val) (h2 : (k 1).val = (x 2).val) :
    (iblk m c 1 t : Vec Ideal S16x128x256 .f32) x
      = (m ((c : Thread nD τ).loc main_arg1) : S128x256x16.Idx → Elt Ideal .f32) k := by
  obtain ⟨-, -, e0, e1, e2, -⟩ := idx_facts t
  unfold iblk
  rw [View.read_apply]
  show V m c main_v0 (((cfg0.win 1).blk t).view.emb x) = _
  have hx : ((cfg0.win 1).blk t).view.emb x = x := funext fun a => Fin.ext (by
    match a with
    | ⟨0, _⟩ => show win0_1.index t (0 : Fin 3) * 16 + 1 * (x 0).val = (x 0).val; omega
    | ⟨1, _⟩ => show win0_1.index t (1 : Fin 3) * 128 + 1 * (x 1).val = (x 1).val; omega
    | ⟨2, _⟩ => show win0_1.index t (2 : Fin 3) * 256 + 1 * (x 2).val = (x 2).val; omega)
  rw [hx, entry_knots]
  exact transpose_apply _ _ _ x k (fun b => match b with | ⟨0, _⟩ => h0 | ⟨1, _⟩ => h1 | ⟨2, _⟩ => h2)

/-- The base-scale window is the whole third argument at every point. -/
theorem iblk2_apply (c : Dev nD) (t : Fin cfg0.N) (x : S128x256.Idx) :
    (iblk m c 2 t : Vec Ideal S128x256 .f32) x
      = (m ((c : Thread nD τ).loc main_arg2) : S128x256.Idx → Elt Ideal .f32) x := by
  obtain ⟨-, -, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 128 + 1 * (x 0).val = (x 0).val; omega
  | ⟨1, _⟩ => show win0_2.index t (1 : Fin 2) * 256 + 1 * (x 1).val = (x 1).val; omega

/-- The spline-scale window is the whole fourth argument at every point. -/
theorem iblk3_apply (c : Dev nD) (t : Fin cfg0.N) (x : S128x256.Idx) :
    (iblk m c 3 t : Vec Ideal S128x256 .f32) x
      = (m ((c : Thread nD τ).loc main_arg3) : S128x256.Idx → Elt Ideal .f32) x := by
  obtain ⟨-, -, -, -, -, -, -, e0, e1, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 2) * 128 + 1 * (x 0).val = (x 0).val; omega
  | ⟨1, _⟩ => show win0_3.index t (1 : Fin 2) * 256 + 1 * (x 1).val = (x 1).val; omega

/-! ## What a point writes back, and the cover -/

/-- Point `t` writes back block `t` of the specification: entry (p, q) of its block is the accumulation for input row
    `512 t + p` and unit `q`. -/
theorem flushed_eq (c : Dev nD) (t : Fin cfg0.N) :
    (dats m 0 c).flushed 4 t = ((cfg0.win 4).blk t).view.read (Elt Ideal)
      (Cert.Spline.kanK (m ((c : Thread nD τ).loc main_arg0)) (m ((c : Thread nD τ).loc main_arg1))
        (m ((c : Thread nD τ).loc main_arg2)) (m ((c : Thread nD τ).loc main_arg3))) := by
  rw [Value.flushed4]
  funext y
  obtain ⟨p, q, rfl⟩ : ∃ (p : Fin 512) (q : Fin 128), y = ix2 p q := ⟨y 0, y 1, eq_ix2 y⟩
  obtain ⟨-, -, -, -, -, -, -, -, -, e0, e1, ht⟩ := idx_facts t
  have hr : 512 * t.val + p.val < 4096 := by have := p.isLt; omega
  have hemb : ((cfg0.win 4).blk t).view.emb (ix2 p q) = ix2 (⟨512 * t.val + p.val, hr⟩ : Fin 4096) q :=
    funext fun a => Fin.ext (by
      match a with
      | ⟨0, _⟩ => show win0_4.index t (0 : Fin 2) * 512 + 1 * p.val = 512 * t.val + p.val; omega
      | ⟨1, _⟩ => show win0_4.index t (1 : Fin 2) * 128 + 1 * q.val = q.val; omega)
  show out0_4 (F := Ideal) (iblk m c 0 t) (iblk m c 1 t) (iblk m c 2 t) (iblk m c 3 t) (ix2 p q)
      = Cert.Spline.kanK (m ((c : Thread nD τ).loc main_arg0)) (m ((c : Thread nD τ).loc main_arg1))
          (m ((c : Thread nD τ).loc main_arg2)) (m ((c : Thread nD τ).loc main_arg3))
          (((cfg0.win 4).blk t).view.emb (ix2 p q))
  rw [hemb, Cert.Spline.kanK_ix2]
  refine (Block.out_apply _ _ _ _ p q).trans ?_
  unfold Cert.Spline.kanKAt
  refine nest_congr ?_ ?_ ?_ ?_
  · funext k; exact iblk0_apply m c t _ _ rfl rfl
  · funext g k; exact iblk1_apply m c t _ _ rfl rfl rfl
  · funext k; exact iblk3_apply m c t _
  · funext k; exact iblk2_apply m c t _

/-- An index of the output array is in point `t`'s block iff each coordinate is in the block's range on its axis. -/
theorem mem_blk (t : Fin cfg0.N) (i : S4096x128.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v1).slice (win0_4.rect t)).set ↔ _
  rw [View.set_slice_whole, Rect.mem_set_unit]
  exact Iff.rfl

/-- Every index of the output array is in some point's block: row `r` in the block of point `r / 512`. -/
theorem cover (i : S4096x128.Idx) :
    ∃ t : Fin cfg0.N, (cfg0.win 4).flush t = true ∧ i ∈ ((cfg0.win 4).blk t).view.set := by
  have hi0 : (i 0).val < 4096 := (i 0).isLt
  have hi1 : (i 1).val < 128 := (i 1).isLt
  have hN : cfg0.N = 8 := N_0
  obtain ⟨t, ht⟩ : ∃ t : Fin cfg0.N, t.val = (i 0).val / 512 := ⟨⟨(i 0).val / 512, by rw [hN]; omega⟩, rfl⟩
  obtain ⟨-, -, -, -, -, -, -, -, -, e0, e1, -⟩ := idx_facts t
  refine ⟨t, flush0_4 t, ?_⟩
  rw [mem_blk]
  intro a
  match a with
  | ⟨0, _⟩ =>
    show win0_4.index t (0 : Fin 2) * 512 ≤ (i 0).val ∧ (i 0).val < win0_4.index t (0 : Fin 2) * 512 + 512
    omega
  | ⟨1, _⟩ =>
    show win0_4.index t (1 : Fin 2) * 128 ≤ (i 1).val ∧ (i 1).val < win0_4.index t (1 : Fin 2) * 128 + 128
    omega

/-! ## The whole array, and the run -/

/-- After the run the output array is the kernel-form specification of the four argument arrays. -/
theorem final (c : Dev nD) :
    (dats m 0 c).arrAt 4 cfg0.N
      = Cert.Spline.kanK (m ((c : Thread nD τ).loc main_arg0)) (m ((c : Thread nD τ).loc main_arg1))
          (m ((c : Thread nD τ).loc main_arg2)) (m ((c : Thread nD τ).loc main_arg3)) :=
  (dats m 0 c).arrAt_eq_of_cover 4 _ (fun t _ => flushed_eq m c t) cover

/-- The kernel's run, its result array named. -/
theorem run : θ_run defs (onTc (τ := τ) (main (F := Ideal))) ⟨m, fun _ => 0, ρ⟩ fun r => ∀ c : Dev nD,
      r.2.mem ((c : Thread nD τ).loc main_v1)
        = Cert.Spline.kanK (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.Finite.lean ====
/-
  The precondition, read entry by entry: every entry of the four input arrays is a real number.
-/
import proofs.«102799_j21638045237976_1_alg».proof.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx

variable [Cert.Pre_finite_inputs.Facts]

/-- The rank-0 shape has exactly one index. -/
private instance subsingleton_idx : Subsingleton Cert.Pre_finite_inputs.S_.Idx :=
  ⟨fun _ _ => funext fun d => d.elim0⟩

/-- An extended real whose absolute value compares strictly below the word of +∞ is a real number. -/
private theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- If the finiteness predicate is all ones then no entry of any input is an infinity. -/
theorem real_of_pre (x0 : FVec Ideal Cert.Pre_finite_inputs.S4096x256 .f32) (x1 : FVec Ideal Cert.Pre_finite_inputs.S128x256x16 .f32)
    (x2 x3 : FVec Ideal Cert.Pre_finite_inputs.S128x256 .f32)
    (h : Cert.Pre_finite_inputs.fn (F := Ideal) x0 x1 x2 x3 = fun _ => 1#1) :
    (∀ i, ∃ r : ℝ, x0 i = (r : EReal)) ∧ (∀ i, ∃ r : ℝ, x1 i = (r : EReal))
      ∧ (∀ i, ∃ r : ℝ, x2 i = (r : EReal)) ∧ (∀ i, ∃ r : ℝ, x3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  refine ⟨fun i => ?_, fun i => ?_, fun i => ?_, fun i => ?_⟩
  · exact real_of_abs_lt _ (Host.reduce_andi_all _ _ _ _ _ h0' i)
  · exact real_of_abs_lt _ (Host.reduce_andi_all _ _ _ _ _ h1 i)
  · exact real_of_abs_lt _ (Host.reduce_andi_all _ _ _ _ _ h2 i)
  · exact real_of_abs_lt _ (Host.reduce_andi_all _ _ _ _ _ h3 i)

end Cert.Finite

end
-- ==== Proof.lean ====
/-
  Equivalence over the extended reals of a layer of learnable one-dimensional activations — for every (row, unit) the sum
  over 256 input features of  bs · silu(x) + ss · spline(x),  the spline piecewise linear on 16 knots over [-2, 2] —
  computed two ways.  The reference finds each input's left knot by a floor and reads the two neighbouring knot values
  by index; the kernel weights all sixteen knot values by the triangular hat functions max(0, 1 - |t - g|) and contracts
  over the features once per knot, tile by tile of 512 rows.  Both are the same function of finite inputs:
    * the kernel's output array is the kernel-form specification (its blocks laid side by side);
    * the reference's last stage is the reference-form specification (each stage read at an index);
    * on finite inputs the two specifications agree edge by edge: at most two hats are non-zero at any t in [0, 15],
      with weights 1 - α and α at the left knot and its neighbour, and products distribute over the finite sum.
  The three frames are the runs with their results dropped; the idealization rewrote nothing.
-/
import proofs.«102799_j21638045237976_1_alg».proof.Defs
import proofs.«102799_j21638045237976_1_alg».proof.Proof.Gen.Kernel
import proofs.«102799_j21638045237976_1_alg».proof.Proof.Gen.Kernel.Skeleton
import proofs.«102799_j21638045237976_1_alg».proof.Proof.Gen.Kernel.Launch
import proofs.«102799_j21638045237976_1_alg».proof.Proof.Gen.Kernel.Points
import proofs.«102799_j21638045237976_1_alg».proof.Proof.Gen.Kernel.Frame
import proofs.«102799_j21638045237976_1_alg».proof.Proof.Gen.KernelIdeal
import proofs.«102799_j21638045237976_1_alg».proof.Proof.Gen.KernelIdeal.Skeleton
import proofs.«102799_j21638045237976_1_alg».proof.Proof.Gen.KernelIdeal.Launch
import proofs.«102799_j21638045237976_1_alg».proof.Proof.Gen.KernelIdeal.Points
import proofs.«102799_j21638045237976_1_alg».proof.Proof.Gen.KernelIdeal.Frame
import proofs.«102799_j21638045237976_1_alg».proof.Proof.Gen.KernelIdeal.Value
import proofs.«102799_j21638045237976_1_alg».proof.Proof.Gen.ReferenceIdeal
import proofs.«102799_j21638045237976_1_alg».proof.Proof.Gen.Pre_finite_inputs
import proofs.«102799_j21638045237976_1_alg».proof.Proof.RefRun
import proofs.«102799_j21638045237976_1_alg».proof.Proof.RefRead
import proofs.«102799_j21638045237976_1_alg».proof.Proof.RefStages
import proofs.«102799_j21638045237976_1_alg».proof.Proof.SplineSpec
import proofs.«102799_j21638045237976_1_alg».proof.Proof.SplineEdge
import proofs.«102799_j21638045237976_1_alg».proof.Proof.SplineSum
import proofs.«102799_j21638045237976_1_alg».proof.Proof.RefKnot
import proofs.«102799_j21638045237976_1_alg».proof.Proof.RefTake
import proofs.«102799_j21638045237976_1_alg».proof.Proof.RefSum
import proofs.«102799_j21638045237976_1_alg».proof.Proof.KernelBlock
import proofs.«102799_j21638045237976_1_alg».proof.Proof.KernelArray
import proofs.«102799_j21638045237976_1_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Stages.run (F := Ideal) m ρ)

/-- Both programs end with the kernel-form specification of the (agreeing, finite) argument arrays in their result. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Stages.run (F := Ideal) m' ρ')
  rw [Cert.ReferenceIdeal.RefValue.ref_eq,
    (hagree c).1, (hagree c).2.1, (hagree c).2.2.1, (hagree c).2.2.2]
  obtain ⟨h0, h1, h2, h3⟩ := Cert.Finite.real_of_pre _ _ _ _ (hpre c)
  exact (Cert.Spline.kanK_eq_kanR _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
